-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S512x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8192x512 .f32) (main_arg1 : IVec S8192x8192 32) (main_arg2 : FVec F S512x256 .f32) (main_arg3 : FVec F S512x1 .f32) (main_arg4 : FVec F S256 .f32) (main_arg5 : FVec F S512x256 .f32) (main_arg6 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256 : Shape := ⟨1, ![256]⟩
abbrev S256x1 : Shape := ⟨2, ![256, 1]⟩
abbrev S256x2 : Shape := ⟨2, ![256, 2]⟩
abbrev S1x256 : Shape := ⟨2, ![1, 256]⟩
abbrev S8192x256 : Shape := ⟨2, ![8192, 256]⟩
abbrev S8192x2 : Shape := ⟨2, ![8192, 2]⟩
abbrev S2048x512 : Shape := ⟨2, ![2048, 512]⟩
abbrev S2048x256 : Shape := ⟨2, ![2048, 256]⟩
abbrev S2048x2 : Shape := ⟨2, ![2048, 2]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩

abbrev nBuf : Space → Nat
  | .hbm => 19
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2, .f32⟩
  | .hbm, ⟨10, _⟩ => ⟨S1x256, .f32⟩
  | .hbm, ⟨11, _⟩ => ⟨S1x256, .f32⟩
  | .hbm, ⟨12, _⟩ => ⟨S8192x256, .bf16⟩
  | .hbm, ⟨13, _⟩ => ⟨S8192x2, .f32⟩
  | .hbm, ⟨14, _⟩ => ⟨S8192x256, .f32⟩
  | .hbm, ⟨15, _⟩ => ⟨S8192x1, .f32⟩
  | .hbm, ⟨16, _⟩ => ⟨S8192x1, .f32⟩
  | .hbm, ⟨17, _⟩ => ⟨S1x8192, .f32⟩
  | .hbm, ⟨18, _⟩ => ⟨S8192x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S256x2, .f32⟩
  | .local _ .vmem, ⟨4, _⟩ => ⟨S512x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | .local _ .vmem, ⟨8, _⟩ => ⟨S2048x2, .f32⟩
  | .local _ .vmem, ⟨9, _⟩ => ⟨S2048x2, .f32⟩
  | .local _ .vmem, ⟨10, _⟩ => ⟨S2048x256, .f32⟩
  | .local _ .vmem, ⟨11, _⟩ => ⟨S2048x256, .f32⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S8192x256, .bf16⟩
  | .local _ .vmem, ⟨17, _⟩ => ⟨S1024x1024, .i32⟩
  | .local _ .vmem, ⟨18, _⟩ => ⟨S1024x1024, .i32⟩
  | .local _ .vmem, ⟨19, _⟩ => ⟨S1024x256, .f32⟩
  | .local _ .vmem, ⟨20, _⟩ => ⟨S1024x256, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1024x1, .f32⟩
  | .local _ .vmem, ⟨25, _⟩ => ⟨S1024x1, .f32⟩
  | .local _ .vmem, ⟨26, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v39 : BitVec 32 := Scalar.muli arg1 c1024_i32
  v39
def k1_off1 (i : grid1.Coords) : Fin 2 → Nat :=
  let arg1 : BitVec 32 := BitVec.ofNat 32 (i 1).val
  let c1024_i32 : BitVec 32 := 1024#32
  let v39 : BitVec 32 := Scalar.muli arg1 c1024_i32
  let v40 : BitVec 32 := v39
  let v41 : Index := Scalar.indexCast v40
  let c0_19 : Index := 0#32
  ![v41.toNat, 0]
def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_27 : BitVec 32 := 0#32
  let v57 : BitVec 1 := Scalar.cmpi .ne v56 c0_i32_27
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S512x1_S256x1_0_0 : S512x1.Slices ![0, 0] S256x1
  slices_S512x1_S256x1_256_0 : S512x1.Slices ![256, 0] S256x1
  concatenates_S256x1_S256x1_S256x2_d1 : Shape.Concatenates [S256x1, S256x1] S256x2 1
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2048x2_S2048x2_0_0 : ∀ a, (![0, 0] : Fin 2 → Nat) a + S2048x2.size a ≤ S2048x2.size a
  h_S2048x2 : 0 < S2048x2.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S8192x2_S8192x1_0_0 : S8192x2.Slices ![0, 0] S8192x1
  slices_S8192x2_S8192x1_0_1 : S8192x2.Slices ![0, 1] S8192x1
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  reduces_S1024x256_S1024 : S1024x256.Reduces [1] S1024
  broadcasts_S1x256_S1024x256 : S1x256.Broadcasts S1024x256
  dot_S2048x512_S512x256_S2048x256_1_0_0_1_n_n_wf : DotDims.WF S2048x512 S512x256 S2048x256 [1] [0] [0] [1] [] []
  dot_S2048x256_S256x2_S2048x2_1_0_0_1_n_n_wf : DotDims.WF S2048x256 S256x2 S2048x2 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S256x2.size a
  hwx0_2 : ∀ i : grid0.Coords, EltTy.bits .f32 = 32 ∨ (Rect.block (s := S256x2) S256x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S8192x256.size a
  hwx0_5 : ∀ i : grid0.Coords, EltTy.bits .bf16 = 32 ∨ (Rect.block (s := S8192x256) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2.size a ≤ S8192x2.size a
  hwx0_6 : ∀ i : grid0.Coords, EltTy.bits .f32 = 32 ∨ (Rect.block (s := S8192x2) S2048x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S8192x256.size a
  hwx0_7 : ∀ i : grid0.Coords, EltTy.bits .f32 = 32 ∨ (Rect.block (s := S8192x256) S2048x256.size (cc0_transform_7 i) (hinb0_7 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .i32 = 32 ∨ (Rect.block (s := S8192x8192) S1024x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x2.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_2) S1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256 : Shape := ⟨1, ![256]⟩
abbrev S8192x256 : Shape := ⟨2, ![8192, 256]⟩
abbrev S_ : Shape := ⟨0, ![]⟩
abbrev S256x1 : Shape := ⟨2, ![256, 1]⟩
abbrev S8192x1 : Shape := ⟨2, ![8192, 1]⟩
abbrev S1x8192 : Shape := ⟨2, ![1, 8192]⟩
abbrev S8192 : Shape := ⟨1, ![8192]⟩
abbrev S1x256 : Shape := ⟨2, ![1, 256]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S8192x256, .f32⟩
  | .hbm, ⟨8, _⟩ => ⟨S_, .f32⟩
  | .hbm, ⟨9, _⟩ => ⟨S_, .f32⟩
  | .hbm, ⟨10, _⟩ => ⟨S8192x256, .f32⟩
  | .hbm, ⟨11, _⟩ => ⟨S8192x256, .i1⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S256x1, .f32⟩
  | .hbm, ⟨17, _⟩ => ⟨S8192x1, .f32⟩
  | .hbm, ⟨18, _⟩ => ⟨S256x1, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x256, .f32⟩
  | .hbm, ⟨53, _⟩ => ⟨S8192x256, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x256, .f32⟩
  | .hbm, ⟨62, _⟩ => ⟨S8192x256, .f32⟩
  | .hbm, ⟨63, _⟩ => ⟨S1x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S1x256, .f32⟩
  | .hbm, ⟨68, _⟩ => ⟨S8192x256, .f32⟩
  | .hbm, ⟨69, _⟩ => ⟨S8192x256, .f32⟩
  | .hbm, ⟨70, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_call2_v0 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call3_v0 : Ref sig .tc := ⟨.hbm, 53, rfl⟩
abbrev main_call3_cst : Ref sig .tc := ⟨.hbm, 54, rfl⟩
abbrev main_call3_v1 : Ref sig .tc := ⟨.hbm, 55, rfl⟩
abbrev main_call3_v2 : Ref sig .tc := ⟨.hbm, 56, rfl⟩
abbrev main_v26 : Ref sig .tc := ⟨.hbm, 57, rfl⟩
abbrev main_cst_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KI.Step.lean ====
/- One grid point of the attention kernel as pure functions of what it loads.
   The kernel keeps, per block of 1024 query rows, three running quantities across the eight key
   blocks: the running row maximum m of the masked scores, the running sum l of exp(score - m),
   and the running weighted sum acc of the value rows. A point (q, k) replaces (m, l, acc) by
     m' = max(m, rowmax s),  l' = exp(m - m') * l + rowsum exp(s - m'),
     acc' = exp(m - m') * acc + exp(s - m') · h[k-th block of 1024 rows],
   with s the masked leaky-relu scores of the point's block; at k = 0 it starts from
   (-inf, 0, 0), and at k = 7 it writes (acc'/l') / max(‖acc'/l'‖, eps) + bias + residual.
   The arithmetic is the printed payloads'; here they are only composed. -/
import proofs.«402513_j38903813767774_3_alg».proof.Proof.Gen.KernelIdeal.Skeleton
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The running triple (row maximum, row sum, weighted value sum) of one block of query rows. -/
abbrev Sc (F : FTy → Type) [FloatOps F] : Type :=
  Vec F S1024x1 .f32 × Vec F S1024x1 .f32 × Vec F S1024x256 .f32

/-- What the first key block starts from: maximum -inf, sum 0, weighted sum 0. -/
def initSc : Sc F := (k1_pay5, k1_pay6, k1_pay7)

/-- The 1024 value rows of key block `i 1`, cut out of the whole value matrix. -/
abbrev hrect (i : grid1.Coords) : Rect S8192x256 :=
  Rect.unit (s := S8192x256) (k1_off1 i) S1024x256.size (k1_off1_inb i)

/-- One key block folded into the running triple: `x0` the query rows' first attention term,
    `x1` the key columns' second term, `x2` the whole value matrix, `x3` the adjacency block. -/
def stepSc (i : grid1.Coords) (x0 : Vec F S1024x1 .f32) (x1 : Vec F S1x1024 .f32)
    (x2 : Vec F S8192x256 .bf16) (x3 : Vec F S1024x1024 .i32) (s : Sc F) : Sc F :=
  (k1_pay3 (k1_pay9 x0 x1 x3 s.1),
   k1_pay1 (k1_pay13 x0 x1 x3 s.1 s.1 s.2.1),
   k1_pay2 (k1_pay10 x0 x1 x3 s.1 s.1) (k1_pay12 x0 x1 x3 s.1) (View.ld x2 (hrect i)) s.2.2)

/-- What the last key block writes out: the normalised aggregate plus bias `x5` plus residual `x4`. -/
def finalOut (x4 : Vec F S1024x256 .f32) (x5 : Vec F S1x256 .f32) (s : Sc F) : Vec F S1024x256 .f32 :=
  k1_pay4 s.2.2 s.2.1 x5 x4

end Cert.KernelIdeal.Hand

end
-- ==== Proof.KI.R0Defs.lean ====
/- The projection kernel's proof data. One grid point takes 2048 rows of x and the whole of the
   weight, the two attention vectors side by side, the residual weight and the residual bias, and
   leaves three blocks: h = leaky_relu(x · W) (2048 × 256), wh = h · [a1 | a2] (2048 × 2) and
   res = x · Wres + bres (2048 × 256). Each output block is one whole-buffer store of a payload of
   the input blocks, so what the body leaves is that payload of the point's blocks. -/
import proofs.«402513_j38903813767774_3_alg».proof.Proof.KI.Step
import proofs.«402513_j38903813767774_3_alg».proof.Proof.Gen.KernelIdeal.Launch
import proofs.«402513_j38903813767774_3_alg».proof.Proof.Gen.KernelIdeal.Skeleton
import proofs.«402513_j38903813767774_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h the point leaves: leaky_relu(x-block · W). -/
def out0_5 (x0 : Vec F S2048x512 .f32) (x1 : Vec F S512x256 .f32) : Vec F S2048x256 .bf16 := k0_pay3 x0 x1
/-- The block of wh the point leaves: h-block · [a1 | a2]. -/
def out0_6 (x0 : Vec F S2048x512 .f32) (x1 : Vec F S512x256 .f32) (x2 : Vec F S256x2 .f32) : Vec F S2048x2 .f32 := k0_pay4 x0 x1 x2
/-- The block of the residual projection the point leaves: x-block · Wres + bres. -/
def out0_7 (x0 : Vec F S2048x512 .f32) (x3 : Vec F S512x256 .f32) (x4 : Vec F S1x256 .f32) : Vec F S2048x256 .f32 := k0_pay5 x0 x3 x4

/-- The proof data of the projection pipeline on core `c`: arrays as the region finds them; after the body each
    input's buffer at its block and each output's at its payload of the point's input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t)
    | ⟨6, _⟩ => out0_6 (iblk0 V c 0 t) (iblk0 V c 1 t) (iblk0 V c 2 t)
    | ⟨7, _⟩ => out0_7 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 3 t) (iblk0 V c 4 t) := by dsimp only [dat0]

end Region0

end Cert.KernelIdeal.Hand

end
-- ==== Proof.KI.R1Defs.lean ====
/- The attention kernel's proof data. Its grid is 8 blocks of query rows by 8 blocks of key columns,
   walked row-major: point n has query block n / 8 and key block n % 8. Three scratch buffers carry
   the running (maximum, sum, weighted sum) of Step.lean from one key block to the next; they are
   reset at key block 0 and read out at key block 7, where alone the output block is stored. So the
   scratch after point n is a recursion on n: the point's step applied to the start triple when
   n % 8 = 0, and otherwise to what point n - 1 left. -/
import proofs.«402513_j38903813767774_3_alg».proof.Proof.KI.Step
import proofs.«402513_j38903813767774_3_alg».proof.Proof.Gen.KernelIdeal.Launch
import proofs.«402513_j38903813767774_3_alg».proof.Proof.Gen.KernelIdeal.Skeleton
import proofs.«402513_j38903813767774_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- "This is key block 0": the branch that resets the scratch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is key block 7": the branch that writes the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The running triple after the body at position `n`. -/
def scAt1 (c : Dev nD) : (n : ℕ) → n < cfg1.N → Sc F
  | 0, hn => stepSc (grid1.coords ⟨0, hn⟩) (iblk1 V c 0 ⟨0, hn⟩) (iblk1 V c 1 ⟨0, hn⟩) (iblk1 V c 2 ⟨0, hn⟩) (iblk1 V c 3 ⟨0, hn⟩) initSc
  | n + 1, hn =>
    if (n + 1) % 8 = 0 then
      stepSc (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) initSc
    else
      stepSc (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scAt1 c n (Nat.lt_of_succ_lt hn))

/-- At a point of key block 0 the step starts from the start triple. -/
theorem scAt1_first (c : Dev nD) (t : Fin cfg1.N) (h0 : t.val % 8 = 0) :
    scAt1 V c t.val t.isLt = stepSc (grid1.coords t) (iblk1 V c 0 t) (iblk1 V c 1 t) (iblk1 V c 2 t) (iblk1 V c 3 t) initSc := by
  obtain ⟨n, hn⟩ := t
  cases n with
  | zero => rfl
  | succ n => exact (if_pos h0)

/-- At any other point it continues from what the point before left. -/
theorem scAt1_next (c : Dev nD) (t : Fin cfg1.N) (h0 : ¬t.val % 8 = 0) :
    scAt1 V c t.val t.isLt = stepSc (grid1.coords t) (iblk1 V c 0 t) (iblk1 V c 1 t) (iblk1 V c 2 t) (iblk1 V c 3 t)
      (scAt1 V c (t.val - 1) (Nat.lt_of_le_of_lt (Nat.sub_le _ _) t.isLt)) := by
  obtain ⟨n, hn⟩ := t
  cases n with
  | zero => exact absurd (Nat.zero_mod _) h0
  | succ n => exact (if_neg h0)

/-- The three scratch operands as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-- The scoped buffers that are neither this call's staging buffers nor its scratch (the other call's staging
    buffers), each whole at some contents: they ride through the region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The region invariant before position `n`: before the first point the scoped rest and the generator register as
    the launch hands them; afterwards the other call's buffers, the three scratch buffers at what the point before
    left, and the generator register. -/
def PhiS1 (c : Dev nD) : (n : ℕ) → n ≤ cfg1.N → sProp 𝕄
  | 0, _ => Pipeline.ΦA spec1 c
  | n + 1, hn => iprop(otherScoped c
      ∗ owns (c : Thread nD τ) scM1_0 fullShare ((scAt1 V c n hn).1)
      ∗ owns (c : Thread nD τ) scM1_1 fullShare ((scAt1 V c n hn).2.1)
      ∗ owns (c : Thread nD τ) scM1_2 fullShare ((scAt1 V c n hn).2.2)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped c
      ∗ owns (c : Thread nD τ) scM1_0 fullShare ((scAt1 V c n hn).1)
      ∗ owns (c : Thread nD τ) scM1_1 fullShare ((scAt1 V c n hn).2.1)
      ∗ owns (c : Thread nD τ) scM1_2 fullShare ((scAt1 V c n hn).2.2)
      ∗ (∃ r, prngReg c r)) := rfl

theorem PhiS1_pos (c : Dev nD) (n : ℕ) (h : n ≤ cfg1.N) (hz : n ≠ 0) :
    PhiS1 V c n h = iprop(otherScoped c
      ∗ owns (c : Thread nD τ) scM1_0 fullShare ((scAt1 V c (n - 1) (by omega)).1)
      ∗ owns (c : Thread nD τ) scM1_1 fullShare ((scAt1 V c (n - 1) (by omega)).2.1)
      ∗ owns (c : Thread nD τ) scM1_2 fullShare ((scAt1 V c (n - 1) (by omega)).2.2)
      ∗ (∃ r, prngReg c r)) := by
  cases n with
  | zero => exact absurd rfl hz
  | succ n => rfl

/-- The proof data of the attention pipeline on core `c`: arrays as the region finds them; after the body each
    input's buffer at its block and the output's at the read-out of the point's running triple (consulted only at key
    block 7, where the window is live); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => finalOut (iblk1 V c 4 t) (iblk1 V c 5 t) (scAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = finalOut (iblk1 V c 4 t) (iblk1 V c 5 t) (scAt1 V c t.val t.isLt) := by dsimp only [dat1]

end Region1

end Cert.KernelIdeal.Hand

end
-- ==== Proof.KI.Fold.lean ====
/- What core c's buffers hold at each boundary of the program: at launch; after the host lines that build
   [a1 | a2] and the two row-vector reshapes; after the projection call, whose three result arrays hold what its
   grid points wrote back and every other buffer is as before; after the host lines that cut the two attention
   terms out of wh; after the attention call, whose result array holds what its points wrote back. -/
import proofs.«402513_j38903813767774_3_alg».proof.Proof.KI.R0Defs
import proofs.«402513_j38903813767774_3_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host lines (the projection call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host lines (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.KernelIdeal.Hand

end
-- ==== Proof.KI.R0.lean ====
/- The projection kernel's body obligation: at every grid point the body, handed its input blocks, leaves
   each output buffer at its payload of those blocks (R0Defs.lean), the invariant passing through unread. -/
import proofs.«402513_j38903813767774_3_alg».proof.Proof.KI.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## Whole-buffer accesses

A load through the rectangle that is the whole buffer reads the buffer's contents, and one store through it,
over whatever was there, leaves its payload: the one piece covers every index. Stated over any shape. -/

private theorem zeros0 : (![0, 0] : Fin 2 → Nat) = fun _ => 0 := funext fun a => by fin_cases a <;> rfl

private theorem readAt_whole0 {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

private theorem read_writes_whole0 {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb]

/-! ## The body's triple -/

set_option maxHeartbeats 1000000 in
/-- The kernel body on whole staging buffers, the inputs' at read contents and the outputs' at anything, runs to
    the continuation holding the inputs' as they were and each output's at its payload of the inputs': the body is
    loads of whole buffers and three stores of whole buffers, each store's payload a function of the loaded inputs. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S256x2 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S2048x256 .bf16) (harg6 : arg6.IsWhole) (arg7 : Memref sig .tc .vmem S2048x2 .f32) (harg7 : arg7.IsWhole) (arg8 : Memref sig .tc .vmem S2048x256 .f32) (harg8 : arg8.IsWhole)
    (x0 : Vec F S2048x512 .f32) (x1 : Vec F S512x256 .f32) (x2 : Vec F S256x2 .f32) (x3 : Vec F S512x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1) ∗ owns (c : Thread nD τ) arg7 fullShare (out0_6 x0 x1 x2)
            ∗ owns (c : Thread nD τ) arg8 fullShare (out0_7 x0 x3 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_whole0 (S := S2048x256) _ _ zeros0 _ _).trans ?_
    rw [readAt_whole0 (S := S2048x512) _ _ zeros0, readAt_whole0 (S := S512x256) _ _ zeros0]
    rfl
  isplitl [H7]
  · iexists _; isplitr
    swap; · iexact H7
    ipureintro
    refine (read_writes_whole0 (S := S2048x2) _ _ zeros0 _ _).trans ?_
    rw [readAt_whole0 (S := S2048x512) _ _ zeros0, readAt_whole0 (S := S512x256) _ _ zeros0, readAt_whole0 (S := S256x2) _ _ zeros0]
    rfl
  iexists _; isplitr
  swap; · iexact H8
  ipureintro
  refine (read_writes_whole0 (S := S2048x256) _ _ zeros0 _ _).trans ?_
  rw [readAt_whole0 (S := S2048x512) _ _ zeros0, readAt_whole0 (S := S512x256) _ _ zeros0, readAt_whole0 (S := S1x256) _ _ zeros0]
  rfl

/-! ## The input windows' buffers

An input window's current staging buffer holds its block at every point, fetched there or not: where it is
not fetched its block index has not moved, and the body leaves the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation, at a generic point -/

/-- What the body is called with at point `t`: the invariant, what is owed, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the kernel's triple applies; the invariant
    and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the projection pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.lean ====
/- The attention kernel's body obligation, and how its invariant meets the launch's: before the first point it is
   what the launch hands over; after the last it gives that back, forgetting what the scratch holds. -/
import proofs.«402513_j38903813767774_3_alg».proof.Proof.KI.R1Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## Whole-buffer accesses

A load through the rectangle that is the whole buffer reads the buffer's contents; a store through it, made last,
leaves its payload whatever the earlier stores were; a load through it after one such store reads that payload.
Stated over any shape. -/

private theorem zeros1 : (![0, 0] : Fin 2 → Nat) = fun _ => 0 := funext fun a => by fin_cases a <;> rfl

private theorem readAt_whole1 {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

private theorem read_writes_whole1 {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

private theorem readCov_whole1 {Val : EltTy → Type} [∀ e, Nonempty (Val e)] {sg : RefSig} {κ : Kind} {sp : Space}
    {S : Shape} {e : EltTy} (v : View sg κ sp S e) {off : Fin S.rank → Nat}
    (h : off = fun _ => 0) (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

/-! ## The body's triple, by the key block of the point

The body resets the three scratch buffers when its key block is the first, folds the point's key block into them,
and when its key block is the last reads them back out into the output's buffer. On whole buffers, each input's at
its contents, the three cases run to the continuation holding the inputs' as they were and the scratch at the
components of the point's step. -/

set_option maxHeartbeats 4000000 in
/-- A point of key block 0: the three scratch buffers, whatever they held, are reset to the start triple and end
    at the point's step of it; the output's buffer is handed back untouched. -/
theorem run1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S8192x256 .bf16) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .f32) (harg11 : arg11.IsWhole) (hc0 : cond1_0 i) (hc1 : ¬cond1_1 i)
    (x0 : Vec F S1024x1 .f32) (x1 : Vec F S1x1024 .f32) (x2 : Vec F S8192x256 .bf16) (x3 : Vec F S1024x1024 .i32) (x4 : Vec F S1024x256 .f32) (x5 : Vec F S1x256 .f32) (xi6 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare (stepSc i x0 x1 x2 x3 initSc).1 ∗ owns (c : Thread nD τ) arg10 fullShare (stepSc i x0 x1 x2 x3 initSc).2.1 ∗ owns (c : Thread nD τ) arg11 fullShare (stepSc i x0 x1 x2 x3 initSc).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  subst hf0; subst hf1; subst hf2; subst hf3; subst hf4; subst hf5

  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  isplitl [HS0]
  · iexists _; isplitr
    swap; · iexact HS0
    ipureintro
    refine (read_writes_whole1 (S := S1024x1) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readCov_whole1 (S := S1024x1) arg9.view zeros1]
    rfl
  isplitl [HS1]
  · iexists _; isplitr
    swap; · iexact HS1
    ipureintro
    refine (read_writes_whole1 (S := S1024x1) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readCov_whole1 (S := S1024x1) arg9.view zeros1, readCov_whole1 (S := S1024x1) arg10.view zeros1]
    rfl
  · iexists _; isplitr
    swap; · iexact HS2
    ipureintro
    refine (read_writes_whole1 (S := S1024x256) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readCov_whole1 (S := S1024x1) arg9.view zeros1, readCov_whole1 (S := S1024x256) arg11.view zeros1]
    rfl

set_option maxHeartbeats 4000000 in
/-- A point of a key block that is neither the first nor the last: the three scratch buffers go from a running
    triple to the point's step of it; the output's buffer is handed back untouched. -/
theorem run1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S8192x256 .bf16) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .f32) (harg11 : arg11.IsWhole) (hc0 : ¬cond1_0 i) (hc1 : ¬cond1_1 i)
    (x0 : Vec F S1024x1 .f32) (x1 : Vec F S1x1024 .f32) (x2 : Vec F S8192x256 .bf16) (x3 : Vec F S1024x1024 .i32) (x4 : Vec F S1024x256 .f32) (x5 : Vec F S1x256 .f32) (xi6 : Vec F S1024x256 .f32) (s : Sc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare (stepSc i x0 x1 x2 x3 s).1 ∗ owns (c : Thread nD τ) arg10 fullShare (stepSc i x0 x1 x2 x3 s).2.1 ∗ owns (c : Thread nD τ) arg11 fullShare (stepSc i x0 x1 x2 x3 s).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  subst hf0; subst hf1; subst hf2; subst hf3; subst hf4; subst hf5
  obtain rfl := harg9.eq_unread hfs0; obtain rfl := harg10.eq_unread hfs1; obtain rfl := harg11.eq_unread hfs2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  isplitl [HS0]
  · iexists _; isplitr
    swap; · iexact HS0
    ipureintro
    refine (read_writes_whole1 (S := S1024x1) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readAt_whole1 (S := S1024x1) arg9.view _ zeros1, harg9.read_unread]
    rfl
  isplitl [HS1]
  · iexists _; isplitr
    swap; · iexact HS1
    ipureintro
    refine (read_writes_whole1 (S := S1024x1) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readAt_whole1 (S := S1024x1) arg9.view _ zeros1, readAt_whole1 (S := S1024x1) arg10.view _ zeros1, harg9.read_unread, harg10.read_unread]
    rfl
  · iexists _; isplitr
    swap; · iexact HS2
    ipureintro
    refine (read_writes_whole1 (S := S1024x256) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readAt_whole1 (S := S1024x1) arg9.view _ zeros1, readAt_whole1 (S := S1024x256) arg11.view _ zeros1, harg9.read_unread, harg11.read_unread]
    rfl

set_option maxHeartbeats 4000000 in
/-- A point of key block 7: the three scratch buffers go from a running triple to the point's step of it, and
    the output's buffer, whatever it held, ends at the read-out of that step (the branch loads the scratch after
    this point's stores). -/
theorem run1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S8192x256 .bf16) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .f32) (harg11 : arg11.IsWhole) (hc0 : ¬cond1_0 i) (hc1 : cond1_1 i)
    (x0 : Vec F S1024x1 .f32) (x1 : Vec F S1x1024 .f32) (x2 : Vec F S8192x256 .bf16) (x3 : Vec F S1024x1024 .i32) (x4 : Vec F S1024x256 .f32) (x5 : Vec F S1x256 .f32) (s : Sc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (finalOut x4 x5 (stepSc i x0 x1 x2 x3 s))
            ∗ owns (c : Thread nD τ) arg9 fullShare (stepSc i x0 x1 x2 x3 s).1 ∗ owns (c : Thread nD τ) arg10 fullShare (stepSc i x0 x1 x2 x3 s).2.1 ∗ owns (c : Thread nD τ) arg11 fullShare (stepSc i x0 x1 x2 x3 s).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
  subst hf0; subst hf1; subst hf2; subst hf3; subst hf4; subst hf5
  obtain rfl := harg9.eq_unread hfs0; obtain rfl := harg10.eq_unread hfs1; obtain rfl := harg11.eq_unread hfs2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_whole1 (S := S1024x256) _ _ zeros1 _ _ _).trans ?_
    sl_unfold_words
    rw [readCov_whole1 (S := S1024x256) arg11.view zeros1, readCov_whole1 (S := S1024x1) arg10.view zeros1, readAt_whole1 (S := S1024x1) arg2.view _ zeros1, readAt_whole1 (S := S1x1024) arg3.view _ zeros1, readAt_whole1 (S := S1024x1024) arg5.view _ zeros1,
      readAt_whole1 (S := S1024x1) arg9.view _ zeros1, readAt_whole1 (S := S1024x1) arg10.view _ zeros1,
      readAt_whole1 (S := S1024x256) arg11.view _ zeros1, readAt_whole1 (S := S1x256) arg7.view _ zeros1,
      readAt_whole1 (S := S1024x256) arg6.view _ zeros1, harg9.read_unread, harg10.read_unread, harg11.read_unread]
    rfl
  isplitl [HS0]
  · iexists _; isplitr
    swap; · iexact HS0
    ipureintro
    refine (read_writes_whole1 (S := S1024x1) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readAt_whole1 (S := S1024x1) arg9.view _ zeros1, harg9.read_unread]
    rfl
  isplitl [HS1]
  · iexists _; isplitr
    swap; · iexact HS1
    ipureintro
    refine (read_writes_whole1 (S := S1024x1) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readAt_whole1 (S := S1024x1) arg9.view _ zeros1, readAt_whole1 (S := S1024x1) arg10.view _ zeros1, harg9.read_unread, harg10.read_unread]
    rfl
  · iexists _; isplitr
    swap; · iexact HS2
    ipureintro
    refine (read_writes_whole1 (S := S1024x256) _ _ zeros1 _ _ _).trans ?_
    sl_unfold_words
    rw [readAt_whole1 (S := S1024x1) arg2.view _ zeros1, readAt_whole1 (S := S1x1024) arg3.view _ zeros1, readAt_whole1 (S := S1024x1024) arg5.view _ zeros1, readAt_whole1 (S := S1024x1) arg9.view _ zeros1, readAt_whole1 (S := S1024x256) arg11.view _ zeros1, harg9.read_unread, harg11.read_unread]
    rfl

/-! ## The invariant against the launch's -/

/-- The launch's invariant hands over the other call's buffers, the three scratch buffers whole at some contents,
    and the generator register. -/
theorem PhiA1_to (c : Dev nD) :
    (Pipeline.ΦA spec1 c : sProp 𝕄)
      ⊢ iprop(otherScoped (F := F) c
          ∗ (∃ d, owns (c : Thread nD τ) scM1_0 fullShare d)
          ∗ (∃ d, owns (c : Thread nD τ) scM1_1 fullShare d)
          ∗ (∃ d, owns (c : Thread nD τ) scM1_2 fullShare d) ∗ (∃ r, prngReg c r)) := by
  unfold Pipeline.ΦA; rw [scopedRest1_eq]; unfold otherScoped; simp only [scM1_0, scM1_1, scM1_2, owns_whole]
  iintro ⟨⟨H1, H2, H3, H4, H5, H6, H7, H8, H9, H10, H11, H12, H13, H14, H15⟩, Hg⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  iexact Hg

/-- And takes them back, whatever the scratch buffers hold. -/
theorem PhiA1_from (c : Dev nD) :
    iprop(otherScoped (F := F) c
          ∗ (∃ d, owns (c : Thread nD τ) scM1_0 fullShare d)
          ∗ (∃ d, owns (c : Thread nD τ) scM1_1 fullShare d)
          ∗ (∃ d, owns (c : Thread nD τ) scM1_2 fullShare d) ∗ (∃ r, prngReg c r))
      ⊢ (Pipeline.ΦA spec1 c : sProp 𝕄) := by
  unfold Pipeline.ΦA; rw [scopedRest1_eq]; unfold otherScoped; simp only [scM1_0, scM1_1, scM1_2, owns_whole]
  iintro ⟨⟨H1, H2, H3, H4, H5, H6, H7, H8, H9, H10, H11, H12⟩, H13, H14, H15, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iexact Hg

/-- In particular at a named running triple, whose contents are forgotten. -/
theorem PhiA1_from_sc (c : Dev nD) (s : Sc F) :
    iprop(otherScoped (F := F) c
          ∗ owns (c : Thread nD τ) scM1_0 fullShare s.1
          ∗ owns (c : Thread nD τ) scM1_1 fullShare s.2.1
          ∗ owns (c : Thread nD τ) scM1_2 fullShare s.2.2 ∗ (∃ r, prngReg c r))
      ⊢ (Pipeline.ΦA spec1 c : sProp 𝕄) := by
  have h : (iprop(otherScoped (F := F) c
          ∗ owns (c : Thread nD τ) scM1_0 fullShare s.1
          ∗ owns (c : Thread nD τ) scM1_1 fullShare s.2.1
          ∗ owns (c : Thread nD τ) scM1_2 fullShare s.2.2 ∗ (∃ r, prngReg c r)) : sProp 𝕄)
      ⊢ iprop(otherScoped (F := F) c
          ∗ (∃ d, owns (c : Thread nD τ) scM1_0 fullShare d)
          ∗ (∃ d, owns (c : Thread nD τ) scM1_1 fullShare d)
          ∗ (∃ d, owns (c : Thread nD τ) scM1_2 fullShare d) ∗ (∃ r, prngReg c r)) := by
    iintro ⟨Ho, HS0, HS1, HS2, Hg⟩
    isplitl [Ho]; · iexact Ho
    isplitl [HS0]; · iexists _; iexact HS0
    isplitl [HS1]; · iexists _; iexact HS1
    isplitl [HS2]; · iexists _; iexact HS2
    iexact Hg
  exact h.trans (PhiA1_from c)

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After the last point the invariant gives the launch's back. -/
theorem hout1 (c : Dev nD) : (dat1 (F := F) V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  exact PhiA1_from_sc c _

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- The inputs are never idle; the output is idle exactly off key block 7, where it is not written back either. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- The launch's invariant, as an equation: the other call's buffers, the three scratch buffers whole at some
    contents, the generator register. -/
theorem PhiA1_eq (c : Dev nD) :
    (Pipeline.ΦA spec1 c : sProp 𝕄)
      = iprop(otherScoped (F := F) c
          ∗ (∃ d, owns (c : Thread nD τ) scM1_0 fullShare d)
          ∗ (∃ d, owns (c : Thread nD τ) scM1_1 fullShare d)
          ∗ (∃ d, owns (c : Thread nD τ) scM1_2 fullShare d) ∗ (∃ r, prngReg c r)) :=
  Idealize.SL.BI.equiv_iff.mp ⟨PhiA1_to c, PhiA1_from c⟩

/-! ## The body obligation, at a generic point -/

/-- What the body is called with at point `t`: the invariant, what is owed, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point. The inputs' buffers hold their blocks. By the key block of the point: at key block 0 the
    scratch, whatever it holds (at the first point the launch's, later what the point before left), is reset and
    ends at the step of the start triple; elsewhere it goes from what the point before left to the step of that;
    the output's buffer is handed back untouched off key block 7, where the pipeline does not write it back, and at
    key block 7 ends at the read-out of the point's triple. What is owed passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 64 := lt_of_lt_of_eq t.isLt (show cfg1.N = 64 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scAt1_first V c t h0]
    by_cases hz : t.val = 0
    · rw [PhiS1_castSucc V c t, PhiS1_zero V c _ _ hz, PhiA1_eq]
      iintro ⟨⟨Hos, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
      iapply (run1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [Hos HS0 HS1 HS2 Hg]
      · isplitl [Hos]; · iexact Hos
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨Hos, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
      iapply (run1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [Hos HS0 HS1 HS2 Hg]
      · isplitl [Hos]; · iexact Hos
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := by omega
    rw [scAt1_next V c t h0, PhiS1_castSucc V c t, PhiS1_pos V c _ _ hz]
    by_cases h1 : t.val % 8 = 7
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6, scAt1_next V c t h0]
      iintro ⟨⟨Hos, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [Hos HS0 HS1 HS2 Hg]
      · isplitl [Hos]; · iexact Hos
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨Hos, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [Hos HS0 HS1 HS2 Hg]
      · isplitl [Hos]; · iexact Hos
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for the attention pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/- The whole program as one run. Its four items in order — the host lines that build [a1 | a2] and the two
   row-vector reshapes, the projection call, the host lines that cut the two attention terms out of wh, the attention
   call — are laid over one thread state per core: every unscoped buffer whole at the boundary's contents (the fold of
   Fold.lean), the generator register at some state, nothing owed. A host stretch moves the contents by its own
   evaluation; a call splits its windows' arrays out of the unscoped buffers, runs its pipeline on its proof data, and
   puts the arrays back at what the write-backs leave. The projection call's invariant is the scoped rest and the
   generator register at every point; the attention call's is that only before the first point and after the last
   (R1.lean), which is all the launch asks. At the end every unscoped buffer is read against the final memory; an
   argument array's contents walk back through the fold to the launch memory, since no host line and no call writes
   one. -/
import proofs.«402513_j38903813767774_3_alg».proof.Proof.KI.Fold
import proofs.«402513_j38903813767774_3_alg».proof.Proof.KI.R0
import proofs.«402513_j38903813767774_3_alg».proof.Proof.KI.R1
import proofs.«402513_j38903813767774_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: neither call has a table. -/
abbrev admH : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every item: the core's generator register at some state and its dues, at
    nothing. -/
abbrev RH (c : Dev nD) : sProp 𝕄 := iprop((∃ r, prngReg c r) ∗ ∃ W, owes (c : Thread nD τ) (0 : CellTallies nD τ sig Unit) W)
/-- A host stretch as an item of the run: the unscoped references from the contents `W`, `RH` riding along; it ends
    with those references at the stretch's evaluation of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev TH (c : Dev nD) : sProp 𝕄 := iprop(StableHlo.held (c : Thread nD τ) (Pipeline.ucRefs τ sig) (W4 m ρ c) ∗ ∃ r, prngReg c r)

/-! ## The two calls as items of the run -/

set_option backward.isDefEq.respectTransparency.types false in
/-- The projection call over the thread state: entered from every unscoped buffer at `W1`, left at `W2`. Its arrays
    are split out of the unscoped buffers and put back at the exit contents; the generator register goes into the
    invariant and comes out; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`. As the
    projection call's, except that its invariant is the launch's only before the first point (`hin1`) and again
    after the last (`hout1`). -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (V3 m ρ) c).Φ 0
    iintro ⟨Hp, -, Hr⟩
    iapply (hin1 (V3 m ρ) c)
    unfold Pipeline.ΦA
    isplitl [Hr]; · iexact Hr
    iexact Hp
  hout c := by
    rw [Pipeline.ownSems0_none]
    have hback := hout1 (V3 m ρ) c
    unfold Pipeline.ΦA at hback
    show (dat1 (V3 m ρ) c).Φ (Fin.last cfg1.N) ⊢ _
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's four items in order. -/
abbrev segsH : List (Pipeline.Seg (pcfgs (F := F)) admH (pdats m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its items. -/
theorem main_run (c : Dev nD) : main (F := F) c = Pipeline.Seg.run (segsH m ρ) := (main_chain c).trans (by chain_rfl)

set_option backward.isDefEq.respectTransparency.types false in
/-- From any memory with zero counters, every weakly fair execution of the program terminates, nothing faulting, and
    in every final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The argument arrays end as launched

No host line writes an argument array and no call writes one: a call either reads it through an input window, whose
array the pipeline leaves as it found it, or passes it by. So the fold at an argument's buffer walks back to the launch
memory. -/

/-- The first host lines write none of the launch's arrays but their own five results. -/
theorem W1_of (c : Dev nD) (r : Ref sig .tc) (h : r ∉ hostOps0_W) :
    W1 m ρ c (Proc.devRef .tc r) = m ((c : Thread nD τ).loc r) :=
  (StableHlo.after_of_writes_sub hostOps0 _ hostOps0_writes h).trans rfl
/-- The second host lines write nothing but their own three results. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- An input window's array leaves the projection call as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array leaves the attention call as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- x: the projection call's first input window; the attention call passes it by. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_in m ρ c 0 rfl).trans <| W1_of m ρ c main_arg0 (by decide)
/-- The adjacency: the projection call passes it by; the attention call's fourth input window. -/
theorem W4_main_arg1 (c : Dev nD) : W4 m ρ c (Proc.devRef .tc main_arg1) = m ((c : Thread nD τ).loc main_arg1) :=
  (W4_in m ρ c 3 rfl).trans <| (W3_of m ρ c main_arg1 (by decide)).trans <|
    (W2_of_ne m ρ c main_arg1 (by decide)).trans <| W1_of m ρ c main_arg1 (by decide)
/-- W: the projection call's second input window. -/
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_in m ρ c 1 rfl).trans <| W1_of m ρ c main_arg2 (by decide)
/-- The attention vector: only host lines read it. -/
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| W1_of m ρ c main_arg3 (by decide)
/-- The output bias: only a host line reads it. -/
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans <| W1_of m ρ c main_arg4 (by decide)
/-- Wres: the projection call's fourth input window. -/
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_in m ρ c 3 rfl).trans <| W1_of m ρ c main_arg5 (by decide)
/-- The residual bias: only a host line reads it. -/
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    (W2_of_ne m ρ c main_arg6 (by decide)).trans <| W1_of m ρ c main_arg6 (by decide)

/-- The result array is the attention call's output window: it ends at what that call's write-backs leave. -/
theorem W4_main_v9 (c : Dev nD) : W4 m ρ c (Proc.devRef .tc main_v9) = (dat1 (V3 m ρ) c).arrAt 6 cfg1.N :=
  W4_arr m ρ c 6

/-- The program runs and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/- The function both programs compute, over the extended reals, element by element.
   With h = leaky_relu(x · W) (slope f32(0.2)), the attention terms t1 = h · a[0:256], t2 = h · a[256:512],
   the masked score s(i, j) = leaky_relu(t1 i + t2 j) where adj(i, j) > 0 and f32(-9e15) elsewhere,
   M i = max_j s(i, j), p(i, j) = exp(s(i, j) - M i), L i = Σ_j p(i, j), the aggregate
   g(i, k) = Σ_j (p(i, j) / L i) · h(j, k), and the result
   g(i, k) / max(sqrt(Σ_k' g(i, k')²), f32(1e-12)) + bias k + (Σ_d x(i, d) · Wres(d, k) + bres k).
   The float literals stay as the words both programs print; only -inf is read (it is the lattice's bottom). -/
import Idealize.ShloMosaic.PureOps.Ideal
import Idealize.ShloMosaic.Lib.ValueIdx

noncomputable section

open scoped BigOperators

namespace Cert.Spec

open Idealize.ShloMosaic Idealize.ShloMosaic.ValueIdx

/-- An extended-real matrix of r rows and c columns, indexed as the programs index it. -/
abbrev Mat (r c : Nat) : Type := (⟨2, ![r, c]⟩ : Shape).Idx → EReal
/-- An extended-real vector. -/
abbrev Vc (n : Nat) : Type := (⟨1, ![n]⟩ : Shape).Idx → EReal
/-- The adjacency matrix: 32-bit words. -/
abbrev Adj : Type := (⟨2, ![8192, 8192]⟩ : Shape).Idx → BitVec 32

/-- The words the programs share: 0, the slope 0.2, the mask value -9e15, the norm floor 1e-12. -/
abbrev zeroW : EReal := Ideal.ofBits .f32 0x00000000#32
abbrev slopeW : EReal := Ideal.ofBits .f32 0x3E4CCCCD#32
abbrev maskW : EReal := Ideal.ofBits .f32 0xD9FFCB9E#32
abbrev epsW : EReal := Ideal.ofBits .f32 0x2B8CBCCC#32

/-- leaky_relu with slope 0.2, spelt as both programs spell it: select (v ≥ 0) v (0.2 · v). -/
def leaky (v : EReal) : EReal := Scalar.select (Ideal.cmp .oge v zeroW) v (slopeW * v)

section
variable (x : Mat 8192 512) (adj : Adj) (W : Mat 512 256) (a : Mat 512 1) (bias : Vc 256) (rw : Mat 512 256) (rb : Vc 256)

/-- h = leaky_relu(x · W). -/
def hS (i : Fin 8192) (k : Fin 256) : EReal := leaky (∑ d : Fin 512, x (ix2 i d) * W (ix2 d k))
/-- The first and second halves of the attention vector. -/
def a1 (k : Fin 256) : EReal := a (ix2 (⟨k.val, by omega⟩ : Fin 512) (0 : Fin 1))
def a2 (k : Fin 256) : EReal := a (ix2 (⟨256 + k.val, by omega⟩ : Fin 512) (0 : Fin 1))
/-- The two attention terms of a row of h. -/
def t1 (i : Fin 8192) : EReal := ∑ k : Fin 256, hS x W i k * a1 a k
def t2 (j : Fin 8192) : EReal := ∑ k : Fin 256, hS x W j k * a2 a k
/-- The masked score. -/
def score (i j : Fin 8192) : EReal :=
  Scalar.select (IntOp.cmpi .sgt (adj (ix2 i j)) 0#32) (leaky (t1 x W a i + t2 x W a j)) maskW
/-- A row's maximum score, its exponentials and their sum. -/
def rowMax (i : Fin 8192) : EReal := (Finset.univ : Finset (Fin 8192)).fold max ⊥ (score x adj W a i)
def pexp (i j : Fin 8192) : EReal := Ideal.exp (score x adj W a i j - rowMax x adj W a i)
def rowSum (i : Fin 8192) : EReal := ∑ j : Fin 8192, pexp x adj W a i j
/-- The attention-weighted aggregate of h. -/
def agg (i : Fin 8192) (k : Fin 256) : EReal :=
  ∑ j : Fin 8192, Ideal.div (pexp x adj W a i j) (rowSum x adj W a i) * hS x W j k
/-- The residual projection. -/
def resid (i : Fin 8192) (k : Fin 256) : EReal := (∑ d : Fin 512, x (ix2 i d) * rw (ix2 d k)) + rb (ix1 k)
/-- What a row's aggregate becomes: normalised by max(its Euclidean norm, 1e-12), plus bias, plus residual. -/
def tail (g : Fin 256 → EReal) (b r : EReal) (k : Fin 256) : EReal :=
  Ideal.div (g k) (max (Ideal.sqrt (∑ k' : Fin 256, g k' * g k')) epsW) + b + r
/-- The result. -/
def out : Mat 8192 256 := fun j =>
  tail (agg x adj W a (j 0)) (bias (ix1 (j 1))) (resid x rw rb (j 0) (j 1)) (j 1)

end

end Cert.Spec

end
-- ==== Proof.KI.Val0.lean ====
/- What the attention call finds in its arrays, over the extended reals, from the launch contents:
   the query rows' attention term t1 (a column), the key columns' term t2 (a row), the value matrix h,
   the adjacency matrix as launched, the residual projection, and the bias as a row. The projection call's
   three result arrays are, block by block of 2048 rows, h = leaky_relu(x · W), wh = h · [a1 | a2] and
   x · Wres + bres; the host lines around it only cut, join and reshape. -/
import proofs.«402513_j38903813767774_3_alg».proof.Proof.KI.Fold
import proofs.«402513_j38903813767774_3_alg».proof.Proof.Spec
import proofs.«402513_j38903813767774_3_alg».proof.Proof.Gen.KernelIdeal.Regions
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- The launch contents of the seven arguments on core `c`, typed as the specification takes them. -/
abbrev argX (c : Dev nD) : Cert.Spec.Mat 8192 512 := m ((c : Thread nD τ).loc main_arg0)
abbrev argAdj (c : Dev nD) : Cert.Spec.Adj := m ((c : Thread nD τ).loc main_arg1)
abbrev argW (c : Dev nD) : Cert.Spec.Mat 512 256 := m ((c : Thread nD τ).loc main_arg2)
abbrev argA (c : Dev nD) : Cert.Spec.Mat 512 1 := m ((c : Thread nD τ).loc main_arg3)
abbrev argBias (c : Dev nD) : Cert.Spec.Vc 256 := m ((c : Thread nD τ).loc main_arg4)
abbrev argRw (c : Dev nD) : Cert.Spec.Mat 512 256 := m ((c : Thread nD τ).loc main_arg5)
abbrev argRb (c : Dev nD) : Cert.Spec.Vc 256 := m ((c : Thread nD τ).loc main_arg6)

/-! ## Buffers the host lines pass by -/

/-- A buffer the first host lines do not write is as launched. -/
theorem V1_keep (c : Dev nD) (r : Ref sig .tc) (h : r ∉ hostOps0_W) :
    W1 m ρ c (Proc.devRef .tc r) = m ((c : Thread nD τ).loc r) :=
  (StableHlo.after_of_writes_sub hostOps0 _ hostOps0_writes h).trans rfl
/-- A buffer the second host lines do not write is as the projection call left it. -/
theorem V3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- The bias row at the projection call's entry: the launched bias vector recast to one row. -/
theorem V1_v4 (c : Dev nD) : (W1 m ρ c (Proc.devRef .tc main_v4) : S1x256.Idx → EReal)
    = shapeCast S1x256 (argBias m c) shapeCasts_S256_S1x256 := by
  show StableHlo.after hostOps0 (W0 m ρ c) (Proc.devRef .tc main_v4) = _
  after_results
  rfl

/-! ## The two block products at an index -/

/-- A 2048 × 512 block times a 512 × 256 matrix: the operands' indices at an output index and an inner position. -/
theorem dotA_lhs_0 (j : S2048x256.Idx) (k : dot_S2048x512_S512x256_S2048x256_1_0_0_1_n_n.contr.Idx) :
    (dot_S2048x512_S512x256_S2048x256_1_0_0_1_n_n.lhsIdx j k 0).val = (j 0).val := by
  simp [DotDims.lhsIdx, dot_S2048x512_S512x256_S2048x256_1_0_0_1_n_n]; rfl
theorem dotA_lhs_1 (j : S2048x256.Idx) (k : dot_S2048x512_S512x256_S2048x256_1_0_0_1_n_n.contr.Idx) :
    (dot_S2048x512_S512x256_S2048x256_1_0_0_1_n_n.lhsIdx j k 1).val = (k ⟨0, by decide⟩).val :=
  DotDims.lhsIdx_val_of_single _ rfl j k
theorem dotA_rhs_0 (j : S2048x256.Idx) (k : dot_S2048x512_S512x256_S2048x256_1_0_0_1_n_n.contr.Idx) :
    (dot_S2048x512_S512x256_S2048x256_1_0_0_1_n_n.rhsIdx j k 0).val = (k ⟨0, by decide⟩).val :=
  DotDims.rhsIdx_val_of_single _ rfl j k
theorem dotA_rhs_1 (j : S2048x256.Idx) (k : dot_S2048x512_S512x256_S2048x256_1_0_0_1_n_n.contr.Idx) :
    (dot_S2048x512_S512x256_S2048x256_1_0_0_1_n_n.rhsIdx j k 1).val = (j 1).val := by
  simp [DotDims.rhsIdx, dot_S2048x512_S512x256_S2048x256_1_0_0_1_n_n]; rfl

/-- Into the zero splat, at (r, k): the sum over the 512 inner positions. -/
theorem mmA_apply (lhs : FVec Ideal S2048x512 .bf16) (rhs : FVec Ideal S512x256 .bf16) (r : Fin 2048) (k : Fin 256) :
    matmul dot_S2048x512_S512x256_S2048x256_1_0_0_1_n_n none lhs rhs (constant (F := Ideal) S2048x256 .f32 0x00000000#32) (ix2 r k)
      = ∑ d : Fin 512, lhs (ix2 r d) * rhs (ix2 d k) := by
  refine (Ideal.matmul_constant_zero_apply dot_S2048x512_S512x256_S2048x256_1_0_0_1_n_n none lhs rhs (ix2 r k)).trans ?_
  rw [← Equiv.sum_comp (contrEquiv1 dot_S2048x512_S512x256_S2048x256_1_0_0_1_n_n 512 rfl rfl).symm]
  refine Finset.sum_congr rfl fun d _ => ?_
  have hk := contrEquiv1_symm_val dot_S2048x512_S512x256_S2048x256_1_0_0_1_n_n 512 rfl rfl d
  have el : dot_S2048x512_S512x256_S2048x256_1_0_0_1_n_n.lhsIdx (ix2 r k) ((contrEquiv1 dot_S2048x512_S512x256_S2048x256_1_0_0_1_n_n 512 rfl rfl).symm d) = ix2 r d := by
    funext a; apply Fin.ext
    match a with
    | ⟨0, _⟩ => exact dotA_lhs_0 _ _
    | ⟨1, _⟩ => exact (dotA_lhs_1 _ _).trans hk
  have er : dot_S2048x512_S512x256_S2048x256_1_0_0_1_n_n.rhsIdx (ix2 r k) ((contrEquiv1 dot_S2048x512_S512x256_S2048x256_1_0_0_1_n_n 512 rfl rfl).symm d) = ix2 d k := by
    funext a; apply Fin.ext
    match a with
    | ⟨0, _⟩ => exact (dotA_rhs_0 _ _).trans hk
    | ⟨1, _⟩ => exact dotA_rhs_1 _ _
  rw [el, er]

/-- A 2048 × 256 block times a 256 × 2 matrix: the operands' indices at an output index and an inner position. -/
theorem dotB_lhs_0 (j : S2048x2.Idx) (k : dot_S2048x256_S256x2_S2048x2_1_0_0_1_n_n.contr.Idx) :
    (dot_S2048x256_S256x2_S2048x2_1_0_0_1_n_n.lhsIdx j k 0).val = (j 0).val := by
  simp [DotDims.lhsIdx, dot_S2048x256_S256x2_S2048x2_1_0_0_1_n_n]; rfl
theorem dotB_lhs_1 (j : S2048x2.Idx) (k : dot_S2048x256_S256x2_S2048x2_1_0_0_1_n_n.contr.Idx) :
    (dot_S2048x256_S256x2_S2048x2_1_0_0_1_n_n.lhsIdx j k 1).val = (k ⟨0, by decide⟩).val :=
  DotDims.lhsIdx_val_of_single _ rfl j k
theorem dotB_rhs_0 (j : S2048x2.Idx) (k : dot_S2048x256_S256x2_S2048x2_1_0_0_1_n_n.contr.Idx) :
    (dot_S2048x256_S256x2_S2048x2_1_0_0_1_n_n.rhsIdx j k 0).val = (k ⟨0, by decide⟩).val :=
  DotDims.rhsIdx_val_of_single _ rfl j k
theorem dotB_rhs_1 (j : S2048x2.Idx) (k : dot_S2048x256_S256x2_S2048x2_1_0_0_1_n_n.contr.Idx) :
    (dot_S2048x256_S256x2_S2048x2_1_0_0_1_n_n.rhsIdx j k 1).val = (j 1).val := by
  simp [DotDims.rhsIdx, dot_S2048x256_S256x2_S2048x2_1_0_0_1_n_n]; rfl

/-- Into the zero splat, at (r, e): the sum over the 256 inner positions. -/
theorem mmB_apply (lhs : FVec Ideal S2048x256 .bf16) (rhs : FVec Ideal S256x2 .bf16) (r : Fin 2048) (e : Fin 2) :
    matmul dot_S2048x256_S256x2_S2048x2_1_0_0_1_n_n none lhs rhs (constant (F := Ideal) S2048x2 .f32 0x00000000#32) (ix2 r e)
      = ∑ k : Fin 256, lhs (ix2 r k) * rhs (ix2 k e) := by
  refine (Ideal.matmul_constant_zero_apply dot_S2048x256_S256x2_S2048x2_1_0_0_1_n_n none lhs rhs (ix2 r e)).trans ?_
  rw [← Equiv.sum_comp (contrEquiv1 dot_S2048x256_S256x2_S2048x2_1_0_0_1_n_n 256 rfl rfl).symm]
  refine Finset.sum_congr rfl fun d _ => ?_
  have hk := contrEquiv1_symm_val dot_S2048x256_S256x2_S2048x2_1_0_0_1_n_n 256 rfl rfl d
  have el : dot_S2048x256_S256x2_S2048x2_1_0_0_1_n_n.lhsIdx (ix2 r e) ((contrEquiv1 dot_S2048x256_S256x2_S2048x2_1_0_0_1_n_n 256 rfl rfl).symm d) = ix2 r d := by
    funext a; apply Fin.ext
    match a with
    | ⟨0, _⟩ => exact dotB_lhs_0 _ _
    | ⟨1, _⟩ => exact (dotB_lhs_1 _ _).trans hk
  have er : dot_S2048x256_S256x2_S2048x2_1_0_0_1_n_n.rhsIdx (ix2 r e) ((contrEquiv1 dot_S2048x256_S256x2_S2048x2_1_0_0_1_n_n 256 rfl rfl).symm d) = ix2 d e := by
    funext a; apply Fin.ext
    match a with
    | ⟨0, _⟩ => exact (dotB_rhs_0 _ _).trans hk
    | ⟨1, _⟩ => exact dotB_rhs_1 _ _
  rw [el, er]

/-! ## The projection kernel's three payloads at an index -/

/-- leaky_relu(x-block · W) at (r, k). -/
theorem pay2_apply (x0 : Vec Ideal S2048x512 .f32) (x1 : Vec Ideal S512x256 .f32) (r : Fin 2048) (k : Fin 256) :
    (k0_pay2 x0 x1 : FVec Ideal S2048x256 .f32) (ix2 r k) = Cert.Spec.leaky (∑ d : Fin 512, x0 (ix2 r d) * x1 (ix2 d k)) := by
  have e := mmA_apply (k0_pay1 x0) (truncf .bf16 x1 bitsLt_bf16_f32) r k
  unfold k0_pay2
  simp only [select_apply, cmpf_apply, mulf_apply, broadcast_apply]
  rw [e]
  rfl

/-- The stored block of h is the same (the narrowing is the identity on the extended reals). -/
theorem pay3_apply (x0 : Vec Ideal S2048x512 .f32) (x1 : Vec Ideal S512x256 .f32) (r : Fin 2048) (k : Fin 256) :
    (k0_pay3 x0 x1 : FVec Ideal S2048x256 .bf16) (ix2 r k) = Cert.Spec.leaky (∑ d : Fin 512, x0 (ix2 r d) * x1 (ix2 d k)) :=
  pay2_apply x0 x1 r k

/-- h-block · [a1 | a2] at (r, e). -/
theorem pay4_apply (x0 : Vec Ideal S2048x512 .f32) (x1 : Vec Ideal S512x256 .f32) (x2 : Vec Ideal S256x2 .f32) (r : Fin 2048) (e : Fin 2) :
    (k0_pay4 x0 x1 x2 : FVec Ideal S2048x2 .f32) (ix2 r e)
      = ∑ k : Fin 256, Cert.Spec.leaky (∑ d : Fin 512, x0 (ix2 r d) * x1 (ix2 d k)) * x2 (ix2 k e) := by
  unfold k0_pay4
  refine (mmB_apply _ _ r e).trans ?_
  refine Finset.sum_congr rfl fun k _ => ?_
  rw [shapeCast_self]
  exact congrArg (· * x2 (ix2 k e)) (pay2_apply x0 x1 r k)

/-- x-block · Wres + bres at (r, k). -/
theorem pay5_apply (x0 : Vec Ideal S2048x512 .f32) (x3 : Vec Ideal S512x256 .f32) (x4 : Vec Ideal S1x256 .f32) (r : Fin 2048) (k : Fin 256) :
    (k0_pay5 x0 x3 x4 : FVec Ideal S2048x256 .f32) (ix2 r k)
      = (∑ d : Fin 512, x0 (ix2 r d) * x3 (ix2 d k)) + x4 (ix2 (0 : Fin 1) k) := by
  have e := mmA_apply (k0_pay1 x0) (truncf .bf16 x3 bitsLt_bf16_f32) r k
  unfold k0_pay5
  simp only [addf_apply]
  rw [e, shapeCast_self, broadcastTo_1b_ab_apply]
  rfl

/-! ## The projection call's entry arrays -/

/-- The two attention vectors side by side, as the projection call finds them. -/
abbrev amat (c : Dev nD) : S256x2.Idx → EReal := W1 m ρ c (Proc.devRef .tc main_v2)
/-- The residual bias as a row, as the projection call finds it. -/
abbrev rbrow (c : Dev nD) : S1x256.Idx → EReal := W1 m ρ c (Proc.devRef .tc main_v3)

theorem amat_eq (c : Dev nD) : amat m ρ c
    = concatenate S256x2 1 [⟨S256x1, extractStridedSlice S256x1 ![0, 0] (argA m c) slices_S512x1_S256x1_0_0⟩,
        ⟨S256x1, extractStridedSlice S256x1 ![256, 0] (argA m c) slices_S512x1_S256x1_256_0⟩] concatenates_S256x1_S256x1_S256x2_d1 := by
  show StableHlo.after hostOps0 (W0 m ρ c) (Proc.devRef .tc main_v2) = _
  after_results

/-- Column 0 is the first half of the attention vector. -/
theorem amat_col0 (c : Dev nD) (k : Fin 256) : amat m ρ c (ix2 k (0 : Fin 2)) = Cert.Spec.a1 (argA m c) k := by
  rw [amat_eq]
  refine (concatenate_pair_apply_left (t := S256x2) (s₁ := S256x1) (s₂ := S256x1) (1 : Fin 2) _ _ concatenates_S256x1_S256x1_S256x2_d1 (ix2 k (0 : Fin 2)) rfl (ix2 k (0 : Fin 1)) fun b => ?_).trans ?_
  · match b with
    | ⟨0, _⟩ => rfl
    | ⟨1, _⟩ => rfl
  · exact slice2_axis0_apply 0 (argA m c) slices_S512x1_S256x1_0_0 k (0 : Fin 1) _ (Nat.zero_add _).symm

/-- Column 1 is the second half. -/
theorem amat_col1 (c : Dev nD) (k : Fin 256) : amat m ρ c (ix2 k (1 : Fin 2)) = Cert.Spec.a2 (argA m c) k := by
  rw [amat_eq]
  refine (concatenate_pair_apply_right (t := S256x2) (s₁ := S256x1) (s₂ := S256x1) (1 : Fin 2) _ _ concatenates_S256x1_S256x1_S256x2_d1 (ix2 k (1 : Fin 2)) rfl rfl (ix2 k (0 : Fin 1)) (fun b hb => ?_) rfl).trans ?_
  · match b with
    | ⟨0, _⟩ => rfl
    | ⟨1, _⟩ => exact absurd rfl hb
  · exact slice2_axis0_apply 256 (argA m c) slices_S512x1_S256x1_256_0 k (0 : Fin 1) _ rfl

theorem rbrow_apply (c : Dev nD) (u : Fin 1) (k : Fin 256) : rbrow m ρ c (ix2 u k) = argRb m c (ix1 k) := by
  have e : rbrow m ρ c = shapeCast S1x256 (argRb m c) shapeCasts_S256_S1x256 := by
    show StableHlo.after hostOps0 (W0 m ρ c) (Proc.devRef .tc main_v3) = _
    after_results
    rfl
  rw [e]
  exact shapeCast_a_1a_apply _ _ u k

/-! ## The projection call's blocks, read off its arrays -/

/-- The printed index maps over the four points: the row-blocked windows sit at block (t, 0), the whole-array
    windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem pt_lt (t : Fin cfg0.N) : t.val < 4 := lt_of_lt_of_eq t.isLt N_0

/-- Row r of point t's block of x is row 2048·t + r of x. -/
theorem xblk_apply (c : Dev nD) (t : Fin cfg0.N) (r : Fin 2048) (d : Fin 512) (i : Fin 8192) (hi : i.val = 2048 * t.val + r.val) :
    (iblk0 (V1 m ρ) c 0 t : Vec Ideal S2048x512 .f32) (ix2 r d) = argX m c (ix2 i d) := by
  obtain ⟨e0, e1, -⟩ := idx_facts0 t
  unfold iblk0
  rw [View.read_apply]
  refine (congrFun (V1_keep m ρ c main_arg0 (by decide)) _).trans ?_
  refine congrArg (argX m c) (funext fun a => Fin.ext ?_)
  match a with
  | ⟨0, _⟩ => show win0_0.index t (0 : Fin 2) * 2048 + 1 * r.val = i.val; rw [e0, hi]; omega
  | ⟨1, _⟩ => show win0_0.index t (1 : Fin 2) * 512 + 1 * d.val = d.val; rw [e1]; omega

/-- The weight's one block is the weight. -/
theorem wblk_apply (c : Dev nD) (t : Fin cfg0.N) (d : Fin 512) (k : Fin 256) :
    (iblk0 (V1 m ρ) c 1 t : Vec Ideal S512x256 .f32) (ix2 d k) = argW m c (ix2 d k) := by
  obtain ⟨-, -, e0, e1, -⟩ := idx_facts0 t
  unfold iblk0
  rw [View.read_apply]
  refine (congrFun (V1_keep m ρ c main_arg2 (by decide)) _).trans ?_
  refine congrArg (argW m c) (funext fun a => Fin.ext ?_)
  match a with
  | ⟨0, _⟩ => show win0_1.index t (0 : Fin 2) * 512 + 1 * d.val = d.val; rw [e0]; omega
  | ⟨1, _⟩ => show win0_1.index t (1 : Fin 2) * 256 + 1 * k.val = k.val; rw [e1]; omega

/-- The attention vectors' one block is the pair of columns. -/
theorem ablk_apply (c : Dev nD) (t : Fin cfg0.N) (k : Fin 256) (e : Fin 2) :
    (iblk0 (V1 m ρ) c 2 t : Vec Ideal S256x2 .f32) (ix2 k e) = amat m ρ c (ix2 k e) := by
  obtain ⟨-, -, -, -, e0, e1, -⟩ := idx_facts0 t
  unfold iblk0
  rw [View.read_apply]
  refine congrArg (amat m ρ c) (funext fun a => Fin.ext ?_)
  match a with
  | ⟨0, _⟩ => show win0_2.index t (0 : Fin 2) * 256 + 1 * k.val = k.val; rw [e0]; omega
  | ⟨1, _⟩ => show win0_2.index t (1 : Fin 2) * 2 + 1 * e.val = e.val; rw [e1]; omega

/-- The residual weight's one block is the residual weight. -/
theorem rwblk_apply (c : Dev nD) (t : Fin cfg0.N) (d : Fin 512) (k : Fin 256) :
    (iblk0 (V1 m ρ) c 3 t : Vec Ideal S512x256 .f32) (ix2 d k) = argRw m c (ix2 d k) := by
  obtain ⟨-, -, -, -, -, -, e0, e1, -⟩ := idx_facts0 t
  unfold iblk0
  rw [View.read_apply]
  refine (congrFun (V1_keep m ρ c main_arg5 (by decide)) _).trans ?_
  refine congrArg (argRw m c) (funext fun a => Fin.ext ?_)
  match a with
  | ⟨0, _⟩ => show win0_3.index t (0 : Fin 2) * 512 + 1 * d.val = d.val; rw [e0]; omega
  | ⟨1, _⟩ => show win0_3.index t (1 : Fin 2) * 256 + 1 * k.val = k.val; rw [e1]; omega

/-- The residual bias row's one block is the row. -/
theorem rbblk_apply (c : Dev nD) (t : Fin cfg0.N) (u : Fin 1) (k : Fin 256) :
    (iblk0 (V1 m ρ) c 4 t : Vec Ideal S1x256 .f32) (ix2 u k) = rbrow m ρ c (ix2 u k) := by
  obtain ⟨-, -, -, -, -, -, -, -, e0, e1, -⟩ := idx_facts0 t
  unfold iblk0
  rw [View.read_apply]
  refine congrArg (rbrow m ρ c) (funext fun a => Fin.ext ?_)
  match a with
  | ⟨0, _⟩ => show win0_4.index t (0 : Fin 2) * 1 + 1 * u.val = u.val; rw [e0]; omega
  | ⟨1, _⟩ => show win0_4.index t (1 : Fin 2) * 256 + 1 * k.val = k.val; rw [e1]; omega

/-! ## What the projection call leaves in its three result arrays -/

/-- h, the pair of attention terms, and the residual projection, each as one function of the launch contents. -/
abbrev G5 (c : Dev nD) : S8192x256.Idx → EReal := fun j => Cert.Spec.hS (argX m c) (argW m c) (j 0) (j 1)
abbrev G6 (c : Dev nD) : S8192x2.Idx → EReal :=
  fun j => ∑ k : Fin 256, Cert.Spec.hS (argX m c) (argW m c) (j 0) k * amat m ρ c (ix2 k (j 1))
abbrev G7 (c : Dev nD) : S8192x256.Idx → EReal :=
  fun j => Cert.Spec.resid (argX m c) (argRw m c) (argRb m c) (j 0) (j 1)

/-- Where point t's block of each result sits in its array: rows 2048·t … 2048·t + 2047. -/
theorem emb5 (t : Fin cfg0.N) (r : Fin 2048) (k : Fin 256) (i : Fin 8192) (hi : i.val = 2048 * t.val + r.val) :
    ((cfg0.win 5).blk t).view.emb (ix2 r k : S2048x256.Idx) = (ix2 i k : S8192x256.Idx) := by
  obtain ⟨-, -, -, -, -, -, -, -, -, -, e0, e1, -⟩ := idx_facts0 t
  funext a; apply Fin.ext
  match a with
  | ⟨0, _⟩ => show win0_5.index t (0 : Fin 2) * 2048 + 1 * r.val = i.val; rw [e0, hi]; omega
  | ⟨1, _⟩ => show win0_5.index t (1 : Fin 2) * 256 + 1 * k.val = k.val; rw [e1]; omega
theorem emb6 (t : Fin cfg0.N) (r : Fin 2048) (k : Fin 2) (i : Fin 8192) (hi : i.val = 2048 * t.val + r.val) :
    ((cfg0.win 6).blk t).view.emb (ix2 r k : S2048x2.Idx) = (ix2 i k : S8192x2.Idx) := by
  obtain ⟨-, -, -, -, -, -, -, -, -, -, -, -, e0, e1, -⟩ := idx_facts0 t
  funext a; apply Fin.ext
  match a with
  | ⟨0, _⟩ => show win0_6.index t (0 : Fin 2) * 2048 + 1 * r.val = i.val; rw [e0, hi]; omega
  | ⟨1, _⟩ => show win0_6.index t (1 : Fin 2) * 2 + 1 * k.val = k.val; rw [e1]; omega
theorem emb7 (t : Fin cfg0.N) (r : Fin 2048) (k : Fin 256) (i : Fin 8192) (hi : i.val = 2048 * t.val + r.val) :
    ((cfg0.win 7).blk t).view.emb (ix2 r k : S2048x256.Idx) = (ix2 i k : S8192x256.Idx) := by
  obtain ⟨-, -, -, -, -, -, -, -, -, -, -, -, -, -, e0, e1⟩ := idx_facts0 t
  funext a; apply Fin.ext
  match a with
  | ⟨0, _⟩ => show win0_7.index t (0 : Fin 2) * 2048 + 1 * r.val = i.val; rw [e0, hi]; omega
  | ⟨1, _⟩ => show win0_7.index t (1 : Fin 2) * 256 + 1 * k.val = k.val; rw [e1]; omega

/-- Point t writes back block t of h. -/
theorem flushed5_eq (c : Dev nD) (t : Fin cfg0.N) :
    (dat0 (V1 m ρ) c).flushed 5 t = ((cfg0.win 5).blk t).view.read (Elt Ideal) (G5 m c) := by
  have ht := pt_lt t
  show (cfg0.win 5).cut (grid0.coords t) ((dat0 (V1 m ρ) c).after 5 t) = _
  rw [after0_5]
  unfold out0_5
  refine funext fun (y : S2048x256.Idx) => ?_
  obtain ⟨r, k, rfl⟩ : ∃ (r : Fin 2048) (k : Fin 256), y = ix2 r k := ⟨y 0, y 1, eq_ix2 y⟩
  rw [View.read_apply, emb5 t r k ⟨2048 * t.val + r.val, by omega⟩ rfl]
  show (k0_pay3 (F := Ideal) (iblk0 (V1 m ρ) c 0 t) (iblk0 (V1 m ρ) c 1 t) : FVec Ideal S2048x256 .bf16) (ix2 r k) = _
  refine (pay3_apply (iblk0 (V1 m ρ) c 0 t) (iblk0 (V1 m ρ) c 1 t) r k).trans ?_
  show Cert.Spec.leaky _ = Cert.Spec.leaky _
  refine congrArg Cert.Spec.leaky (Finset.sum_congr rfl fun d _ => ?_)
  rw [xblk_apply m ρ c t r d ⟨2048 * t.val + r.val, by omega⟩ rfl, wblk_apply m ρ c t d k]

/-- Point t writes back block t of the pair of attention terms. -/
theorem flushed6_eq (c : Dev nD) (t : Fin cfg0.N) :
    (dat0 (V1 m ρ) c).flushed 6 t = ((cfg0.win 6).blk t).view.read (Elt Ideal) (G6 m ρ c) := by
  have ht := pt_lt t
  show (cfg0.win 6).cut (grid0.coords t) ((dat0 (V1 m ρ) c).after 6 t) = _
  rw [after0_6]
  unfold out0_6
  refine funext fun (y : S2048x2.Idx) => ?_
  obtain ⟨r, e, rfl⟩ : ∃ (r : Fin 2048) (e : Fin 2), y = ix2 r e := ⟨y 0, y 1, eq_ix2 y⟩
  rw [View.read_apply, emb6 t r e ⟨2048 * t.val + r.val, by omega⟩ rfl]
  show (k0_pay4 (F := Ideal) (iblk0 (V1 m ρ) c 0 t) (iblk0 (V1 m ρ) c 1 t) (iblk0 (V1 m ρ) c 2 t) : FVec Ideal S2048x2 .f32) (ix2 r e) = _
  refine (pay4_apply (iblk0 (V1 m ρ) c 0 t) (iblk0 (V1 m ρ) c 1 t) (iblk0 (V1 m ρ) c 2 t) r e).trans ?_
  refine Finset.sum_congr rfl fun k _ => ?_
  rw [ablk_apply m ρ c t k e]
  refine congrArg (fun v => Cert.Spec.leaky v * amat m ρ c (ix2 k e)) (Finset.sum_congr rfl fun d _ => ?_)
  rw [xblk_apply m ρ c t r d ⟨2048 * t.val + r.val, by omega⟩ rfl, wblk_apply m ρ c t d k]

/-- Point t writes back block t of the residual projection. -/
theorem flushed7_eq (c : Dev nD) (t : Fin cfg0.N) :
    (dat0 (V1 m ρ) c).flushed 7 t = ((cfg0.win 7).blk t).view.read (Elt Ideal) (G7 m c) := by
  have ht := pt_lt t
  show (cfg0.win 7).cut (grid0.coords t) ((dat0 (V1 m ρ) c).after 7 t) = _
  rw [after0_7]
  unfold out0_7
  refine funext fun (y : S2048x256.Idx) => ?_
  obtain ⟨r, k, rfl⟩ : ∃ (r : Fin 2048) (k : Fin 256), y = ix2 r k := ⟨y 0, y 1, eq_ix2 y⟩
  rw [View.read_apply, emb7 t r k ⟨2048 * t.val + r.val, by omega⟩ rfl]
  show (k0_pay5 (F := Ideal) (iblk0 (V1 m ρ) c 0 t) (iblk0 (V1 m ρ) c 3 t) (iblk0 (V1 m ρ) c 4 t) : FVec Ideal S2048x256 .f32) (ix2 r k) = _
  refine (pay5_apply (iblk0 (V1 m ρ) c 0 t) (iblk0 (V1 m ρ) c 3 t) (iblk0 (V1 m ρ) c 4 t) r k).trans ?_
  rw [rbblk_apply m ρ c t 0 k, rbrow_apply m ρ c 0 k]
  refine congrArg (· + argRb m c (ix1 k)) (Finset.sum_congr rfl fun d _ => ?_)
  rw [xblk_apply m ρ c t r d ⟨2048 * t.val + r.val, by omega⟩ rfl, rwblk_apply m ρ c t d k]

/-- Every row of a result array lies in the block of the point that covers it: row r in point r / 2048's. -/
theorem cover5 (i : S8192x256.Idx) : ∃ t : Fin cfg0.N, (cfg0.win 5).flush t = true ∧ i ∈ ((cfg0.win 5).blk t).view.set := by
  have h0 : (i 0).val < 8192 := (i 0).isLt
  have h1 : (i 1).val < 256 := (i 1).isLt
  have hq : (i 0).val / 2048 < 4 := by omega
  obtain ⟨t, ht⟩ : ∃ t : Fin cfg0.N, t.val = (i 0).val / 2048 := ⟨⟨(i 0).val / 2048, lt_of_lt_of_eq hq N_0.symm⟩, rfl⟩
  obtain ⟨-, -, -, -, -, -, -, -, -, -, e0, e1, -⟩ := idx_facts0 t
  refine ⟨t, flush0_5 t, ?_⟩
  show i ∈ ((View.whole main_v5_0).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 256 ≤ (i 1).val ∧ (i 1).val < win0_5.index t (1 : Fin 2) * 256 + 256
    rw [e1]; omega
theorem cover6 (i : S8192x2.Idx) : ∃ t : Fin cfg0.N, (cfg0.win 6).flush t = true ∧ i ∈ ((cfg0.win 6).blk t).view.set := by
  have h0 : (i 0).val < 8192 := (i 0).isLt
  have h1 : (i 1).val < 2 := (i 1).isLt
  have hq : (i 0).val / 2048 < 4 := by omega
  obtain ⟨t, ht⟩ : ∃ t : Fin cfg0.N, t.val = (i 0).val / 2048 := ⟨⟨(i 0).val / 2048, lt_of_lt_of_eq hq N_0.symm⟩, rfl⟩
  obtain ⟨-, -, -, -, -, -, -, -, -, -, -, -, e0, e1, -⟩ := idx_facts0 t
  refine ⟨t, flush0_6 t, ?_⟩
  show i ∈ ((View.whole main_v5_1).slice (win0_6.rect t)).set
  rw [View.set_slice_whole, Rect.mem_set_unit]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 2 ≤ (i 1).val ∧ (i 1).val < win0_6.index t (1 : Fin 2) * 2 + 2
    rw [e1]; omega
theorem cover7 (i : S8192x256.Idx) : ∃ t : Fin cfg0.N, (cfg0.win 7).flush t = true ∧ i ∈ ((cfg0.win 7).blk t).view.set := by
  have h0 : (i 0).val < 8192 := (i 0).isLt
  have h1 : (i 1).val < 256 := (i 1).isLt
  have hq : (i 0).val / 2048 < 4 := by omega
  obtain ⟨t, ht⟩ : ∃ t : Fin cfg0.N, t.val = (i 0).val / 2048 := ⟨⟨(i 0).val / 2048, lt_of_lt_of_eq hq N_0.symm⟩, rfl⟩
  obtain ⟨-, -, -, -, -, -, -, -, -, -, -, -, -, -, e0, e1⟩ := idx_facts0 t
  refine ⟨t, flush0_7 t, ?_⟩
  show i ∈ ((View.whole main_v5_2).slice (win0_7.rect t)).set
  rw [View.set_slice_whole, Rect.mem_set_unit]
  intro a
  match a with
  | ⟨0, _⟩ =>
    show win0_7.index t (0 : Fin 2) * 2048 ≤ (i 0).val ∧ (i 0).val < win0_7.index t (0 : Fin 2) * 2048 + 2048
    rw [e0, ht]; omega
  | ⟨1, _⟩ =>
    show win0_7.index t (1 : Fin 2) * 256 ≤ (i 1).val ∧ (i 1).val < win0_7.index t (1 : Fin 2) * 256 + 256
    rw [e1]; omega

/-- So each result array ends holding its function of the launch contents. -/
theorem final5 (c : Dev nD) : (dat0 (V1 m ρ) c).arrAt 5 cfg0.N = G5 m c :=
  (dat0 (V1 m ρ) c).arrAt_eq_of_cover 5 (G5 m c) (fun t _ => flushed5_eq m ρ c t) cover5
theorem final6 (c : Dev nD) : (dat0 (V1 m ρ) c).arrAt 6 cfg0.N = G6 m ρ c :=
  (dat0 (V1 m ρ) c).arrAt_eq_of_cover 6 (G6 m ρ c) (fun t _ => flushed6_eq m ρ c t) cover6
theorem final7 (c : Dev nD) : (dat0 (V1 m ρ) c).arrAt 7 cfg0.N = G7 m c :=
  (dat0 (V1 m ρ) c).arrAt_eq_of_cover 7 (G7 m c) (fun t _ => flushed7_eq m ρ c t) cover7

/-- The pair of attention terms at the attention call's entry. -/
theorem W2_v5_1 (c : Dev nD) : W2 m ρ c (Proc.devRef .tc main_v5_1) = G6 m ρ c :=
  (W2_arr m ρ c 6).trans (final6 m ρ c)

/-! ## What the attention call finds -/

/-- Window 0 of the attention call: the first attention term, one column. -/
theorem V3_t1 (c : Dev nD) : (V3 m ρ c main_v6 : S8192x1.Idx → EReal)
    = fun j => Cert.Spec.t1 (argX m c) (argW m c) (argA m c) (j 0) := by
  have e : (W3 m ρ c (Proc.devRef .tc main_v6) : S8192x1.Idx → EReal)
      = extractStridedSlice S8192x1 ![0, 0] (W2 m ρ c (Proc.devRef .tc main_v5_1) : S8192x2.Idx → EReal) slices_S8192x2_S8192x1_0_0 := by
    show StableHlo.after hostOps1 (W2 m ρ c) (Proc.devRef .tc main_v6) = _
    after_results
  refine e.trans ?_
  rw [W2_v5_1]
  funext j
  obtain ⟨i, u, rfl⟩ : ∃ (i : Fin 8192) (u : Fin 1), j = ix2 i u := ⟨j 0, j 1, eq_ix2 j⟩
  refine (slice2_axis1_apply 0 (G6 m ρ c) slices_S8192x2_S8192x1_0_0 i u (0 : Fin 2) (by have := u.isLt; omega)).trans ?_
  exact Finset.sum_congr rfl fun k _ => congrArg (Cert.Spec.hS (argX m c) (argW m c) i k * ·) (amat_col0 m ρ c k)
/-- Window 1: the second attention term, one row. -/
theorem V3_t2 (c : Dev nD) : (V3 m ρ c main_v8 : S1x8192.Idx → EReal)
    = fun j => Cert.Spec.t2 (argX m c) (argW m c) (argA m c) (j 1) := by
  have e : (W3 m ρ c (Proc.devRef .tc main_v8) : S1x8192.Idx → EReal)
      = shapeCast S1x8192 (extractStridedSlice S8192x1 ![0, 1] (W2 m ρ c (Proc.devRef .tc main_v5_1) : S8192x2.Idx → EReal) slices_S8192x2_S8192x1_0_1) shapeCasts_S8192x1_S1x8192 := by
    show StableHlo.after hostOps1 (W2 m ρ c) (Proc.devRef .tc main_v8) = _
    after_results
    rfl
  refine e.trans ?_
  rw [W2_v5_1]
  funext j
  obtain ⟨u, i, rfl⟩ : ∃ (u : Fin 1) (i : Fin 8192), j = ix2 u i := ⟨j 0, j 1, eq_ix2 j⟩
  refine (shapeCast_apply _ shapeCasts_S8192x1_S1x8192 (ix2 u i) (ix2 i (0 : Fin 1)) (by
    rw [Shape.rowMajor_val_two, Shape.rowMajor_val_two]
    show i.val * 1 + 0 = u.val * 8192 + i.val
    have := u.isLt; omega)).trans ?_
  refine (slice2_axis1_apply 1 (G6 m ρ c) slices_S8192x2_S8192x1_0_1 i (0 : Fin 1) (1 : Fin 2) rfl).trans ?_
  exact Finset.sum_congr rfl fun k _ => congrArg (Cert.Spec.hS (argX m c) (argW m c) i k * ·) (amat_col1 m ρ c k)
/-- Window 2: the value matrix h. -/
theorem V3_h (c : Dev nD) : (V3 m ρ c main_v5_0 : S8192x256.Idx → EReal)
    = fun j => Cert.Spec.hS (argX m c) (argW m c) (j 0) (j 1) :=
  (V3_keep m ρ c main_v5_0 (by decide)).trans <| (W2_arr m ρ c 5).trans (final5 m ρ c)
/-- Window 3: the adjacency matrix, as launched. -/
theorem V3_adj (c : Dev nD) : V3 m ρ c main_arg1 = m ((c : Thread nD τ).loc main_arg1) :=
  (V3_keep m ρ c main_arg1 (by decide)).trans <| (W2_of_ne m ρ c main_arg1 (by decide)).trans <|
    V1_keep m ρ c main_arg1 (by decide)
/-- Window 4: the residual projection. -/
theorem V3_res (c : Dev nD) : (V3 m ρ c main_v5_2 : S8192x256.Idx → EReal)
    = fun j => Cert.Spec.resid (argX m c) (argRw m c) (argRb m c) (j 0) (j 1) :=
  (V3_keep m ρ c main_v5_2 (by decide)).trans <| (W2_arr m ρ c 7).trans (final7 m ρ c)
/-- Window 5: the bias, as a row. -/
theorem V3_bias (c : Dev nD) : (V3 m ρ c main_v4 : S1x256.Idx → EReal)
    = fun j => argBias m c (ix1 (j 1)) := by
  refine ((V3_keep m ρ c main_v4 (by decide)).trans <| (W2_of_ne m ρ c main_v4 (by decide)).trans <| V1_v4 m ρ c).trans ?_
  funext j
  obtain ⟨u, i, rfl⟩ : ∃ (u : Fin 1) (i : Fin 256), j = ix2 u i := ⟨j 0, j 1, eq_ix2 j⟩
  exact shapeCast_a_1a_apply _ _ u i

end Cert.KernelIdeal.Hand

end
-- ==== Proof.KI.FinalVal.lean ====
/- The read-out of the attention kernel at the last key block, at one element, over the extended reals:
   with g k' = acc(r, k') / l(r) the row's quotients, the written value at (r, k) is
   g k / max(sqrt(Σ_k' g k' · g k'), f32(1e-12)) + bias k + residual(r, k): the specification's tail.
   Every operation of the payload is read at the index by its own law: the pointwise ones, the column
   broadcast [a, 1] → [a, b], the row broadcast [1, b] → [a, b], the cast [a] → [a, 1], and the sum over
   the 256 columns of a row. -/
import proofs.«402513_j38903813767774_3_alg».proof.Proof.KI.Step
import proofs.«402513_j38903813767774_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Layout operations at coordinates -/

/-- A column [a, 1] broadcast to [a, b] reads, at (p, c), the column's entry of row p. -/
private theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to the column [a, 1] reads, at (i, u), the operand at i. -/
private theorem castCol_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction over the columns inserts: row r with column k. -/
private theorem liftCols {a b : ℕ} (h : (⟨2, ![a, b]⟩ : Shape).Reduces [1] ⟨1, ![a]⟩) (r : Fin a) (k : Fin b) :
    h.lift (ix1 r) k = ix2 r k := by
  funext c
  match c with
  | ⟨0, _⟩ => rfl
  | ⟨1, _⟩ => rfl

/-! ## Congruences on the extended reals -/

private theorem maxC {a a' b b' : EReal} (h1 : a = a') (h2 : b = b') : max a b = max a' b' := by rw [h1, h2]
private theorem addC {a a' b b' : EReal} (h1 : a = a') (h2 : b = b') : a + b = a' + b' := by rw [h1, h2]
private theorem mulC {a a' b b' : EReal} (h1 : a = a') (h2 : b = b') : a * b = a' * b' := by rw [h1, h2]
private theorem divC {a a' b b' : EReal} (h1 : a = a') (h2 : b = b') : Ideal.div a b = Ideal.div a' b' := by rw [h1, h2]

/-- A square root at an index is the square root of the element. -/
private theorem sqrtAt {s : Shape} {φ : FTy} (a : FVec Ideal s φ) (i : s.Idx) : sqrt a i = Ideal.sqrt (a i) := rfl
/-- A scalar constant at the ideal values is the extended real its word denotes. -/
private theorem ofBitsAt (φ : FTy) (b : BitVec φ.bits) : Scalar.ofBits (F := Ideal) φ b = Ideal.ofBits φ b := rfl

/-! ## The sum over the columns -/

/-- An add reduction over the columns, read at row r: the sum over the row. -/
private theorem rowSumAt {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction (F := Ideal) .add [1] ⟨1, ![a]⟩ src 0x00000000#32 h hφ hacc (ix1 r)
      = ∑ k : Fin b, src (ix2 r k) := by
  refine (Ideal.multiReduction_add_single src _ h hφ hacc (ix1 r)).trans ?_
  show ∑ k : Fin b, src (h.lift (ix1 r) k) = _
  exact Finset.sum_congr rfl fun k _ => congrArg src (liftCols h r k)

/-! ## The read-out -/

/-- The read-out at an element: the row's quotients through the tail, with the bias and residual of the element. -/
theorem finalOut_apply (x4 : Vec Ideal S1024x256 .f32) (x5 : Vec Ideal S1x256 .f32) (s : Sc Ideal) (r : Fin 1024) (k : Fin 256) :
    finalOut x4 x5 s (ix2 r k)
      = Cert.Spec.tail (fun k' => Ideal.div (s.2.2 (ix2 r k')) (s.2.1 (ix2 r (0 : Fin 1))))
          (x5 (ix2 (0 : Fin 1) k)) (x4 (ix2 r k)) k := by
  have quot : ∀ k' : Fin 256,
      (divf (F := Ideal) (φ := .f32) s.2.2 (broadcastTo S1024x256 s.2.1 broadcasts_S1024x1_S1024x256) : Vec Ideal S1024x256 .f32) (ix2 r k')
        = Ideal.div (s.2.2 (ix2 r k')) (s.2.1 (ix2 r (0 : Fin 1))) := fun k' =>
    (divf_apply _ _ _).trans (divC rfl (bcastCol_apply _ _ r k'))
  unfold finalOut k1_pay4 Cert.Spec.tail
  refine (addf_apply _ _ _).trans ?_
  refine addC ?_ ?_
  · refine (addf_apply _ _ _).trans ?_
    refine addC ?_ ?_
    · refine (divf_apply _ _ _).trans ?_
      refine divC (quot k) ?_
      refine (bcastCol_apply _ _ r k).trans ?_
      refine (maximumf_apply _ _ _).trans ?_
      refine maxC ?_ ?_
      · refine (sqrtAt _ _).trans ?_
        refine congrArg Ideal.sqrt ?_
        refine (castCol_apply _ _ r (0 : Fin 1)).trans ?_
        refine (rowSumAt _ _ _ _ r).trans ?_
        refine Finset.sum_congr rfl fun k' _ => ?_
        refine (mulf_apply _ _ _).trans ?_
        exact mulC (quot k') (quot k')
      · exact (broadcast_apply _ _).trans (ofBitsAt _ _)
    · refine (broadcastTo_1b_ab_apply _ _ r k).trans ?_
      exact congrFun (shapeCast_self x5 _) _
  · exact congrFun (shapeCast_self x4 _) _

end Cert.KernelIdeal.Hand

end
-- ==== Proof.Math.Online.lean ====
/- The running ("online") form of a softmax-weighted sum, and that it is the direct form.
   A row's scores arrive in K blocks of J entries. The running form keeps (m, l, acc): after a block with scores s
   and value rows v it holds  m' = max(m, max_j s j),  l' = exp(m - m') · l + Σ_j exp(s j - m'),
   acc' c = exp(m - m') · acc c + Σ_j exp(s j - m') · v j c,  starting from (-inf, 0, 0), where exp(-inf) = 0.
   For real scores and real values, after all blocks  acc c / l = Σ_i (exp(f i - M) / L) · g i c  with
   M = max_i f i and L = Σ_i exp(f i - M): each step multiplies the old sums by exp(m - m'), and
   exp(a - m) · exp(m - m') = exp(a - m') over the reals; l ≥ 1 since the maximum is attained. -/
import Idealize.ShloMosaic.PureOps.Ideal
import Mathlib.Data.EReal.Basic
import Mathlib.Analysis.SpecialFunctions.Exp
import Mathlib.Algebra.BigOperators.Fin
import Mathlib.Data.Fintype.BigOperators

noncomputable section

open scoped BigOperators

namespace Cert.Math

open Idealize.ShloMosaic

variable {J C : Type} [Fintype J]

/-- One row's running triple: maximum, sum, weighted sums. -/
abbrev St (C : Type) : Type := EReal × EReal × (C → EReal)

/-- The start: maximum -inf, sums 0. -/
def start (C : Type) : St C := (⊥, 0, fun _ => 0)

/-- One block folded in. -/
def onlineStep (s : J → EReal) (v : J → C → EReal) (st : St C) : St C :=
  (max st.1 ((Finset.univ : Finset J).fold max ⊥ s),
   Ideal.exp (st.1 - max st.1 ((Finset.univ : Finset J).fold max ⊥ s)) * st.2.1
     + ∑ j : J, Ideal.exp (s j - max st.1 ((Finset.univ : Finset J).fold max ⊥ s)),
   fun c => Ideal.exp (st.1 - max st.1 ((Finset.univ : Finset J).fold max ⊥ s)) * st.2.2 c
     + ∑ j : J, Ideal.exp (s j - max st.1 ((Finset.univ : Finset J).fold max ⊥ s)) * v j c)

/-- The first `n` of `K` blocks folded in, block 0 first. -/
def onlineFold {K : Nat} (s : Fin K → J → EReal) (v : Fin K → J → C → EReal) : (n : Nat) → n ≤ K → St C
  | 0, _ => start C
  | n + 1, h => onlineStep (s ⟨n, h⟩) (v ⟨n, h⟩) (onlineFold s v n (Nat.le_of_succ_le h))

theorem onlineFold_zero {K : Nat} (s : Fin K → J → EReal) (v : Fin K → J → C → EReal) (h : 0 ≤ K) :
    onlineFold s v 0 h = start C := rfl

theorem onlineFold_succ {K : Nat} (s : Fin K → J → EReal) (v : Fin K → J → C → EReal) (n : Nat) (h : n + 1 ≤ K) :
    onlineFold s v (n + 1) h = onlineStep (s ⟨n, h⟩) (v ⟨n, h⟩) (onlineFold s v n (Nat.le_of_succ_le h)) := rfl

/-! The closed form of the running triple, block by block. -/
namespace Online

/-- A real finite sum, read in the extended reals, is the sum of the readings. -/
theorem coe_sum {ι : Type} (s : Finset ι) (h : ι → ℝ) :
    ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- The reading of a maximum of two reals is the maximum of the readings (the reading is monotone). -/
theorem coe_max_real (a b : ℝ) : ((max a b : ℝ) : EReal) = max (a : EReal) (b : EReal) :=
  EReal.coe_strictMono.monotone.map_max

/-- The running maximum from -inf of real entries over a nonempty finite set is the real maximum. -/
theorem fold_max_coe {ι : Type} {s : Finset ι} (hs : s.Nonempty) (h : ι → ℝ) :
    s.fold max ⊥ (fun i => (h i : EReal)) = ((s.sup' hs h : ℝ) : EReal) := by
  induction hs using Finset.Nonempty.cons_induction with
  | singleton a => simp [Finset.fold_singleton]
  | cons a s ha hs ih => rw [Finset.fold_cons ha, ih, Finset.sup'_cons hs, ← coe_max_real]

/-- Re-basing the shifted exponentials: exp(m - m') · Σ exp(x - m) · w = Σ exp(x - m') · w, by exp(a)·exp(b) = exp(a+b). -/
theorem exp_shift {K : Nat} (S : Finset (Fin K)) (x w : Fin K → J → ℝ) (m m' : ℝ) :
    Real.exp (m - m') * ∑ k ∈ S, ∑ j, Real.exp (x k j - m) * w k j
      = ∑ k ∈ S, ∑ j, Real.exp (x k j - m') * w k j := by
  rw [Finset.mul_sum]
  refine Finset.sum_congr rfl (fun k _ => ?_)
  rw [Finset.mul_sum]
  refine Finset.sum_congr rfl (fun j _ => ?_)
  rw [← mul_assoc, ← Real.exp_add]
  congr 2
  ring

/-- The same re-basing without weights. -/
theorem exp_shift_one {K : Nat} (S : Finset (Fin K)) (x : Fin K → J → ℝ) (m m' : ℝ) :
    Real.exp (m - m') * ∑ k ∈ S, ∑ j, Real.exp (x k j - m) = ∑ k ∈ S, ∑ j, Real.exp (x k j - m') := by
  simpa only [mul_one] using exp_shift S x (fun _ _ => 1) m m'

/-- One block folded into a real triple stays real, with the closed forms of the three parts. -/
theorem step_real [Nonempty J] (s : J → ℝ) (v : J → C → ℝ) (m l : ℝ) (a : C → ℝ) :
    onlineStep (fun j => (s j : EReal)) (fun j c => (v j c : EReal))
        (((m : EReal), (l : EReal), fun c => (a c : EReal)) : St C)
      = (((max m (Finset.univ.sup' Finset.univ_nonempty s) : ℝ) : EReal),
         ((Real.exp (m - max m (Finset.univ.sup' Finset.univ_nonempty s)) * l
            + ∑ j, Real.exp (s j - max m (Finset.univ.sup' Finset.univ_nonempty s)) : ℝ) : EReal),
         fun c => ((Real.exp (m - max m (Finset.univ.sup' Finset.univ_nonempty s)) * a c
            + ∑ j, Real.exp (s j - max m (Finset.univ.sup' Finset.univ_nonempty s)) * v j c : ℝ) : EReal)) := by
  unfold onlineStep
  simp only [fold_max_coe Finset.univ_nonempty s, ← coe_max_real, ← EReal.coe_sub, Ideal.exp_coe,
    ← EReal.coe_mul, ← coe_sum, ← EReal.coe_add]

/-- The first block folded into the start: exp(-inf) = 0 kills the old sums. -/
theorem step_start [Nonempty J] (s : J → ℝ) (v : J → C → ℝ) :
    onlineStep (fun j => (s j : EReal)) (fun j c => (v j c : EReal)) (start C)
      = (((Finset.univ.sup' Finset.univ_nonempty s : ℝ) : EReal),
         ((∑ j, Real.exp (s j - Finset.univ.sup' Finset.univ_nonempty s) : ℝ) : EReal),
         fun c => ((∑ j, Real.exp (s j - Finset.univ.sup' Finset.univ_nonempty s) * v j c : ℝ) : EReal)) := by
  unfold onlineStep start
  simp only [fold_max_coe Finset.univ_nonempty s, bot_sup_eq, max_bot_left, EReal.bot_sub, Ideal.exp_bot,
    zero_mul, zero_add, ← EReal.coe_sub, Ideal.exp_coe, ← EReal.coe_mul, ← coe_sum]

/-- The running triple after the blocks of `S`: a real maximum `m` of their scores (an upper bound that is
    attained) and the two sums of exponentials shifted by `m`. -/
def Inv {K : Nat} (fr : Fin K → J → ℝ) (gr : Fin K → J → C → ℝ) (S : Finset (Fin K)) (st : St C) : Prop :=
  ∃ m : ℝ, (∀ k ∈ S, ∀ j, fr k j ≤ m) ∧ (∃ k ∈ S, ∃ j, fr k j = m) ∧
    st = (((m : EReal), ((∑ k ∈ S, ∑ j, Real.exp (fr k j - m) : ℝ) : EReal),
      fun c => ((∑ k ∈ S, ∑ j, Real.exp (fr k j - m) * gr k j c : ℝ) : EReal)) : St C)

/-- After the first block alone. -/
theorem inv_first [Nonempty J] {K : Nat} (fr : Fin K → J → ℝ) (gr : Fin K → J → C → ℝ) (k : Fin K) :
    Inv fr gr {k} (onlineStep (fun j => (fr k j : EReal)) (fun j c => (gr k j c : EReal)) (start C)) := by
  refine ⟨Finset.univ.sup' Finset.univ_nonempty (fr k), ?_, ?_, ?_⟩
  · intro k' hk' j
    rw [Finset.mem_singleton] at hk'
    subst hk'
    exact Finset.le_sup' (fr k') (Finset.mem_univ j)
  · obtain ⟨j, _, hj⟩ := Finset.exists_mem_eq_sup' Finset.univ_nonempty (fr k)
    exact ⟨k, Finset.mem_singleton_self k, j, hj.symm⟩
  · rw [step_start]
    simp only [Finset.sum_singleton]

/-- One more block: the maximum grows to max(m, block maximum), the old sums are re-based. -/
theorem inv_step [Nonempty J] {K : Nat} (fr : Fin K → J → ℝ) (gr : Fin K → J → C → ℝ) (S : Finset (Fin K))
    (st : St C) (k : Fin K) (hk : k ∉ S) (h : Inv fr gr S st) :
    Inv fr gr (insert k S) (onlineStep (fun j => (fr k j : EReal)) (fun j c => (gr k j c : EReal)) st) := by
  obtain ⟨m, hle, ⟨k0, hk0, j0, hj0⟩, rfl⟩ := h
  refine ⟨max m (Finset.univ.sup' Finset.univ_nonempty (fr k)), ?_, ?_, ?_⟩
  · intro k' hk' j
    rcases Finset.mem_insert.mp hk' with rfl | hk'
    · exact le_trans (Finset.le_sup' (fr k') (Finset.mem_univ j)) (le_max_right _ _)
    · exact le_trans (hle k' hk' j) (le_max_left _ _)
  · rcases le_total m (Finset.univ.sup' Finset.univ_nonempty (fr k)) with hmb | hbm
    · obtain ⟨j, _, hj⟩ := Finset.exists_mem_eq_sup' Finset.univ_nonempty (fr k)
      exact ⟨k, Finset.mem_insert_self k S, j, by rw [max_eq_right hmb, hj]⟩
    · exact ⟨k0, Finset.mem_insert_of_mem hk0, j0, by rw [max_eq_left hbm, hj0]⟩
  · rw [step_real]
    simp only [Finset.sum_insert hk, exp_shift, exp_shift_one]
    refine Prod.ext rfl (Prod.ext ?_ ?_)
    · simp only [add_comm]
    · funext c
      simp only [add_comm]
/-- After `n + 1` blocks the triple is the closed form over the blocks with index below `n + 1`. -/
theorem inv_fold [Nonempty J] {K : Nat} (fr : Fin K → J → ℝ) (gr : Fin K → J → C → ℝ) :
    ∀ (n : Nat) (h : n + 1 ≤ K), Inv fr gr (Finset.univ.filter (fun k : Fin K => k.val < n + 1))
      (onlineFold (fun k j => (fr k j : EReal)) (fun k j c => (gr k j c : EReal)) (n + 1) h) := by
  intro n
  induction n with
  | zero =>
    intro h
    have hS : Finset.univ.filter (fun k : Fin K => k.val < 0 + 1) = {⟨0, h⟩} := by
      ext k; simp [Fin.ext_iff]
    rw [hS, onlineFold_succ, onlineFold_zero]
    exact inv_first fr gr ⟨0, h⟩
  | succ n ih =>
    intro h
    have hS : Finset.univ.filter (fun k : Fin K => k.val < n + 1 + 1)
        = insert ⟨n + 1, h⟩ (Finset.univ.filter (fun k : Fin K => k.val < n + 1)) := by
      ext k; simp [Fin.ext_iff]; omega
    rw [hS, onlineFold_succ]
    exact inv_step fr gr _ _ ⟨n + 1, h⟩ (by simp) (ih (Nat.le_of_succ_le h))

/-- A sum over the blocks and within each block is the sum over the whole index set. -/
theorem sum_blocks {K : Nat} {I : Type} [Fintype I] (e : Fin K × J ≃ I) (h : I → ℝ) :
    ∑ k, ∑ j, h (e (k, j)) = ∑ i, h i := by
  rw [← Equiv.sum_comp e h, Fintype.sum_prod_type]

end Online

/-- THE LAW. Scores `f` and values `g` over an index set `I` cut into `K` blocks of `J` (`e`): for real scores
    and values the running form's quotient after all blocks is the direct softmax-weighted sum. -/
theorem online_quotient {K : Nat} {I : Type} [Fintype I] [Nonempty J] (hK : 0 < K) (e : Fin K × J ≃ I)
    (f : I → EReal) (g : I → C → EReal)
    (hf : ∀ i, ∃ r : ℝ, f i = (r : EReal)) (hg : ∀ i c, ∃ r : ℝ, g i c = (r : EReal)) (c : C) :
    Ideal.div ((onlineFold (fun k j => f (e (k, j))) (fun k j => g (e (k, j))) K le_rfl).2.2 c)
        (onlineFold (fun k j => f (e (k, j))) (fun k j => g (e (k, j))) K le_rfl).2.1
      = ∑ i : I, Ideal.div (Ideal.exp (f i - (Finset.univ : Finset I).fold max ⊥ f))
          (∑ i' : I, Ideal.exp (f i' - (Finset.univ : Finset I).fold max ⊥ f)) * g i c := by
  classical
  choose F hF using hf
  choose G hG using hg
  obtain rfl : f = fun i => (F i : EReal) := funext hF
  obtain rfl : g = fun i c => (G i c : EReal) := funext fun i => funext fun c => hG i c
  obtain ⟨n, rfl⟩ : ∃ n, K = n + 1 := ⟨K - 1, by omega⟩
  obtain ⟨m, hle, ⟨k0, -, j0, hj0⟩, hst⟩ :=
    Online.inv_fold (fun k j => F (e (k, j))) (fun k j c => G (e (k, j)) c) n le_rfl
  have hnon : (Finset.univ : Finset I).Nonempty := ⟨e (k0, j0), Finset.mem_univ _⟩
  have hM : Finset.univ.sup' hnon F = m := by
    apply le_antisymm
    · refine Finset.sup'_le _ _ (fun i _ => ?_)
      have := hle (e.symm i).1 (Finset.mem_filter.mpr ⟨Finset.mem_univ _, (e.symm i).1.isLt⟩) (e.symm i).2
      simpa using this
    · rw [← hj0]; exact Finset.le_sup' F (Finset.mem_univ (e (k0, j0)))
  have hall : Finset.univ.filter (fun k : Fin (n + 1) => k.val < n + 1) = Finset.univ :=
    Finset.filter_true_of_mem (fun k _ => k.isLt)
  rw [hall] at hst
  beta_reduce at hst ⊢
  rw [hst]
  dsimp only
  rw [Online.sum_blocks e (fun i => Real.exp (F i - m)), Online.sum_blocks e (fun i => Real.exp (F i - m) * G i c)]
  rw [Online.fold_max_coe hnon F, hM]
  have hL : (∑ i, Real.exp (F i - m)) ≠ 0 := (Finset.sum_pos (fun i _ => Real.exp_pos _) hnon).ne'
  simp only [← EReal.coe_sub, Ideal.exp_coe, ← Online.coe_sum, Ideal.div_coe hL, ← EReal.coe_mul]
  congr 1
  rw [Finset.sum_mul]
  refine Finset.sum_congr rfl (fun i _ => ?_)
  ring

end Cert.Math

end
-- ==== Proof.KI.StepVal.lean ====
/- One grid point of the attention kernel read at a row, over the extended reals: the point's step on
   the running triple is, row by row, the running softmax step of Math/Online.lean on the row's masked
   scores of this key block and the block's value rows; the start triple is its start; and the read-out
   at the last key block is the quotient acc/l put through the normalise-add-bias-add-residual tail. -/
import proofs.«402513_j38903813767774_3_alg».proof.Proof.KI.Step
import proofs.«402513_j38903813767774_3_alg».proof.Proof.KI.FinalVal
import proofs.«402513_j38903813767774_3_alg».proof.Proof.Spec
import proofs.«402513_j38903813767774_3_alg».proof.Proof.Math.Online
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- Row `r` of a running triple. -/
def rowSt (s : Sc Ideal) (r : Fin 1024) : Cert.Math.St (Fin 256) :=
  (s.1 (ix2 r (0 : Fin 1)), s.2.1 (ix2 r (0 : Fin 1)), fun k => s.2.2 (ix2 r k))

/-- The masked score of row `r` against key column `j` of the block: leaky_relu of the sum of the two attention
    terms where the adjacency word is positive, the mask value elsewhere. -/
def blockScore (x0 : Vec Ideal S1024x1 .f32) (x1 : Vec Ideal S1x1024 .f32) (x3 : Vec Ideal S1024x1024 .i32)
    (r j : Fin 1024) : EReal :=
  Scalar.select (IntOp.cmpi .sgt (x3 (ix2 r j)) 0#32)
    (Cert.Spec.leaky (x0 (ix2 r (0 : Fin 1)) + x1 (ix2 (0 : Fin 1) j))) Cert.Spec.maskW

/-! ## Layout operations at coordinates -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction over the columns inserts: row `r` with column `k`. -/
theorem lift_cols {a b : ℕ} (h : (⟨2, ![a, b]⟩ : Shape).Reduces [1] ⟨1, ![a]⟩) (r : Fin a) (k : Fin b) :
    h.lift (ix1 r) k = ix2 r k := by
  funext c
  match c with
  | ⟨0, _⟩ => rfl
  | ⟨1, _⟩ => rfl

/-! ## The words -/

/-- The word `0xFF800000` denotes the bottom of the extended reals. -/
theorem ofBits_negInf_f32 : Ideal.ofBits .f32 0xFF800000#32 = ⊥ := by
  simp [Ideal.ofBits, Ideal.ieee]

/-! ## The masked score -/

/-- The masked-score payload at `(r, j)` is the row's masked score against key column `j`. -/
theorem pay8_apply (x0 : Vec Ideal S1024x1 .f32) (x1 : Vec Ideal S1x1024 .f32) (x3 : Vec Ideal S1024x1024 .i32)
    (r j : Fin 1024) : k1_pay8 x0 x1 x3 (ix2 r j) = blockScore x0 x1 x3 r j := by
  unfold k1_pay8 blockScore Cert.Spec.leaky
  simp only [select_apply, cmpf_apply, mulf_apply, addf_apply, broadcast_apply, shapeCast_self]
  rw [broadcastTo_a1_ab_apply, broadcastTo_1b_ab_apply]
  rfl

/-! ## Congruences on the extended reals, and the exponential, the square root and a scalar constant read at an index -/

theorem max_congr {a a' b b' : EReal} (h1 : a = a') (h2 : b = b') : max a b = max a' b' := by rw [h1, h2]
theorem add_congr {a a' b b' : EReal} (h1 : a = a') (h2 : b = b') : a + b = a' + b' := by rw [h1, h2]
theorem mul_congr {a a' b b' : EReal} (h1 : a = a') (h2 : b = b') : a * b = a' * b' := by rw [h1, h2]
theorem sub_congr {a a' b b' : EReal} (h1 : a = a') (h2 : b = b') : a - b = a' - b' := by rw [h1, h2]
theorem div_congr {a a' b b' : EReal} (h1 : a = a') (h2 : b = b') : Ideal.div a b = Ideal.div a' b' := by rw [h1, h2]

/-- An exponential at an index is the exponential of the element. -/
theorem exp_apply {s : Shape} {φ : FTy} (a : FVec Ideal s φ) (i : s.Idx) : exp a i = Ideal.exp (a i) := rfl
/-- A square root at an index is the square root of the element. -/
theorem sqrt_apply {s : Shape} {φ : FTy} (a : FVec Ideal s φ) (i : s.Idx) : sqrt a i = Ideal.sqrt (a i) := rfl
/-- A scalar constant at the ideal values is the extended real its word denotes. -/
theorem scalar_ofBits_ideal (φ : FTy) (b : BitVec φ.bits) : Scalar.ofBits (F := Ideal) φ b = Ideal.ofBits φ b := rfl

/-! ## Reductions over the columns -/

/-- A `maximumf` reduction over the columns from the word of -inf, read at row `r`: the fold of `max` from the
    bottom over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) (r : Fin a) :
    multiReduction (F := Ideal) .maximumf [1] ⟨1, ![a]⟩ src 0xFF800000#32 h hφ hacc (ix1 r)
      = (Finset.univ : Finset (Fin b)).fold max ⊥ (fun k => src (ix2 r k)) := by
  refine (Ideal.multiReduction_maximumf_single src _ h hφ hacc (ix1 r)).trans ?_
  show (Finset.univ : Finset (Fin b)).fold max (Ideal.ofBits .f32 0xFF800000#32) (fun k => src (h.lift (ix1 r) k)) = _
  rw [ofBits_negInf_f32]
  exact congrArg (fun f => Finset.fold max ⊥ f Finset.univ) (funext fun k => congrArg src (lift_cols h r k))

/-- An `add` reduction over the columns, read at row `r`: the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction (F := Ideal) .add [1] ⟨1, ![a]⟩ src 0x00000000#32 h hφ hacc (ix1 r)
      = ∑ k : Fin b, src (ix2 r k) := by
  refine (Ideal.multiReduction_add_single src _ h hφ hacc (ix1 r)).trans ?_
  show ∑ k : Fin b, src (h.lift (ix1 r) k) = _
  exact Finset.sum_congr rfl fun k _ => congrArg src (lift_cols h r k)

/-! ## The running maximum, the correction and the exponentials -/

/-- The new running maximum of row `r`: the old one against the row's maximal masked score. -/
theorem pay9_apply (x0 : Vec Ideal S1024x1 .f32) (x1 : Vec Ideal S1x1024 .f32) (x3 : Vec Ideal S1024x1024 .i32)
    (m : Vec Ideal S1024x1 .f32) (r : Fin 1024) (u : Fin 1) :
    k1_pay9 x0 x1 x3 m (ix2 r u)
      = max (m (ix2 r u)) ((Finset.univ : Finset (Fin 1024)).fold max ⊥ (fun j => blockScore x0 x1 x3 r j)) := by
  unfold k1_pay9
  refine (maximumf_apply m _ (ix2 r u)).trans ?_
  refine max_congr rfl ?_
  refine (shapeCast_a_a1_apply _ _ r u).trans ?_
  refine (rowMax_apply (k1_pay8 x0 x1 x3) _ _ _ r).trans ?_
  exact congrArg (fun f => Finset.fold max ⊥ f Finset.univ) (funext fun j => pay8_apply x0 x1 x3 r j)

/-- The correction factor of row `r`: exp of the old maximum less the new one. -/
theorem pay10_apply (x0 : Vec Ideal S1024x1 .f32) (x1 : Vec Ideal S1x1024 .f32) (x3 : Vec Ideal S1024x1024 .i32)
    (m m2 : Vec Ideal S1024x1 .f32) (r : Fin 1024) (u : Fin 1) :
    k1_pay10 x0 x1 x3 m m2 (ix2 r u) = Ideal.exp (m2 (ix2 r u) - k1_pay9 x0 x1 x3 m (ix2 r u)) := by
  unfold k1_pay10
  refine (exp_apply _ (ix2 r u)).trans ?_
  exact congrArg Ideal.exp (subf_apply m2 (k1_pay9 x0 x1 x3 m) (ix2 r u))

/-- The exponential at `(r, j)`: exp of the masked score less the row's new maximum. -/
theorem pay11_apply (x0 : Vec Ideal S1024x1 .f32) (x1 : Vec Ideal S1x1024 .f32) (x3 : Vec Ideal S1024x1024 .i32)
    (m : Vec Ideal S1024x1 .f32) (r j : Fin 1024) :
    k1_pay11 x0 x1 x3 m (ix2 r j)
      = Ideal.exp (blockScore x0 x1 x3 r j - k1_pay9 x0 x1 x3 m (ix2 r (0 : Fin 1))) := by
  unfold k1_pay11
  refine (exp_apply _ (ix2 r j)).trans ?_
  refine congrArg Ideal.exp ?_
  refine (subf_apply _ _ (ix2 r j)).trans ?_
  exact sub_congr (pay8_apply x0 x1 x3 r j) (broadcastTo_a1_ab_apply _ _ r j)

/-- The new running sum of row `r`: the corrected old sum plus the row's exponentials. -/
theorem pay13_apply (x0 : Vec Ideal S1024x1 .f32) (x1 : Vec Ideal S1x1024 .f32) (x3 : Vec Ideal S1024x1024 .i32)
    (m m2 l : Vec Ideal S1024x1 .f32) (r : Fin 1024) (u : Fin 1) :
    k1_pay13 x0 x1 x3 m m2 l (ix2 r u)
      = k1_pay10 x0 x1 x3 m m2 (ix2 r u) * l (ix2 r u) + ∑ j : Fin 1024, k1_pay11 x0 x1 x3 m (ix2 r j) := by
  unfold k1_pay13
  refine (addf_apply _ _ (ix2 r u)).trans ?_
  refine add_congr (mulf_apply _ l (ix2 r u)) ?_
  refine (shapeCast_a_a1_apply _ _ r u).trans ?_
  exact rowSum_apply (k1_pay11 x0 x1 x3 m) _ _ _ r

/-! ## The product of the exponentials with the value rows

The contraction's two operand indices at result index `i` and contraction index `q`, axis by axis: the left operand is read at
(row of `i`, `q`), the right one at (`q`, column of `i`). -/

theorem lhs_S1024x256_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem lhs_S1024x256_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_S1024x256_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_S1024x256_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The block's matmul into the zero splat at `(r, k)`: the sum over the key rows of the products. -/
theorem matmul_rows (p : FVec Ideal S1024x1024 .bf16) (hv : FVec Ideal S1024x256 .bf16) (r : Fin 1024) (k : Fin 256) :
    FloatOps.matmul dot_S1024x1024_S1024x256_S1024x256_1_0_0_1_n_n none p hv (constant (F := Ideal) S1024x256 .f32 0x00000000#32) (ix2 r k)
      = ∑ j : Fin 1024, p (ix2 r j) * hv (ix2 j k) := by
  rw [Ideal.matmul_constant_zero_apply, ← Equiv.sum_comp (contrEquiv1 dot_S1024x1024_S1024x256_S1024x256_1_0_0_1_n_n 1024 rfl rfl).symm]
  refine Finset.sum_congr rfl fun j _ => ?_
  have hk := contrEquiv1_symm_val dot_S1024x1024_S1024x256_S1024x256_1_0_0_1_n_n 1024 rfl rfl j
  have el : dot_S1024x1024_S1024x256_S1024x256_1_0_0_1_n_n.lhsIdx (ix2 r k) ((contrEquiv1 dot_S1024x1024_S1024x256_S1024x256_1_0_0_1_n_n 1024 rfl rfl).symm j) = ix2 r j :=
    funext fun a => Fin.ext (by
      match a with
      | ⟨0, _⟩ => exact lhs_S1024x256_0 _ _
      | ⟨1, _⟩ => exact (lhs_S1024x256_1 _ _).trans hk)
  have er : dot_S1024x1024_S1024x256_S1024x256_1_0_0_1_n_n.rhsIdx (ix2 r k) ((contrEquiv1 dot_S1024x1024_S1024x256_S1024x256_1_0_0_1_n_n 1024 rfl rfl).symm j) = ix2 j k :=
    funext fun a => Fin.ext (by
      match a with
      | ⟨0, _⟩ => exact (rhs_S1024x256_0 _ _).trans hk
      | ⟨1, _⟩ => exact rhs_S1024x256_1 _ _)
  rw [el, er]

/-- The new weighted sum at `(r, k)`: the corrected old one plus the row's exponentials against column `k` of the value rows. -/
theorem pay2_apply1 (c : FVec Ideal S1024x1 .f32) (p : FVec Ideal S1024x1024 .bf16) (hv : Vec Ideal S1024x256 .bf16)
    (acc : Vec Ideal S1024x256 .f32) (r : Fin 1024) (k : Fin 256) :
    k1_pay2 c p hv acc (ix2 r k)
      = c (ix2 r (0 : Fin 1)) * acc (ix2 r k) + ∑ j : Fin 1024, p (ix2 r j) * hv (ix2 j k) := by
  unfold k1_pay2
  simp only [shapeCast_self]
  refine (addf_apply _ _ (ix2 r k)).trans ?_
  refine add_congr ?_ (matmul_rows p hv r k)
  refine (mulf_apply _ acc (ix2 r k)).trans ?_
  exact mul_congr (broadcastTo_a1_ab_apply c _ r k) rfl

/-! ## The start triple -/

/-- The starting maximum is the bottom. -/
theorem pay5_apply1 (i : S1024x1.Idx) : (k1_pay5 (F := Ideal)) i = ⊥ := by
  unfold k1_pay5
  simp only [shapeCast_self, broadcast_apply, scalar_ofBits_ideal, ofBits_negInf_f32]

/-- The starting sum is zero. -/
theorem pay6_apply1 (i : S1024x1.Idx) : (k1_pay6 (F := Ideal)) i = 0 := by
  unfold k1_pay6
  simp only [shapeCast_self, broadcast_apply, scalar_ofBits_ideal, Ideal.ofBits_zero_f32]

/-- The starting weighted sum is zero. -/
theorem pay7_apply1 (i : S1024x256.Idx) : (k1_pay7 (F := Ideal)) i = 0 := by
  unfold k1_pay7
  simp only [shapeCast_self, broadcast_apply, scalar_ofBits_ideal, Ideal.ofBits_zero_f32]

/-! ## The three components of the step at a row -/

/-- The stored maximum of row `r`. -/
theorem stepSc_row_m (x0 : Vec Ideal S1024x1 .f32) (x1 : Vec Ideal S1x1024 .f32) (x3 : Vec Ideal S1024x1024 .i32)
    (m : Vec Ideal S1024x1 .f32) (r : Fin 1024) :
    k1_pay3 (k1_pay9 x0 x1 x3 m) (ix2 r (0 : Fin 1)) = max (m (ix2 r (0 : Fin 1))) ((Finset.univ : Finset (Fin 1024)).fold max ⊥ (fun j => blockScore x0 x1 x3 r j)) := by
  unfold k1_pay3
  simp only [shapeCast_self]
  exact pay9_apply x0 x1 x3 m r 0

/-- The correction factor of row `r` over the new maximum spelt out. -/
theorem corr_apply (x0 : Vec Ideal S1024x1 .f32) (x1 : Vec Ideal S1x1024 .f32) (x3 : Vec Ideal S1024x1024 .i32)
    (m : Vec Ideal S1024x1 .f32) (r : Fin 1024) :
    k1_pay10 x0 x1 x3 m m (ix2 r (0 : Fin 1)) = Ideal.exp (m (ix2 r (0 : Fin 1)) - max (m (ix2 r (0 : Fin 1))) ((Finset.univ : Finset (Fin 1024)).fold max ⊥ (fun j => blockScore x0 x1 x3 r j))) :=
  (pay10_apply x0 x1 x3 m m r 0).trans (congrArg Ideal.exp (sub_congr rfl (pay9_apply x0 x1 x3 m r 0)))

/-- The exponential at `(r, j)` over the new maximum spelt out. -/
theorem pexp_apply (x0 : Vec Ideal S1024x1 .f32) (x1 : Vec Ideal S1x1024 .f32) (x3 : Vec Ideal S1024x1024 .i32)
    (m : Vec Ideal S1024x1 .f32) (r j : Fin 1024) :
    k1_pay11 x0 x1 x3 m (ix2 r j) = Ideal.exp (blockScore x0 x1 x3 r j - max (m (ix2 r (0 : Fin 1))) ((Finset.univ : Finset (Fin 1024)).fold max ⊥ (fun j => blockScore x0 x1 x3 r j))) :=
  (pay11_apply x0 x1 x3 m r j).trans (congrArg Ideal.exp (sub_congr rfl (pay9_apply x0 x1 x3 m r 0)))

/-- The stored sum of row `r`. -/
theorem stepSc_row_l (x0 : Vec Ideal S1024x1 .f32) (x1 : Vec Ideal S1x1024 .f32) (x3 : Vec Ideal S1024x1024 .i32)
    (m l : Vec Ideal S1024x1 .f32) (r : Fin 1024) :
    k1_pay1 (k1_pay13 x0 x1 x3 m m l) (ix2 r (0 : Fin 1))
      = Ideal.exp (m (ix2 r (0 : Fin 1)) - max (m (ix2 r (0 : Fin 1))) ((Finset.univ : Finset (Fin 1024)).fold max ⊥ (fun j => blockScore x0 x1 x3 r j))) * l (ix2 r (0 : Fin 1))
        + ∑ j : Fin 1024, Ideal.exp (blockScore x0 x1 x3 r j - max (m (ix2 r (0 : Fin 1))) ((Finset.univ : Finset (Fin 1024)).fold max ⊥ (fun j => blockScore x0 x1 x3 r j))) := by
  unfold k1_pay1
  simp only [shapeCast_self]
  refine (pay13_apply x0 x1 x3 m m l r 0).trans ?_
  exact add_congr (mul_congr (corr_apply x0 x1 x3 m r) rfl) (Finset.sum_congr rfl fun j _ => pexp_apply x0 x1 x3 m r j)

/-- The stored weighted sum at `(r, k)`. -/
theorem stepSc_row_acc (x0 : Vec Ideal S1024x1 .f32) (x1 : Vec Ideal S1x1024 .f32) (x3 : Vec Ideal S1024x1024 .i32)
    (m : Vec Ideal S1024x1 .f32) (hv : Vec Ideal S1024x256 .bf16) (acc : Vec Ideal S1024x256 .f32) (r : Fin 1024) (k : Fin 256) :
    k1_pay2 (k1_pay10 x0 x1 x3 m m) (k1_pay12 x0 x1 x3 m) hv acc (ix2 r k)
      = Ideal.exp (m (ix2 r (0 : Fin 1)) - max (m (ix2 r (0 : Fin 1))) ((Finset.univ : Finset (Fin 1024)).fold max ⊥ (fun j => blockScore x0 x1 x3 r j))) * acc (ix2 r k)
        + ∑ j : Fin 1024, Ideal.exp (blockScore x0 x1 x3 r j - max (m (ix2 r (0 : Fin 1))) ((Finset.univ : Finset (Fin 1024)).fold max ⊥ (fun j => blockScore x0 x1 x3 r j))) * hv (ix2 j k) := by
  refine (pay2_apply1 _ _ hv acc r k).trans ?_
  refine add_congr (mul_congr (corr_apply x0 x1 x3 m r) rfl) (Finset.sum_congr rfl fun j _ => mul_congr ?_ rfl)
  unfold k1_pay12
  refine (truncf_apply (ψ := .bf16) (k1_pay11 x0 x1 x3 m) bitsLt_bf16_f32 (ix2 r j)).trans ?_
  exact pexp_apply x0 x1 x3 m r j

/-- The start triple, row by row, is the running form's start. -/
theorem initSc_row (r : Fin 1024) : rowSt (initSc (F := Ideal)) r = Cert.Math.start (Fin 256) := by
  unfold rowSt initSc Cert.Math.start
  exact Prod.ext (pay5_apply1 (ix2 r (0 : Fin 1))) (Prod.ext (pay6_apply1 (ix2 r (0 : Fin 1))) (funext fun k => pay7_apply1 (ix2 r k)))

/-- The point's step, row by row, is the running form's step on the row's scores and the block's value rows. -/
theorem stepSc_row (i : grid1.Coords) (x0 : Vec Ideal S1024x1 .f32) (x1 : Vec Ideal S1x1024 .f32)
    (x2 : Vec Ideal S8192x256 .bf16) (x3 : Vec Ideal S1024x1024 .i32) (s : Sc Ideal) (r : Fin 1024) :
    rowSt (stepSc i x0 x1 x2 x3 s) r
      = Cert.Math.onlineStep (fun j : Fin 1024 => blockScore x0 x1 x3 r j)
          (fun (j : Fin 1024) (k : Fin 256) => x2 ((hrect i).emb (ix2 j k))) (rowSt s r) := by
  unfold rowSt Cert.Math.onlineStep stepSc
  refine Prod.ext ?_ (Prod.ext ?_ (funext fun k => ?_))
  · exact stepSc_row_m x0 x1 x3 s.1 r
  · exact stepSc_row_l x0 x1 x3 s.1 s.2.1 r
  · exact stepSc_row_acc x0 x1 x3 s.1 (View.ld x2 (hrect i)) s.2.2 r k

end Cert.KernelIdeal.Hand

end
-- ==== Proof.SpecReal.lean ====
/- For real inputs the specification's intermediate values are real: a leaky_relu of a real, finite sums of
   products of reals, and the masked score (the mask value is a finite float). -/
import proofs.«402513_j38903813767774_3_alg».proof.Proof.Spec

noncomputable section

open scoped BigOperators

namespace Cert.Spec

open Idealize.ShloMosaic Idealize.ShloMosaic.ValueIdx

/-- A pattern whose exponent field is not all ones denotes a real (a zero, a subnormal or a normal number). -/
theorem ieee_real {e m w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- The slope 0.2 and the mask value -9e15 are finite floats. -/
theorem slopeW_real : ∃ r : ℝ, slopeW = (r : EReal) :=
  ieee_real (e := 8) (m := 23) 0x3E4CCCCD#32 (by decide)
theorem maskW_real : ∃ r : ℝ, maskW = (r : EReal) :=
  ieee_real (e := 8) (m := 23) 0xD9FFCB9E#32 (by decide)

/-- A product of two reals is real. -/
theorem mul_real {u v : EReal} (hu : ∃ r : ℝ, u = (r : EReal)) (hv : ∃ r : ℝ, v = (r : EReal)) :
    ∃ r : ℝ, u * v = (r : EReal) := by
  obtain ⟨p, rfl⟩ := hu
  obtain ⟨q, rfl⟩ := hv
  exact ⟨p * q, (EReal.coe_mul p q).symm⟩

/-- A sum of two reals is real. -/
theorem add_real {u v : EReal} (hu : ∃ r : ℝ, u = (r : EReal)) (hv : ∃ r : ℝ, v = (r : EReal)) :
    ∃ r : ℝ, u + v = (r : EReal) := by
  obtain ⟨p, rfl⟩ := hu
  obtain ⟨q, rfl⟩ := hv
  exact ⟨p + q, (EReal.coe_add p q).symm⟩

/-- A finite sum of reals is real. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real (h a (Finset.mem_insert_self a s)) (ih fun i hi => h i (Finset.mem_insert_of_mem hi))

theorem leaky_real {v : EReal} (h : ∃ r : ℝ, v = (r : EReal)) : ∃ r : ℝ, leaky v = (r : EReal) := by
  unfold leaky Scalar.select
  split
  · exact h
  · exact mul_real slopeW_real h

theorem hS_real (x : Mat 8192 512) (W : Mat 512 256) (hx : ∀ i, ∃ r : ℝ, x i = (r : EReal)) (hW : ∀ i, ∃ r : ℝ, W i = (r : EReal))
    (i : Fin 8192) (k : Fin 256) : ∃ r : ℝ, hS x W i k = (r : EReal) := by
  unfold hS
  exact leaky_real (sum_real _ _ fun d _ => mul_real (hx _) (hW _))

/-- The two attention terms of a row are real. -/
theorem t1_real (x : Mat 8192 512) (W : Mat 512 256) (a : Mat 512 1)
    (hx : ∀ i, ∃ r : ℝ, x i = (r : EReal)) (hW : ∀ i, ∃ r : ℝ, W i = (r : EReal)) (ha : ∀ i, ∃ r : ℝ, a i = (r : EReal))
    (i : Fin 8192) : ∃ r : ℝ, t1 x W a i = (r : EReal) := by
  unfold t1 a1
  exact sum_real _ _ fun k _ => mul_real (hS_real x W hx hW i k) (ha _)

theorem t2_real (x : Mat 8192 512) (W : Mat 512 256) (a : Mat 512 1)
    (hx : ∀ i, ∃ r : ℝ, x i = (r : EReal)) (hW : ∀ i, ∃ r : ℝ, W i = (r : EReal)) (ha : ∀ i, ∃ r : ℝ, a i = (r : EReal))
    (j : Fin 8192) : ∃ r : ℝ, t2 x W a j = (r : EReal) := by
  unfold t2 a2
  exact sum_real _ _ fun k _ => mul_real (hS_real x W hx hW j k) (ha _)

theorem score_real (x : Mat 8192 512) (adj : Adj) (W : Mat 512 256) (a : Mat 512 1)
    (hx : ∀ i, ∃ r : ℝ, x i = (r : EReal)) (hW : ∀ i, ∃ r : ℝ, W i = (r : EReal)) (ha : ∀ i, ∃ r : ℝ, a i = (r : EReal))
    (i j : Fin 8192) : ∃ r : ℝ, score x adj W a i j = (r : EReal) := by
  unfold score Scalar.select
  split
  · exact leaky_real (add_real (t1_real x W a hx hW ha i) (t2_real x W a hx hW ha j))
  · exact maskW_real

end Cert.Spec

end
-- ==== Proof.KI.Val1.lean ====
/- The attention call's result array over the extended reals, for real inputs, is the specification's result.
   Point n of the grid has query block n / 8 and key block n % 8. Row r of the running triple after point n is
   the running softmax form (Math/Online.lean) of row (n / 8) · 1024 + r of the masked scores over key blocks
   0 … n % 8, against the rows of h; at key block 7 the written block is therefore, by the law of the running
   form, the specification's rows (n / 8) · 1024 … + 1023; the eight written blocks tile the array. -/
import proofs.«402513_j38903813767774_3_alg».proof.Proof.KI.Val0
import proofs.«402513_j38903813767774_3_alg».proof.Proof.KI.StepVal
import proofs.«402513_j38903813767774_3_alg».proof.Proof.SpecReal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

namespace Val1

/-- Entry j of block k of a length-8192 axis cut into 8 blocks of 1024: position k · 1024 + j. -/
def blkEquiv : Fin 8 × Fin 1024 ≃ Fin 8192 where
  toFun p := ⟨p.1.val * 1024 + p.2.val, by have := p.1.isLt; have := p.2.isLt; omega⟩
  invFun i := (⟨i.val / 1024, by have := i.isLt; omega⟩, ⟨i.val % 1024, Nat.mod_lt _ (by norm_num)⟩)
  left_inv := by
    rintro ⟨⟨k, hk⟩, ⟨j, hj⟩⟩
    apply Prod.ext <;> apply Fin.ext
    · show (k * 1024 + j) / 1024 = k; omega
    · show (k * 1024 + j) % 1024 = j; omega
  right_inv := by
    rintro ⟨i, hi⟩
    apply Fin.ext
    show i / 1024 * 1024 + i % 1024 = i; omega

theorem blkEquiv_val (k : Fin 8) (j : Fin 1024) : (blkEquiv (k, j)).val = k.val * 1024 + j.val := rfl

/-- The block indices of the seven windows at grid point t (query block t / 8, key block t % 8), and the first
    value row of the point's key block. -/
theorem idx1 : ∀ t : Fin cfg1.N,
    win1_0.index t (0 : Fin 2) = t.val / 8 ∧ win1_0.index t (1 : Fin 2) = 0
  ∧ win1_1.index t (0 : Fin 2) = 0 ∧ win1_1.index t (1 : Fin 2) = t.val % 8
  ∧ win1_2.index t (0 : Fin 2) = 0 ∧ win1_2.index t (1 : Fin 2) = 0
  ∧ win1_3.index t (0 : Fin 2) = t.val / 8 ∧ win1_3.index t (1 : Fin 2) = t.val % 8
  ∧ win1_4.index t (0 : Fin 2) = t.val / 8 ∧ win1_4.index t (1 : Fin 2) = 0
  ∧ win1_5.index t (0 : Fin 2) = 0 ∧ win1_5.index t (1 : Fin 2) = 0
  ∧ win1_6.index t (0 : Fin 2) = t.val / 8 ∧ win1_6.index t (1 : Fin 2) = 0
  ∧ k1_off1 (grid1.coords t) (0 : Fin 2) = t.val % 8 * 1024 ∧ k1_off1 (grid1.coords t) (1 : Fin 2) = 0 :=
  (by decide +kernel : ∀ t : Fin grid1.N, _)

section Blocks
variable (c : Dev nD) (t : Fin cfg1.N) (q k : Fin 8) (hq : t.val / 8 = q.val) (hk : t.val % 8 = k.val)
include hq hk

/-- The query rows' first attention term, read in the point's block. -/
theorem blk_t1 (r : Fin 1024) :
    (iblk1 (V3 m ρ) c 0 t : Vec Ideal S1024x1 .f32) (ix2 r (0 : Fin 1))
      = Cert.Spec.t1 (argX m c) (argW m c) (argA m c) (blkEquiv (q, r)) := by
  obtain ⟨e00, e01, -⟩ := idx1 t
  unfold iblk1
  rw [View.read_apply]
  show V3 m ρ c main_v6 _ = _
  refine (congrFun (V3_t1 m ρ c) _).trans ?_
  refine congrArg (Cert.Spec.t1 (argX m c) (argW m c) (argA m c)) (Fin.ext ?_)
  show win1_0.index t (0 : Fin 2) * 1024 + 1 * r.val = q.val * 1024 + r.val
  rw [e00, hq]; omega

/-- The key columns' second attention term, read in the point's block. -/
theorem blk_t2 (j : Fin 1024) :
    (iblk1 (V3 m ρ) c 1 t : Vec Ideal S1x1024 .f32) (ix2 (0 : Fin 1) j)
      = Cert.Spec.t2 (argX m c) (argW m c) (argA m c) (blkEquiv (k, j)) := by
  obtain ⟨-, -, e10, e11, -⟩ := idx1 t
  unfold iblk1
  rw [View.read_apply]
  show V3 m ρ c main_v8 _ = _
  refine (congrFun (V3_t2 m ρ c) _).trans ?_
  refine congrArg (Cert.Spec.t2 (argX m c) (argW m c) (argA m c)) (Fin.ext ?_)
  show win1_1.index t (1 : Fin 2) * 1024 + 1 * j.val = k.val * 1024 + j.val
  rw [e11, hk]; omega

/-- The adjacency word, read in the point's block. -/
theorem blk_adj (r j : Fin 1024) :
    (iblk1 (V3 m ρ) c 3 t : Vec Ideal S1024x1024 .i32) (ix2 r j)
      = argAdj m c (ix2 (blkEquiv (q, r)) (blkEquiv (k, j))) := by
  obtain ⟨-, -, -, -, -, -, e30, e31, -⟩ := idx1 t
  unfold iblk1
  rw [View.read_apply]
  show V3 m ρ c main_arg1 _ = _
  refine (congrFun (V3_adj m ρ c) _).trans ?_
  refine congrArg (argAdj m c) ?_
  funext a
  apply Fin.ext
  match a with
  | ⟨0, _⟩ =>
    show win1_3.index t (0 : Fin 2) * 1024 + 1 * r.val = q.val * 1024 + r.val
    rw [e30, hq]; omega
  | ⟨1, _⟩ =>
    show win1_3.index t (1 : Fin 2) * 1024 + 1 * j.val = k.val * 1024 + j.val
    rw [e31, hk]; omega

/-- The point's block score of row r against column j is the specification's masked score at the global
    indices q · 1024 + r and k · 1024 + j: the same expression of t1, t2 and the adjacency word. -/
theorem blockScore_eq (r j : Fin 1024) :
    blockScore (iblk1 (V3 m ρ) c 0 t) (iblk1 (V3 m ρ) c 1 t) (iblk1 (V3 m ρ) c 3 t) r j
      = Cert.Spec.score (argX m c) (argAdj m c) (argW m c) (argA m c) (blkEquiv (q, r)) (blkEquiv (k, j)) := by
  have h0 := blk_t1 m ρ c t q k hq hk r
  have h1 := blk_t2 m ρ c t q k hq hk j
  have h3 := blk_adj m ρ c t q k hq hk r j
  unfold blockScore Cert.Spec.score
  rw [h0, h1, h3]

/-- The value rows the point loads are rows k · 1024 + j of h. -/
theorem blk_h (j : Fin 1024) (kk : Fin 256) :
    (iblk1 (V3 m ρ) c 2 t : Vec Ideal S8192x256 .bf16) ((hrect (grid1.coords t)).emb (ix2 j kk))
      = Cert.Spec.hS (argX m c) (argW m c) (blkEquiv (k, j)) kk := by
  obtain ⟨-, -, -, -, e20, e21, -, -, -, -, -, -, -, -, eo0, eo1⟩ := idx1 t
  unfold iblk1
  rw [View.read_apply]
  show V3 m ρ c main_v5_0 _ = _
  refine (congrFun (V3_h m ρ c) _).trans ?_
  show Cert.Spec.hS (argX m c) (argW m c) _ _ = _
  refine congr (congrArg (Cert.Spec.hS (argX m c) (argW m c)) (Fin.ext ?_)) (Fin.ext ?_)
  · show win1_2.index t (0 : Fin 2) * 8192 + 1 * (k1_off1 (grid1.coords t) (0 : Fin 2) + 1 * j.val) = k.val * 1024 + j.val
    rw [e20, eo0, hk]; omega
  · show win1_2.index t (1 : Fin 2) * 256 + 1 * (k1_off1 (grid1.coords t) (1 : Fin 2) + 1 * kk.val) = kk.val
    rw [e21, eo1]; omega

/-- The residual projection, read in the point's block. -/
theorem blk_res (r : Fin 1024) (kk : Fin 256) :
    (iblk1 (V3 m ρ) c 4 t : Vec Ideal S1024x256 .f32) (ix2 r kk)
      = Cert.Spec.resid (argX m c) (argRw m c) (argRb m c) (blkEquiv (q, r)) kk := by
  obtain ⟨-, -, -, -, -, -, -, -, e40, e41, -⟩ := idx1 t
  unfold iblk1
  rw [View.read_apply]
  show V3 m ρ c main_v5_2 _ = _
  refine (congrFun (V3_res m ρ c) _).trans ?_
  show Cert.Spec.resid (argX m c) (argRw m c) (argRb m c) _ _ = _
  refine congr (congrArg (Cert.Spec.resid (argX m c) (argRw m c) (argRb m c)) (Fin.ext ?_)) (Fin.ext ?_)
  · show win1_4.index t (0 : Fin 2) * 1024 + 1 * r.val = q.val * 1024 + r.val
    rw [e40, hq]; omega
  · show win1_4.index t (1 : Fin 2) * 256 + 1 * kk.val = kk.val
    rw [e41]; omega

/-- The bias row, read whole. -/
theorem blk_bias (kk : Fin 256) :
    (iblk1 (V3 m ρ) c 5 t : Vec Ideal S1x256 .f32) (ix2 (0 : Fin 1) kk) = argBias m c (ix1 kk) := by
  obtain ⟨-, -, -, -, -, -, -, -, -, -, e50, e51, -⟩ := idx1 t
  unfold iblk1
  rw [View.read_apply]
  show V3 m ρ c main_v4 _ = _
  refine (congrFun (V3_bias m ρ c) _).trans ?_
  show argBias m c (ix1 _) = _
  refine congrArg (fun x => argBias m c (ix1 x)) (Fin.ext ?_)
  show win1_5.index t (1 : Fin 2) * 256 + 1 * kk.val = kk.val
  rw [e51]; omega
end Blocks

/-- The running form's step respects equality of its three arguments. -/
theorem onlineStep_congr {J C : Type} [Fintype J] {s s' : J → EReal} {v v' : J → C → EReal} {st st' : Cert.Math.St C}
    (hs : s = s') (hv : v = v') (hst : st = st') : Cert.Math.onlineStep s v st = Cert.Math.onlineStep s' v' st' := by
  subst hs hv hst; rfl

/-- The running triple depends on the position only through its value. -/
theorem scAt1_congr {F : FTy → Type} [FloatOps F] (V : (c : Dev nD) → (b : Ref sig .tc) → Buf (Elt F) ((c : Thread nD τ).loc b))
    (c : Dev nD) {n n' : ℕ} (h : n = n') (hn : n < cfg1.N) (hn' : n' < cfg1.N) : scAt1 V c n hn = scAt1 V c n' hn' := by
  subst h; rfl

/-- THE INVARIANT. After the point of query block q and key block kk, row r of the running triple is the running
    softmax form of global row q · 1024 + r over key blocks 0 … kk, against the rows of h. -/
theorem rowSt_scAt1 (c : Dev nD) (q : Fin 8) (r : Fin 1024) :
    ∀ (kk : ℕ) (hk : kk < 8) (hn : q.val * 8 + kk < cfg1.N),
      rowSt (scAt1 (V3 m ρ) c (q.val * 8 + kk) hn) r
        = Cert.Math.onlineFold (K := 8)
            (fun k j => Cert.Spec.score (argX m c) (argAdj m c) (argW m c) (argA m c) (blkEquiv (q, r)) (blkEquiv (k, j)))
            (fun k j => Cert.Spec.hS (argX m c) (argW m c) (blkEquiv (k, j))) (kk + 1) (Nat.succ_le_of_lt hk)
  | 0, hk, hn => by
    have hq : (⟨q.val * 8 + 0, hn⟩ : Fin cfg1.N).val / 8 = q.val := by show (q.val * 8 + 0) / 8 = q.val; omega
    have hkk : (⟨q.val * 8 + 0, hn⟩ : Fin cfg1.N).val % 8 = (⟨0, hk⟩ : Fin 8).val := by show (q.val * 8 + 0) % 8 = 0; omega
    have e := scAt1_first (V3 m ρ) c ⟨q.val * 8 + 0, hn⟩ hkk
    refine (congrArg (fun s => rowSt s r) e).trans ?_
    refine (stepSc_row _ _ _ _ _ _ r).trans ?_
    refine (onlineStep_congr ?_ ?_ (initSc_row r)).trans (Cert.Math.onlineFold_succ _ _ 0 _).symm
    · funext j; exact blockScore_eq m ρ c _ q ⟨0, hk⟩ hq hkk r j
    · funext j kk'; exact blk_h m ρ c _ q ⟨0, hk⟩ hq hkk j kk'
  | kk + 1, hk, hn => by
    have hq : (⟨q.val * 8 + (kk + 1), hn⟩ : Fin cfg1.N).val / 8 = q.val := by show (q.val * 8 + (kk + 1)) / 8 = q.val; omega
    have hkk : (⟨q.val * 8 + (kk + 1), hn⟩ : Fin cfg1.N).val % 8 = (⟨kk + 1, hk⟩ : Fin 8).val := by show (q.val * 8 + (kk + 1)) % 8 = kk + 1; omega
    have h0 : ¬(⟨q.val * 8 + (kk + 1), hn⟩ : Fin cfg1.N).val % 8 = 0 := by rw [hkk]; exact Nat.succ_ne_zero kk
    have e := scAt1_next (V3 m ρ) c ⟨q.val * 8 + (kk + 1), hn⟩ h0
    have ih := rowSt_scAt1 c q r kk (Nat.lt_of_succ_lt hk) (Nat.lt_of_succ_lt hn)
    refine (congrArg (fun s => rowSt s r) e).trans ?_
    refine (stepSc_row _ _ _ _ _ _ r).trans ?_
    refine (onlineStep_congr ?_ ?_ ?_).trans (Cert.Math.onlineFold_succ _ _ (kk + 1) _).symm
    · funext j; exact blockScore_eq m ρ c _ q ⟨kk + 1, hk⟩ hq hkk r j
    · funext j kk'; exact blk_h m ρ c _ q ⟨kk + 1, hk⟩ hq hkk j kk'
    · exact (congrArg (fun s => rowSt s r) (scAt1_congr (V3 m ρ) c (by show q.val * 8 + (kk + 1) - 1 = q.val * 8 + kk; omega) _ _)).trans ih

/-- WHAT THE LAST KEY BLOCK WRITES, at an element: the specification's result at global row q · 1024 + r. -/
theorem finalOut_point (c : Dev nD) (q : Fin 8) (hn : q.val * 8 + 7 < cfg1.N)
    (hx : ∀ i, ∃ r : ℝ, argX m c i = (r : EReal)) (hW : ∀ i, ∃ r : ℝ, argW m c i = (r : EReal))
    (ha : ∀ i, ∃ r : ℝ, argA m c i = (r : EReal)) (r : Fin 1024) (kk : Fin 256) :
    finalOut (iblk1 (V3 m ρ) c 4 ⟨q.val * 8 + 7, hn⟩) (iblk1 (V3 m ρ) c 5 ⟨q.val * 8 + 7, hn⟩)
        (scAt1 (V3 m ρ) c (q.val * 8 + 7) hn) (ix2 r kk)
      = Cert.Spec.out (argX m c) (argAdj m c) (argW m c) (argA m c) (argBias m c) (argRw m c) (argRb m c)
          (ix2 (blkEquiv (q, r)) kk) := by
  have hq : (⟨q.val * 8 + 7, hn⟩ : Fin cfg1.N).val / 8 = q.val := by show (q.val * 8 + 7) / 8 = q.val; omega
  have hkk : (⟨q.val * 8 + 7, hn⟩ : Fin cfg1.N).val % 8 = (7 : Fin 8).val := by show (q.val * 8 + 7) % 8 = 7; omega
  refine (finalOut_apply _ _ _ r kk).trans ?_
  have inv := rowSt_scAt1 m ρ c q r 7 (by omega) hn
  have hquot : (fun k' : Fin 256 => Ideal.div ((scAt1 (V3 m ρ) c (q.val * 8 + 7) hn).2.2 (ix2 r k'))
        ((scAt1 (V3 m ρ) c (q.val * 8 + 7) hn).2.1 (ix2 r (0 : Fin 1))))
      = Cert.Spec.agg (argX m c) (argAdj m c) (argW m c) (argA m c) (blkEquiv (q, r)) := by
    funext k'
    show Ideal.div ((rowSt (scAt1 (V3 m ρ) c (q.val * 8 + 7) hn) r).2.2 k') (rowSt (scAt1 (V3 m ρ) c (q.val * 8 + 7) hn) r).2.1 = _
    rw [inv]
    exact Cert.Math.online_quotient (K := 8) (by norm_num) blkEquiv
      (Cert.Spec.score (argX m c) (argAdj m c) (argW m c) (argA m c) (blkEquiv (q, r)))
      (Cert.Spec.hS (argX m c) (argW m c))
      (Cert.Spec.score_real _ _ _ _ hx hW ha _) (Cert.Spec.hS_real _ _ hx hW) k'
  rw [hquot, blk_bias m ρ c _ q 7 hq hkk kk, blk_res m ρ c _ q 7 hq hkk r kk]
  rfl

/-- WHAT A WRITING POINT WRITES BACK is its block of the specification's result. -/
theorem flushed_out (c : Dev nD)
    (hx : ∀ i, ∃ r : ℝ, argX m c i = (r : EReal)) (hW : ∀ i, ∃ r : ℝ, argW m c i = (r : EReal))
    (ha : ∀ i, ∃ r : ℝ, argA m c i = (r : EReal)) (t : Fin cfg1.N) (hf : (cfg1.win 6).flush t = true) :
    (dat1 (V3 m ρ) c).flushed 6 t = ((cfg1.win 6).blk t).view.read (Elt Ideal)
      (Cert.Spec.out (argX m c) (argAdj m c) (argW m c) (argA m c) (argBias m c) (argRw m c) (argRb m c)) := by
  have h7 : t.val % 8 = 7 := (flush1_6 t).mp hf
  have hN : t.val < 64 := lt_of_lt_of_eq t.isLt N_1
  obtain ⟨tv, ht⟩ := t
  obtain ⟨q, rfl⟩ : ∃ q : Fin 8, tv = q.val * 8 + 7 := ⟨⟨tv / 8, by dsimp only at hN; omega⟩, by dsimp only at h7 ⊢; omega⟩
  obtain ⟨-, -, -, -, -, -, -, -, -, -, -, -, e60, e61, -⟩ := idx1 ⟨q.val * 8 + 7, ht⟩
  show (cfg1.win 6).cut (grid1.coords ⟨q.val * 8 + 7, ht⟩) ((dat1 (V3 m ρ) c).after 6 ⟨q.val * 8 + 7, ht⟩) = _
  rw [after1_6]
  funext j
  have hj0 : (j 0).val < 1024 := (j 0).isLt
  have hj1 : (j 1).val < 256 := (j 1).isLt
  have hxj : (cfg1.win 6).xinj (grid1.coords ⟨q.val * 8 + 7, ht⟩) j = ix2 (⟨(j 0).val, hj0⟩ : Fin 1024) (⟨(j 1).val, hj1⟩ : Fin 256) := by
    funext a
    match a with
    | ⟨0, _⟩ => rfl
    | ⟨1, _⟩ => rfl
  refine (congrArg (finalOut _ _ _) hxj).trans ?_
  refine (finalOut_point m ρ c q ht hx hW ha _ _).trans ?_
  rw [View.read_apply]
  refine congrArg (Cert.Spec.out (argX m c) (argAdj m c) (argW m c) (argA m c) (argBias m c) (argRw m c) (argRb m c)) ?_
  funext a
  apply Fin.ext
  match a with
  | ⟨0, _⟩ =>
    show q.val * 1024 + (j 0).val = win1_6.index ⟨q.val * 8 + 7, ht⟩ (0 : Fin 2) * 1024 + 1 * (j 0).val
    rw [e60]; show q.val * 1024 + (j 0).val = (q.val * 8 + 7) / 8 * 1024 + 1 * (j 0).val; omega
  | ⟨1, _⟩ =>
    show (j 1).val = win1_6.index ⟨q.val * 8 + 7, ht⟩ (1 : Fin 2) * 256 + 1 * (j 1).val
    rw [e61]; omega

end Val1

/-- THE KERNEL'S VALUE: what the attention pipeline leaves in its result array. -/
theorem arrAt_out (c : Dev nD)
    (hx : ∀ i, ∃ r : ℝ, argX m c i = (r : EReal)) (hW : ∀ i, ∃ r : ℝ, argW m c i = (r : EReal))
    (ha : ∀ i, ∃ r : ℝ, argA m c i = (r : EReal)) :
    ((dat1 (V3 m ρ) c).arrAt 6 cfg1.N : S8192x256.Idx → EReal)
      = Cert.Spec.out (argX m c) (argAdj m c) (argW m c) (argA m c) (argBias m c) (argRw m c) (argRb m c) := by
  refine (dat1 (V3 m ρ) c).arrAt_eq_of_cover 6 _ (fun t hf => Val1.flushed_out m ρ c hx hW ha t hf) fun i => ?_
  have hi0 : (i 0).val < 8192 := (i 0).isLt
  have hi1 : (i 1).val < 256 := (i 1).isLt
  have hN : (i 0).val / 1024 * 8 + 7 < cfg1.N := lt_of_lt_of_eq (by omega : (i 0).val / 1024 * 8 + 7 < 64) N_1.symm
  obtain ⟨-, -, -, -, -, -, -, -, -, -, -, -, e60, e61, -⟩ := Val1.idx1 ⟨(i 0).val / 1024 * 8 + 7, hN⟩
  refine ⟨⟨(i 0).val / 1024 * 8 + 7, hN⟩, (flush1_6 _).mpr (by show ((i 0).val / 1024 * 8 + 7) % 8 = 7; omega), ?_⟩
  show i ∈ ((View.whole main_v9).slice (win1_6.rect ⟨(i 0).val / 1024 * 8 + 7, hN⟩)).set
  rw [View.set_slice_whole, Rect.mem_set_unit]
  intro a
  match a with
  | ⟨0, _⟩ =>
    show win1_6.index ⟨(i 0).val / 1024 * 8 + 7, hN⟩ (0 : Fin 2) * 1024 ≤ (i 0).val ∧ (i 0).val < win1_6.index ⟨(i 0).val / 1024 * 8 + 7, hN⟩ (0 : Fin 2) * 1024 + 1024
    rw [e60]; show ((i 0).val / 1024 * 8 + 7) / 8 * 1024 ≤ (i 0).val ∧ (i 0).val < ((i 0).val / 1024 * 8 + 7) / 8 * 1024 + 1024; omega
  | ⟨1, _⟩ =>
    show win1_6.index ⟨(i 0).val / 1024 * 8 + 7, hN⟩ (1 : Fin 2) * 256 ≤ (i 1).val ∧ (i 1).val < win1_6.index ⟨(i 0).val / 1024 * 8 + 7, hN⟩ (1 : Fin 2) * 256 + 256
    rw [e61]; omega

end Cert.KernelIdeal.Hand

end
-- ==== Proof.Pre.Finite.lean ====
import proofs.«402513_j38903813767774_3_alg».proof.Pre_finite_inputs
import proofs.«402513_j38903813767774_3_alg».proof.Proof.Gen.Pre_finite_inputs
import Idealize.ShloMosaic.PureOps.Ideal
import Idealize.ShloMosaic.Lib.ReduceAll
import Idealize.ShloMosaic.Lib.ValueIdx

/-!
  The finiteness precondition read back: each float input satisfies `all (|v| < +∞)`, and the six
  results are and-ed. At the ideal reading an entry is an extended real; `|v| < +∞` excludes both
  infinities (the junk value is `⊥`), so every entry is a real number.
-/

namespace Cert.PreFin

open Idealize.ShloMosaic
open Cert.Pre_finite_inputs

/-- The scalar shape has exactly one index. -/
instance subsingleton_S_ : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- One entry: `max a (-a) < +∞` holds only of a real. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- One input: if the and-reduction over all axes of `|v| < +∞` is 1, every entry of `v` is a real. -/
theorem all_finite {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ValueIdx.ix0 = 1#1) :
    ∀ i, ∃ r : ℝ, v i = (r : EReal) := by
  intro i
  have hi := Host.reduce_andi_all _ _ hr hu ValueIdx.ix0 e i
  exact real_of_abs_lt (v i) hi

/-- The precondition as a whole: its value 1 makes every entry of each of the six float inputs a real. -/
theorem real_of_pre (x : FVec Ideal S8192x512 .f32) (adj : IVec S8192x8192 32) (W : FVec Ideal S512x256 .f32)
    (a : FVec Ideal S512x1 .f32) (bias : FVec Ideal S256 .f32) (rw : FVec Ideal S512x256 .f32) (rb : FVec Ideal S256 .f32)
    (h : Cert.Pre_finite_inputs.fn (F := Ideal) x adj W a bias rw rb = fun _ => 1#1) :
    (∀ i, ∃ r : ℝ, x i = (r : EReal)) ∧ (∀ i, ∃ r : ℝ, W i = (r : EReal)) ∧ (∀ i, ∃ r : ℝ, a i = (r : EReal)) ∧
      (∀ i, ∃ r : ℝ, bias i = (r : EReal)) ∧ (∀ i, ∃ r : ℝ, rw i = (r : EReal)) ∧ (∀ i, ∃ r : ℝ, rb i = (r : EReal)) := by
  have h0 := congrFun h ValueIdx.ix0
  dsimp only [Cert.Pre_finite_inputs.fn, Cert.Pre_finite_inputs.fn_part1, andi] at h0
  -- the five binary ands, outermost first
  obtain ⟨h5, e_rb⟩ := IntOp.andi_eq_one.1 h0
  obtain ⟨h4, e_rw⟩ := IntOp.andi_eq_one.1 h5
  obtain ⟨h3, e_bias⟩ := IntOp.andi_eq_one.1 h4
  obtain ⟨h2, e_a⟩ := IntOp.andi_eq_one.1 h3
  obtain ⟨e_x, e_W⟩ := IntOp.andi_eq_one.1 h2
  exact ⟨all_finite x _ _ _ e_x, all_finite W _ _ _ e_W, all_finite a _ _ _ e_a,
    all_finite bias _ _ _ e_bias, all_finite rw _ _ _ e_rw, all_finite rb _ _ _ e_rb⟩

end Cert.PreFin
-- ==== Proof.AsmKernel.lean ====
/- The idealized kernel's run with its value. Under the precondition every float input is real, so the law of
   the running softmax applies and the result array ends at the specification's result of the launch contents;
   the argument arrays end unchanged. -/
import proofs.«402513_j38903813767774_3_alg».proof.Defs
import proofs.«402513_j38903813767774_3_alg».proof.Proof.KI.Run
import proofs.«402513_j38903813767774_3_alg».proof.Proof.KI.Val1
import proofs.«402513_j38903813767774_3_alg».proof.Proof.Pre.Finite
import proofs.«402513_j38903813767774_3_alg».proof.Proof.Gen.KernelIdeal
import proofs.«402513_j38903813767774_3_alg».proof.Proof.Gen.Pre_finite_inputs

noncomputable section

namespace Cert.Proof.Asm

open Idealize.ShloMosaic Idealize.ShloMosaic.TcCoe Idealize.SL.Sem
open Cert.KernelIdeal Cert.KernelIdeal.Gen Cert.KernelIdeal.Hand

/-- The specification's result of core `c`'s launch contents. -/
abbrev specOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v9) :=
  Cert.Spec.out (argX m c) (argAdj m c) (argW m c) (argA m c) (argBias m c) (argRw m c) (argRb m c)

theorem frame_pi : Cert.frame_KernelIdeal := fun m g _ => Cert.KernelIdeal.Hand.frame m g

/-- The idealized kernel runs, ends with its result at the specification's and its arguments unchanged. -/
theorem kernel_run (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v9) = specOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run _ _ _).mono (fun r h c => ?_) (run_all (F := Ideal) m g)
  obtain ⟨hx, hW, ha, -, -, -⟩ := Cert.PreFin.real_of_pre _ _ _ _ _ _ _ (hpre c)
  exact ⟨(h c _ (mem_uc main_v9 (by decide))).trans ((W4_main_v9 m g c).trans (arrAt_out m g c hx hW ha)),
    (h c _ (mem_uc main_arg0 (by decide))).trans (W4_main_arg0 m g c),
    (h c _ (mem_uc main_arg1 (by decide))).trans (W4_main_arg1 m g c),
    (h c _ (mem_uc main_arg2 (by decide))).trans (W4_main_arg2 m g c),
    (h c _ (mem_uc main_arg3 (by decide))).trans (W4_main_arg3 m g c),
    (h c _ (mem_uc main_arg4 (by decide))).trans (W4_main_arg4 m g c),
    (h c _ (mem_uc main_arg5 (by decide))).trans (W4_main_arg5 m g c),
    (h c _ (mem_uc main_arg6 (by decide))).trans (W4_main_arg6 m g c)⟩

end Cert.Proof.Asm

end
-- ==== Proof.Ref.Term.lean ====
/- The reference's value as ONE pure term of its seven argument arrays: every operation of the printed
   program applied, in the printed order, to the terms of its operands. Each intermediate carries the name
   of the value it is in the program text; the chain is cut into stages, each a definition of its own over
   the stage's inputs. -/
import proofs.«402513_j38903813767774_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- h = leaky_relu(x · W) with the slope word 0.2: select (v0 ≥ 0) v0 (slope · v0). -/
def refH (x : FVec F S8192x512 .f32) (W : FVec F S512x256 .f32) : FVec F S8192x256 .f32 :=
  let v0 : FVec F S8192x256 .f32 := Host.dotGeneral dot_S8192x512_S512x256_S8192x256_1_0_0_1_n_n none x W
  let cst : FVec F S_ .f32 := constant S_ .f32 0x3E4CCCCD#32
  let c0_cst : FVec F S_ .f32 := constant S_ .f32 0x00000000#32
  let c0_v0 : FVec F S8192x256 .f32 := broadcastInDim S8192x256 ![] bcast_S_S8192x256 c0_cst
  let c0_v1 : IVec S8192x256 1 := cmpf .oge v0 c0_v0
  let c0_v2 : FVec F S_ .f32 := id cst
  let c0_v3 : FVec F S8192x256 .f32 := broadcastInDim S8192x256 ![] bcast_S_S8192x256 c0_v2
  let c0_v4 : FVec F S8192x256 .f32 := mulf c0_v3 v0
  select c0_v1 v0 c0_v4

/-- The attention logits of h (the value v1): the projections of h on the two halves of the attention vector,
    the first broadcast down the rows, the second (transposed) along them, summed; then leaky_relu. -/
def refLogit (v1 : FVec F S8192x256 .f32) (a : FVec F S512x1 .f32) : FVec F S8192x8192 .f32 :=
  let v2 : FVec F S256x1 .f32 := extractStridedSlice S256x1 ![0, 0] a slices_S512x1_S256x1_0_0
  let v3 : FVec F S8192x1 .f32 := Host.dotGeneral dot_S8192x256_S256x1_S8192x1_1_0_0_1_n_n none v1 v2
  let v4 : FVec F S256x1 .f32 := extractStridedSlice S256x1 ![256, 0] a slices_S512x1_S256x1_256_0
  let v5 : FVec F S8192x1 .f32 := Host.dotGeneral dot_S8192x256_S256x1_S8192x1_1_0_0_1_n_n none v1 v4
  let v6 : FVec F S1x8192 .f32 := transpose S1x8192 [1, 0] v5 transposes_S8192x1_S1x8192_1_0
  let v7 : FVec F S8192x8192 .f32 := broadcastInDim S8192x8192 ![0, 1] bcast_S8192x1_S8192x8192_0_1 v3
  let v8 : FVec F S8192x8192 .f32 := broadcastInDim S8192x8192 ![0, 1] bcast_S1x8192_S8192x8192_0_1 v6
  let v9 : FVec F S8192x8192 .f32 := addf v7 v8
  let cst_0 : FVec F S_ .f32 := constant S_ .f32 0x3E4CCCCD#32
  let c1_cst : FVec F S_ .f32 := constant S_ .f32 0x00000000#32
  let c1_v0 : FVec F S8192x8192 .f32 := broadcastInDim S8192x8192 ![] bcast_S_S8192x8192 c1_cst
  let c1_v1 : IVec S8192x8192 1 := cmpf .oge v9 c1_v0
  let c1_v2 : FVec F S_ .f32 := id cst_0
  let c1_v3 : FVec F S8192x8192 .f32 := broadcastInDim S8192x8192 ![] bcast_S_S8192x8192 c1_v2
  let c1_v4 : FVec F S8192x8192 .f32 := mulf c1_v3 v9
  select c1_v1 v9 c1_v4

/-- The masked score of the logits (the value v10): kept where adj > 0, the word -9e15 elsewhere. -/
def refScore (adj : IVec S8192x8192 32) (v10 : FVec F S8192x8192 .f32) : FVec F S8192x8192 .f32 :=
  let c : IVec S_ 32 := constantI S_ 32 0#32
  let v11 : IVec S8192x8192 32 := broadcastInDim S8192x8192 ![] bcast_S_S8192x8192 c
  let v12 : IVec S8192x8192 1 := cmpi .sgt adj v11
  let cst_1 : FVec F S_ .f32 := constant S_ .f32 0xD9FFCB9E#32
  let c2_v0 : FVec F S8192x8192 .f32 := broadcastInDim S8192x8192 ![] bcast_S_S8192x8192 cst_1
  select v12 v10 c2_v0

/-- The exponentials of the scores (the value v13) less their row maximum (the maximum folded from -inf,
    then once more against -inf). -/
def refExp (v13 : FVec F S8192x8192 .f32) : FVec F S8192x8192 .f32 :=
  let cst_2 : FVec F S_ .f32 := constant S_ .f32 0xFF800000#32
  let v14 : FVec F S8192 .f32 := Host.reduce FloatOps.maximumf v13 cst_2 reducesTo_S8192x8192_S8192_d1 h_S_
  let cst_3 : FVec F S_ .f32 := constant S_ .f32 0xFF800000#32
  let v15 : FVec F S8192 .f32 := broadcastInDim S8192 ![] bcast_S_S8192 cst_3
  let v16 : FVec F S8192 .f32 := maximumf v15 v14
  let v17 : FVec F S8192x1 .f32 := broadcastInDim S8192x1 ![0] bcast_S8192_S8192x1_0 v16
  let v18 : FVec F S8192x8192 .f32 := broadcastInDim S8192x8192 ![0, 1] bcast_S8192x1_S8192x8192_0_1 v17
  let v19 : FVec F S8192x8192 .f32 := subf v13 v18
  Host.exp v19

/-- The softmax weights: the exponentials (the value v20) over their row sums. -/
def refAttn (v20 : FVec F S8192x8192 .f32) : FVec F S8192x8192 .f32 :=
  let cst_4 : FVec F S_ .f32 := constant S_ .f32 0x00000000#32
  let v21 : FVec F S8192 .f32 := Host.reduceAdd v20 cst_4 reducesTo_S8192x8192_S8192_d1 h_S_
  let v22 : FVec F S8192x1 .f32 := broadcastInDim S8192x1 ![0] bcast_S8192_S8192x1_0 v21
  let v23 : FVec F S8192x8192 .f32 := broadcastInDim S8192x8192 ![0, 1] bcast_S8192x1_S8192x8192_0_1 v22
  Host.divf v20 v23

/-- The aggregate (the value v25) with each row divided by max(its Euclidean norm, the word 1e-12). -/
def refNormed (v25 : FVec F S8192x256 .f32) : FVec F S8192x256 .f32 :=
  let c3_v0 : FVec F S8192x256 .f32 := mulf v25 v25
  let c3_cst : FVec F S_ .f32 := constant S_ .f32 0x00000000#32
  let c3_v1 : FVec F S8192 .f32 := Host.reduceAdd c3_v0 c3_cst reducesTo_S8192x256_S8192_d1 h_S_
  let c3_v2 : FVec F S8192x1 .f32 := broadcastInDim S8192x1 ![0] bcast_S8192_S8192x1_0 c3_v1
  let v26 : FVec F S8192x1 .f32 := Host.sqrt c3_v2
  let cst_5 : FVec F S_ .f32 := constant S_ .f32 0x2B8CBCCC#32
  let v27 : FVec F S8192x1 .f32 := broadcastInDim S8192x1 ![] bcast_S_S8192x1 cst_5
  let v28 : FVec F S8192x1 .f32 := maximumf v26 v27
  let v29 : FVec F S8192x256 .f32 := broadcastInDim S8192x256 ![0, 1] bcast_S8192x1_S8192x256_0_1 v28
  Host.divf v25 v29

/-- The composed term: h; its logits; their masked scores; the softmax; the aggregate softmax · h; its
    rows normalised; plus bias; plus the residual projection x · rw + rb. -/
def refTerm (x : FVec F S8192x512 .f32) (adj : IVec S8192x8192 32) (W : FVec F S512x256 .f32)
    (a : FVec F S512x1 .f32) (bias : FVec F S256 .f32) (rw : FVec F S512x256 .f32) (rb : FVec F S256 .f32) :
    FVec F S8192x256 .f32 :=
  let v1 : FVec F S8192x256 .f32 := refH x W
  let v10 : FVec F S8192x8192 .f32 := refLogit v1 a
  let v13 : FVec F S8192x8192 .f32 := refScore adj v10
  let v20 : FVec F S8192x8192 .f32 := refExp v13
  let v24 : FVec F S8192x8192 .f32 := refAttn v20
  let v25 : FVec F S8192x256 .f32 := Host.dotGeneral dot_S8192x8192_S8192x256_S8192x256_1_0_0_1_n_n none v24 v1
  let v30 : FVec F S8192x256 .f32 := refNormed v25
  let v31 : FVec F S1x256 .f32 := broadcastInDim S1x256 ![1] bcast_S256_S1x256_1 bias
  let v32 : FVec F S8192x256 .f32 := broadcastInDim S8192x256 ![0, 1] bcast_S1x256_S8192x256_0_1 v31
  let v33 : FVec F S8192x256 .f32 := addf v30 v32
  let v34 : FVec F S8192x256 .f32 := Host.dotGeneral dot_S8192x512_S512x256_S8192x256_1_0_0_1_n_n none x rw
  let v35 : FVec F S1x256 .f32 := broadcastInDim S1x256 ![1] bcast_S256_S1x256_1 rb
  let v36 : FVec F S8192x256 .f32 := broadcastInDim S8192x256 ![0, 1] bcast_S1x256_S8192x256_0_1 v35
  let v37 : FVec F S8192x256 .f32 := addf v34 v36
  addf v33 v37

end Cert.ReferenceIdeal.Hand

end
-- ==== Proof.Ref.Run.lean ====
/- The reference's run read back: @main as the list of its host operations (the calls' bodies inlined over
   the calls' buffer records), and from it: every weakly fair execution terminates with the result buffer at
   the composed pure term of the arguments' launch contents, the arguments unchanged. -/
import proofs.«402513_j38903813767774_3_alg».proof.Proof.Gen.ReferenceIdeal
import proofs.«402513_j38903813767774_3_alg».proof.Proof.Ref.Term
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 64 operations in order, the four calls' bodies listed at their call sites over the calls' buffer
    records: leaky_relu's seven (the zero, its broadcast, the comparison, the slope converted and broadcast, the
    product, the select of the inner call), where's two (the broadcast of the mask word, the select), norm's
    five (the square, the zero, the row sum, its broadcast, the square root). -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x256 ![] bcast_S_S8192x256),
    TRef.binary (.of main_v0 : TRef sig ⟨S8192x256, .f32⟩) main_call0.v0 main_call0.v1 (cmpf .oge),
    TRef.unary (.of main_cst : TRef sig ⟨S_, .f32⟩) main_call0.v2 id,
    TRef.unary main_call0.v2 main_call0.v3 (broadcastInDim S8192x256 ![] bcast_S_S8192x256),
    TRef.binary main_call0.v3 (.of main_v0 : TRef sig ⟨S8192x256, .f32⟩) main_call0.v4 mulf,
    TRef.ternary main_call0.v1 (.of main_v0 : TRef sig ⟨S8192x256, .f32⟩) main_call0.v4 main_call0.call0.v0 select,
    unary main_arg3 main_v2 ((extractStridedSlice S256x1 ![0, 0] · slices_S512x1_S256x1_0_0) : (⟨S512x1, .f32⟩ : BufTy).Contents (Elt F) → (⟨S256x1, .f32⟩ : BufTy).Contents (Elt F)),
    binary main_v1 main_v2 main_v3 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg3 main_v4 ((extractStridedSlice S256x1 ![256, 0] · slices_S512x1_S256x1_256_0) : (⟨S512x1, .f32⟩ : BufTy).Contents (Elt F) → (⟨S256x1, .f32⟩ : BufTy).Contents (Elt F)),
    binary main_v1 main_v4 main_v5 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v5 main_v6 ((transpose S1x8192 [1, 0] · transposes_S8192x1_S1x8192_1_0) : (⟨S8192x1, .f32⟩ : BufTy).Contents (Elt F) → (⟨S1x8192, .f32⟩ : BufTy).Contents (Elt F)),
    unary main_v3 main_v7 (broadcastInDim S8192x8192 ![0, 1] bcast_S8192x1_S8192x8192_0_1 : (⟨S8192x1, .f32⟩ : BufTy).Contents (Elt F) → (⟨S8192x8192, .f32⟩ : BufTy).Contents (Elt F)),
    unary main_v6 main_v8 (broadcastInDim S8192x8192 ![0, 1] bcast_S1x8192_S8192x8192_0_1 : (⟨S1x8192, .f32⟩ : BufTy).Contents (Elt F) → (⟨S8192x8192, .f32⟩ : BufTy).Contents (Elt F)),
    binary main_v7 main_v8 main_v9 (addf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3E4CCCCD#32),
    TRef.nullary main_call1.cst (constant S_ .f32 0x00000000#32),
    TRef.unary main_call1.cst main_call1.v0 (broadcastInDim S8192x8192 ![] bcast_S_S8192x8192),
    TRef.binary (.of main_v9 : TRef sig ⟨S8192x8192, .f32⟩) main_call1.v0 main_call1.v1 (cmpf .oge),
    TRef.unary (.of main_cst_0 : TRef sig ⟨S_, .f32⟩) main_call1.v2 id,
    TRef.unary main_call1.v2 main_call1.v3 (broadcastInDim S8192x8192 ![] bcast_S_S8192x8192),
    TRef.binary main_call1.v3 (.of main_v9 : TRef sig ⟨S8192x8192, .f32⟩) main_call1.v4 mulf,
    TRef.ternary main_call1.v1 (.of main_v9 : TRef sig ⟨S8192x8192, .f32⟩) main_call1.v4 main_call1.call0.v0 select,
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_arg1 main_v11 main_v12 (cmpi .sgt : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xD9FFCB9E#32),
    TRef.unary (.of main_cst_1 : TRef sig ⟨S_, .f32⟩) main_call2.v0 (broadcastInDim S8192x8192 ![] bcast_S_S8192x8192),
    TRef.ternary (.of main_v12 : TRef sig ⟨S8192x8192, .i1⟩) (.of main_v10 : TRef sig ⟨S8192x8192, .f32⟩) main_call2.v0 main_call2.v1 select,
    nullary main_cst_2 (constant S_ .f32 0xFF800000#32),
    binary main_v13 main_cst_2 main_v14 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v15 (broadcastInDim S8192 ![] bcast_S_S8192 : (⟨S_, .f32⟩ : BufTy).Contents (Elt F) → (⟨S8192, .f32⟩ : BufTy).Contents (Elt F)),
    binary main_v15 main_v14 main_v16 (maximumf : (⟨S8192, .f32⟩ : BufTy).Contents (Elt F) → (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x8192 ![0, 1] bcast_S8192x1_S8192x8192_0_1 : (⟨S8192x1, .f32⟩ : BufTy).Contents (Elt F) → (⟨S8192x8192, .f32⟩ : BufTy).Contents (Elt F)),
    binary main_v13 main_v18 main_v19 (subf : (⟨S8192x8192, .f32⟩ : BufTy).Contents (Elt F) → (⟨S8192x8192, .f32⟩ : BufTy).Contents (Elt F) → (⟨S8192x8192, .f32⟩ : BufTy).Contents (Elt F)),
    unary main_v19 main_v20 (Host.exp : (⟨S8192x8192, .f32⟩ : BufTy).Contents (Elt F) → (⟨S8192x8192, .f32⟩ : BufTy).Contents (Elt F)),
    nullary main_cst_4 (constant S_ .f32 0x00000000#32),
    binary main_v20 main_cst_4 main_v21 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    binary main_v20 main_v23 main_v24 (Host.divf : (⟨S8192x8192, .f32⟩ : BufTy).Contents (Elt F) → (⟨S8192x8192, .f32⟩ : BufTy).Contents (Elt F) → (⟨S8192x8192, .f32⟩ : BufTy).Contents (Elt F)),
    binary main_v24 main_v1 main_v25 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.binary (.of main_v25 : TRef sig ⟨S8192x256, .f32⟩) (.of main_v25 : TRef sig ⟨S8192x256, .f32⟩) main_call3.v0 mulf,
    TRef.nullary main_call3.cst (constant S_ .f32 0x00000000#32),
    TRef.binary main_call3.v0 main_call3.cst main_call3.v1 (fun x v => Host.reduceAdd x v reducesTo_S8192x256_S8192_d1 h_S_),
    TRef.unary main_call3.v1 main_call3.v2 (broadcastInDim S8192x1 ![0] bcast_S8192_S8192x1_0),
    TRef.unary main_call3.v2 main_call3.v3 Host.sqrt,
    nullary main_cst_5 (constant S_ .f32 0x2B8CBCCC#32),
    unary main_cst_5 main_v27 (broadcastInDim S8192x1 ![] bcast_S_S8192x1 : (⟨S_, .f32⟩ : BufTy).Contents (Elt F) → (⟨S8192x1, .f32⟩ : BufTy).Contents (Elt F)),
    binary main_v26 main_v27 main_v28 (maximumf : (⟨S8192x1, .f32⟩ : BufTy).Contents (Elt F) → (⟨S8192x1, .f32⟩ : BufTy).Contents (Elt F) → (⟨S8192x1, .f32⟩ : BufTy).Contents (Elt F)),
    unary main_v28 main_v29 (broadcastInDim S8192x256 ![0, 1] bcast_S8192x1_S8192x256_0_1 : (⟨S8192x1, .f32⟩ : BufTy).Contents (Elt F) → (⟨S8192x256, .f32⟩ : BufTy).Contents (Elt F)),
    binary main_v25 main_v29 main_v30 (Host.divf : (⟨S8192x256, .f32⟩ : BufTy).Contents (Elt F) → (⟨S8192x256, .f32⟩ : BufTy).Contents (Elt F) → (⟨S8192x256, .f32⟩ : BufTy).Contents (Elt F)),
    unary main_arg4 main_v31 (broadcastInDim S1x256 ![1] bcast_S256_S1x256_1 : (⟨S256, .f32⟩ : BufTy).Contents (Elt F) → (⟨S1x256, .f32⟩ : BufTy).Contents (Elt F)),
    unary main_v31 main_v32 (broadcastInDim S8192x256 ![0, 1] bcast_S1x256_S8192x256_0_1 : (⟨S1x256, .f32⟩ : BufTy).Contents (Elt F) → (⟨S8192x256, .f32⟩ : BufTy).Contents (Elt F)),
    binary main_v30 main_v32 main_v33 (addf : (⟨S8192x256, .f32⟩ : BufTy).Contents (Elt F) → (⟨S8192x256, .f32⟩ : BufTy).Contents (Elt F) → (⟨S8192x256, .f32⟩ : BufTy).Contents (Elt F)),
    binary main_arg0 main_arg5 main_v34 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg6 main_v35 (broadcastInDim S1x256 ![1] bcast_S256_S1x256_1 : (⟨S256, .f32⟩ : BufTy).Contents (Elt F) → (⟨S1x256, .f32⟩ : BufTy).Contents (Elt F)),
    unary main_v35 main_v36 (broadcastInDim S8192x256 ![0, 1] bcast_S1x256_S8192x256_0_1 : (⟨S1x256, .f32⟩ : BufTy).Contents (Elt F) → (⟨S8192x256, .f32⟩ : BufTy).Contents (Elt F)),
    binary main_v34 main_v36 main_v37 (addf : (⟨S8192x256, .f32⟩ : BufTy).Contents (Elt F) → (⟨S8192x256, .f32⟩ : BufTy).Contents (Elt F) → (⟨S8192x256, .f32⟩ : BufTy).Contents (Elt F)),
    binary main_v33 main_v37 main_v38 (addf : (⟨S8192x256, .f32⟩ : BufTy).Contents (Elt F) → (⟨S8192x256, .f32⟩ : BufTy).Contents (Elt F) → (⟨S8192x256, .f32⟩ : BufTy).Contents (Elt F)) ]

set_option maxRecDepth 2048 in
/-- @main is that straight line: the functions unfolded at their calls, both sides one chain of steps once the
    sequencing is re-associated. -/
theorem main_eq (c : Dev nD) : main (F := F) c = seq ops := by
  simp only [main, fn_leaky_relu.body, fn_leaky_relu_0.body, fn_where.body, fn_where_1.body, fn_where_2.body,
    fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., unary_bufs_sub .., binary_bufs_sub .., unary_bufs_sub ..,
    binary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., unary_bufs_sub .., binary_bufs_sub .., binary_bufs_sub ..,
    unary_bufs_sub .., unary_bufs_sub .., binary_bufs_sub .., binary_bufs_sub ..⟩

/-- Every buffer after the run holds the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the composed term of the arguments' contents: each operation's result
    read at its own buffer is its function of its operands' contents, at any other buffer what was there; the
    typed references' transports are the identity at these literal references; what is left is the stages'
    definitions unfolded. -/
theorem out_eq (V : Valuation τ sig (Elt F)) :
    after ops V (main_v38 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  simp only [TRef.ofBuf, TRef.toBuf, cast_eq]
  rfl

/-! No operation writes an argument's buffer: the fold leaves each at its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of
    @main terminates with the result buffer at the composed term of the arguments' launch contents and the
    seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v38).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.Hand

end
-- ==== Proof.Ref.OpsDot.lean ====
/- The reference's matrix products, the two slices of the attention vector and the transpose, each read at one
   element, over the extended reals. A product of an m × k by a k × n matrix at (i, j) is the sum over the contracted
   coordinate c of l(i, c) · r(c, j); rows [0, 256) and [256, 512) of the attention column are its two halves; a
   transposed column read at (0, j) is the column at (j, 0). -/
import proofs.«402513_j38903813767774_3_alg».proof.Proof.Gen.ReferenceIdeal
import proofs.«402513_j38903813767774_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StackMember

noncomputable section

open scoped BigOperators

namespace Cert.ReferenceIdeal.Hand

open Cert.ReferenceIdeal Cert.ReferenceIdeal.Gen Idealize.ShloMosaic Idealize.ShloMosaic.ValueIdx

/-! ## The three matrix products

Each of the program's three contraction records contracts the left operand's columns against the right operand's
rows, with no batch axis: the plain product, whose element is the sum over the contracted coordinate. -/

/-- [8192, 512] by [512, 256] (x · W and x · Wres): element (i, k) is Σ_d l(i, d) · r(d, k). -/
theorem dot_8192x512_512x256_apply (l : FVec Ideal S8192x512 .f32) (r : FVec Ideal S512x256 .f32) (i : Fin 8192) (k : Fin 256) :
    Host.dotGeneral dot_S8192x512_S512x256_S8192x256_1_0_0_1_n_n none l r (ix2 i k)
      = ∑ d : Fin 512, l (ix2 i d) * r (ix2 d k) :=
  StackMember.dotGeneral_plain_apply (m := 8192) (n := 256) (k := 512) none l r i k

/-- [8192, 256] by [256, 1] (h against half of the attention vector): element (i, 0) is Σ_k l(i, k) · r(k, 0). -/
theorem dot_8192x256_256x1_apply (l : FVec Ideal S8192x256 .f32) (r : FVec Ideal S256x1 .f32) (i : Fin 8192) :
    Host.dotGeneral dot_S8192x256_S256x1_S8192x1_1_0_0_1_n_n none l r (ix2 i (0 : Fin 1))
      = ∑ k : Fin 256, l (ix2 i k) * r (ix2 k (0 : Fin 1)) :=
  StackMember.dotGeneral_plain_apply (m := 8192) (n := 1) (k := 256) none l r i (0 : Fin 1)

/-- [8192, 8192] by [8192, 256] (the attention weights against h): element (i, k) is Σ_j l(i, j) · r(j, k). -/
theorem dot_8192x8192_8192x256_apply (l : FVec Ideal S8192x8192 .f32) (r : FVec Ideal S8192x256 .f32) (i : Fin 8192) (k : Fin 256) :
    Host.dotGeneral dot_S8192x8192_S8192x256_S8192x256_1_0_0_1_n_n none l r (ix2 i k)
      = ∑ j : Fin 8192, l (ix2 i j) * r (ix2 j k) :=
  StackMember.dotGeneral_plain_apply (m := 8192) (n := 256) (k := 8192) none l r i k

/-! ## The two halves of the attention vector -/

/-- Rows [0, 256) of the attention column: its first half. -/
theorem slice_a_lo_apply (a : FVec Ideal S512x1 .f32) (k : Fin 256) :
    extractStridedSlice S256x1 ![0, 0] a slices_S512x1_S256x1_0_0 (ix2 k (0 : Fin 1)) = Cert.Spec.a1 a k :=
  slice2_axis0_apply 0 a slices_S512x1_S256x1_0_0 k (0 : Fin 1) (⟨k.val, by omega⟩ : Fin 512) (Nat.zero_add _).symm

/-- Rows [256, 512) of the attention column: its second half. -/
theorem slice_a_hi_apply (a : FVec Ideal S512x1 .f32) (k : Fin 256) :
    extractStridedSlice S256x1 ![256, 0] a slices_S512x1_S256x1_256_0 (ix2 k (0 : Fin 1)) = Cert.Spec.a2 a k :=
  slice2_axis0_apply 256 a slices_S512x1_S256x1_256_0 k (0 : Fin 1) (⟨256 + k.val, by omega⟩ : Fin 512) rfl

/-! ## The transposed column -/

/-- A column [8192, 1] transposed to a row [1, 8192] reads, at (0, j), the column at (j, 0). -/
theorem transpose_col_apply (v : FVec Ideal S8192x1 .f32) (j : Fin 8192) :
    transpose S1x8192 [1, 0] v transposes_S8192x1_S1x8192_1_0 (ix2 (0 : Fin 1) j) = v (ix2 j (0 : Fin 1)) :=
  transpose_ix2_apply v transposes_S8192x1_S1x8192_1_0 (0 : Fin 1) j

end Cert.ReferenceIdeal.Hand

end
-- ==== Proof.Ref.OpsLayout.lean ====
/- The reference's layout operations and row reductions, each read at an index, at the ideal instance: a scalar
   broadcast to a shape reads the scalar; a column, a row or a vector broadcast along a unit or a new axis reads
   the operand at the coordinates it keeps; a constant reads its word's value; a row maximum is the fold of max
   over the row from the initial value, and a row sum the initial value plus the sum over the row. -/
import proofs.«402513_j38903813767774_3_alg».proof.Proof.Gen.ReferenceIdeal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

namespace Cert.ReferenceIdeal.Hand

open Cert.ReferenceIdeal Cert.ReferenceIdeal.Gen Idealize.ShloMosaic Idealize.ShloMosaic.ValueIdx

/-! ## A scalar broadcast to a shape reads the scalar

In every broadcast lemma the axis map is kept out of the lemma's index, so that the lemma is found whether the
ranks in the map's type are spelt through the shapes or as numerals. -/

theorem bcast_S_S8192x256_apply (s : FVec Ideal S_ .f32) (i : Fin 8192) (k : Fin 256) :
    broadcastInDim S8192x256 (no_index ![]) bcast_S_S8192x256 s (ix2 i k) = s ix0 :=
  broadcastInDim_scalar_apply _ s _

theorem bcast_S_S8192x8192_apply (s : FVec Ideal S_ .f32) (i j : Fin 8192) :
    broadcastInDim S8192x8192 (no_index ![]) bcast_S_S8192x8192 s (ix2 i j) = s ix0 :=
  broadcastInDim_scalar_apply _ s _

theorem bcast_S_S8192x8192_i32_apply (c : IVec S_ 32) (i j : Fin 8192) :
    broadcastInDim S8192x8192 (no_index ![]) bcast_S_S8192x8192 c (ix2 i j) = c ix0 :=
  broadcastInDim_scalar_apply _ c _

theorem bcast_S_S8192_apply (s : FVec Ideal S_ .f32) (i : Fin 8192) :
    broadcastInDim S8192 (no_index ![]) bcast_S_S8192 s (ix1 i) = s ix0 :=
  broadcastInDim_scalar_apply _ s _

theorem bcast_S_S8192x1_apply (s : FVec Ideal S_ .f32) (i : Fin 8192) :
    broadcastInDim S8192x1 (no_index ![]) bcast_S_S8192x1 s (ix2 i (0 : Fin 1)) = s ix0 :=
  broadcastInDim_scalar_apply _ s _

/-! ## A broadcast along a unit or a new axis reads the operand at the kept coordinates

On each operand axis the coordinate read is 0 where the axis has extent one and the result's coordinate on the
axis it is sent to otherwise. -/

/-- A column broadcast along the rows of a square array. -/
theorem bcast_S8192x1_S8192x8192_apply (v : FVec Ideal S8192x1 .f32) (i j : Fin 8192) :
    broadcastInDim S8192x8192 (no_index ![0, 1]) bcast_S8192x1_S8192x8192_0_1 v (ix2 i j) = v (ix2 i (0 : Fin 1)) :=
  broadcastInDim_apply _ _ v (ix2 i j) (ix2 i (0 : Fin 1)) (fun (a : Fin 2) => by fin_cases a <;> rfl)

/-- A row broadcast down the columns of a square array. -/
theorem bcast_S1x8192_S8192x8192_apply (v : FVec Ideal S1x8192 .f32) (i j : Fin 8192) :
    broadcastInDim S8192x8192 (no_index ![0, 1]) bcast_S1x8192_S8192x8192_0_1 v (ix2 i j) = v (ix2 (0 : Fin 1) j) :=
  broadcastInDim_apply _ _ v (ix2 i j) (ix2 (0 : Fin 1) j) (fun (a : Fin 2) => by fin_cases a <;> rfl)

/-- A vector as a column. -/
theorem bcast_S8192_S8192x1_apply (v : FVec Ideal S8192 .f32) (i : Fin 8192) :
    broadcastInDim S8192x1 (no_index ![0]) bcast_S8192_S8192x1_0 v (ix2 i (0 : Fin 1)) = v (ix1 i) :=
  broadcastInDim_apply _ _ v (ix2 i (0 : Fin 1)) (ix1 i) (fun (a : Fin 1) => by fin_cases a; rfl)

/-- A column broadcast along the rows of a 8192 × 256 array. -/
theorem bcast_S8192x1_S8192x256_apply (v : FVec Ideal S8192x1 .f32) (i : Fin 8192) (k : Fin 256) :
    broadcastInDim S8192x256 (no_index ![0, 1]) bcast_S8192x1_S8192x256_0_1 v (ix2 i k) = v (ix2 i (0 : Fin 1)) :=
  broadcastInDim_apply _ _ v (ix2 i k) (ix2 i (0 : Fin 1)) (fun (a : Fin 2) => by fin_cases a <;> rfl)

/-- A vector as a row. -/
theorem bcast_S256_S1x256_apply (b : FVec Ideal S256 .f32) (k : Fin 256) :
    broadcastInDim S1x256 (no_index ![1]) bcast_S256_S1x256_1 b (ix2 (0 : Fin 1) k) = b (ix1 k) :=
  broadcastInDim_apply _ _ b (ix2 (0 : Fin 1) k) (ix1 k) (fun (a : Fin 1) => by fin_cases a; rfl)

/-- A row broadcast down the columns of a 8192 × 256 array. -/
theorem bcast_S1x256_S8192x256_apply (v : FVec Ideal S1x256 .f32) (i : Fin 8192) (k : Fin 256) :
    broadcastInDim S8192x256 (no_index ![0, 1]) bcast_S1x256_S8192x256_0_1 v (ix2 i k) = v (ix2 (0 : Fin 1) k) :=
  broadcastInDim_apply _ _ v (ix2 i k) (ix2 (0 : Fin 1) k) (fun (a : Fin 2) => by fin_cases a <;> rfl)

/-! ## A scalar constant reads its word's value -/

theorem constant_S__apply (w : BitVec 32) : constant (F := Ideal) S_ .f32 w ix0 = Ideal.ofBits .f32 w := rfl

/-! ## Row reductions

The rows of a rank-2 array reduced over axis 1: the source index over the result index i with coordinate j
inserted on the dropped axis is (i, j). -/

theorem reduces_S8192x8192_S8192_d1 : S8192x8192.Reduces [1] S8192 := by decide
theorem reduces_S8192x256_S8192_d1 : S8192x256.Reduces [1] S8192 := by decide

theorem lift_S8192x8192_d1 (i j : Fin 8192) : reduces_S8192x8192_S8192_d1.lift (ix1 i) j = ix2 i j := by
  funext (c : Fin 2); fin_cases c <;> exact Fin.ext rfl

theorem lift_S8192x256_d1 (i : Fin 8192) (k : Fin 256) : reduces_S8192x256_S8192_d1.lift (ix1 i) k = ix2 i k := by
  funext (c : Fin 2); fin_cases c <;> exact Fin.ext rfl

/-- A row's maximum: the fold of max over the row from the initial value. -/
theorem reduceMax_S8192x8192_apply (p : FVec Ideal S8192x8192 .f32) (init : FVec Ideal S_ .f32) (i : Fin 8192) :
    Host.reduce FloatOps.maximumf p init reducesTo_S8192x8192_S8192_d1 h_S_ (ix1 i)
      = (Finset.univ : Finset (Fin 8192)).fold max (init ix0) (fun j => p (ix2 i j)) := by
  refine (Host.reduce_eq_fold_single (FloatOps.maximumf (F := Ideal) (φ := .f32)) p init reducesTo_S8192x8192_S8192_d1
    reduces_S8192x8192_S8192_d1 h_S_ (ix1 i)).trans ?_
  rw [eq_ix0 (Shape.Idx.first h_S_)]
  show (Finset.univ : Finset (Fin 8192)).fold max (init ix0) (fun j => p (reduces_S8192x8192_S8192_d1.lift (ix1 i) j)) = _
  exact Finset.fold_congr (fun j _ => congrArg p (lift_S8192x8192_d1 i j))

/-- A row's sum over 8192 columns: the initial value plus the sum over the row. -/
theorem reduceAdd_S8192x8192_apply (p : FVec Ideal S8192x8192 .f32) (init : FVec Ideal S_ .f32) (i : Fin 8192) :
    Host.reduceAdd p init reducesTo_S8192x8192_S8192_d1 h_S_ (ix1 i) = init ix0 + ∑ j : Fin 8192, p (ix2 i j) := by
  refine (hostReduceAdd_apply p init reducesTo_S8192x8192_S8192_d1 h_S_ (ix1 i)).trans ?_
  refine (Ideal.hostReduceAdd_single reducesTo_S8192x8192_S8192_d1 reduces_S8192x8192_S8192_d1 p _ (ix1 i)).trans ?_
  rw [eq_ix0 (Shape.Idx.first h_S_)]
  show init ix0 + ∑ j : Fin 8192, p (reduces_S8192x8192_S8192_d1.lift (ix1 i) j) = _
  simp only [lift_S8192x8192_d1]

/-- A row's sum over 256 columns. -/
theorem reduceAdd_S8192x256_apply (p : FVec Ideal S8192x256 .f32) (init : FVec Ideal S_ .f32) (i : Fin 8192) :
    Host.reduceAdd p init reducesTo_S8192x256_S8192_d1 h_S_ (ix1 i) = init ix0 + ∑ k : Fin 256, p (ix2 i k) := by
  refine (hostReduceAdd_apply p init reducesTo_S8192x256_S8192_d1 h_S_ (ix1 i)).trans ?_
  refine (Ideal.hostReduceAdd_single reducesTo_S8192x256_S8192_d1 reduces_S8192x256_S8192_d1 p _ (ix1 i)).trans ?_
  rw [eq_ix0 (Shape.Idx.first h_S_)]
  show init ix0 + ∑ k : Fin 256, p (reduces_S8192x256_S8192_d1.lift (ix1 i) k) = _
  simp only [lift_S8192x256_d1]

end Cert.ReferenceIdeal.Hand

end
-- ==== Proof.Ref.Value.lean ====
/- The reference's term, over the extended reals, is the specification's result, element by element: each
   host operation read at an index — a matrix product as the sum over its contraction index, a broadcast as the
   operand at the kept coordinates, a row maximum and a row sum as the fold and the sum over the row, the
   slices of the attention vector as its two halves, the transpose as the swap of the two coordinates. The term
   is read stage by stage: each stage at one element of a variable input, then each composed stage as the
   specification's function of the same name. -/
import proofs.«402513_j38903813767774_3_alg».proof.Proof.Ref.Term
import proofs.«402513_j38903813767774_3_alg».proof.Proof.Ref.OpsDot
import proofs.«402513_j38903813767774_3_alg».proof.Proof.Ref.OpsLayout
import proofs.«402513_j38903813767774_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.Hand

open Cert.ReferenceIdeal Cert.ReferenceIdeal.Gen Idealize.ShloMosaic Idealize.SL.Sem Idealize.ShloMosaic.ValueIdx

/-! ## The host's pointwise exponential and square root, and the integer comparison, at an element -/

theorem hostExp_apply {s : Shape} {φ : FTy} (x : FVec Ideal s φ) (i : s.Idx) : Host.exp x i = Ideal.exp (x i) := rfl
theorem hostSqrt_apply {s : Shape} {φ : FTy} (x : FVec Ideal s φ) (i : s.Idx) : Host.sqrt x i = Ideal.sqrt (x i) := rfl
theorem cmpi_apply {s : Shape} {w : Nat} (p : CmpIPredicate) (x y : IVec s w) (i : s.Idx) : cmpi p x y i = IntOp.cmpi p (x i) (y i) := rfl
/-- The -inf word is the bottom of the extended reals, and a maximum against it changes nothing. -/
theorem negInf_eq_bot : (Ideal.ofBits .f32 0xFF800000#32 : Ideal .f32) = ⊥ := by simp [Ideal.ofBits, Ideal.ieee]
theorem max_negInf (v : Ideal .f32) : max (Ideal.ofBits .f32 0xFF800000#32) v = v := by simp [Ideal.ofBits, Ideal.ieee]

/-! ## The stages of the reference's term, each at one element of a variable input -/

/-- h at (i, k): leaky_relu of the product's element. -/
theorem refH_apply (x : FVec Ideal S8192x512 .f32) (W : FVec Ideal S512x256 .f32) (i : Fin 8192) (k : Fin 256) :
    refH (F := Ideal) x W (ix2 i k) = Cert.Spec.hS x W i k := by
  unfold refH
  simp only [select_apply, cmpf_apply, mulf_apply, id, bcast_S_S8192x256_apply, constant_S__apply, dot_8192x512_512x256_apply]
  rfl

/-- A row of h against the first half of the attention vector. -/
theorem attnTerm1_apply (v1 : FVec Ideal S8192x256 .f32) (a : FVec Ideal S512x1 .f32) (i : Fin 8192) :
    Host.dotGeneral dot_S8192x256_S256x1_S8192x1_1_0_0_1_n_n none v1
        (extractStridedSlice S256x1 ![0, 0] a slices_S512x1_S256x1_0_0) (ix2 i (0 : Fin 1))
      = ∑ k : Fin 256, v1 (ix2 i k) * Cert.Spec.a1 a k :=
  (dot_8192x256_256x1_apply v1 _ i).trans
    (Finset.sum_congr rfl fun k _ => congrArg (fun t => v1 (ix2 i k) * t) (slice_a_lo_apply a k))
/-- A row of h against the second half. -/
theorem attnTerm2_apply (v1 : FVec Ideal S8192x256 .f32) (a : FVec Ideal S512x1 .f32) (j : Fin 8192) :
    Host.dotGeneral dot_S8192x256_S256x1_S8192x1_1_0_0_1_n_n none v1
        (extractStridedSlice S256x1 ![256, 0] a slices_S512x1_S256x1_256_0) (ix2 j (0 : Fin 1))
      = ∑ k : Fin 256, v1 (ix2 j k) * Cert.Spec.a2 a k :=
  (dot_8192x256_256x1_apply v1 _ j).trans
    (Finset.sum_congr rfl fun k _ => congrArg (fun t => v1 (ix2 j k) * t) (slice_a_hi_apply a k))

/-- The logit at (i, j): leaky_relu of row i's first attention term plus row j's second. -/
theorem refLogit_apply (v1 : FVec Ideal S8192x256 .f32) (a : FVec Ideal S512x1 .f32) (i j : Fin 8192) :
    refLogit (F := Ideal) v1 a (ix2 i j)
      = Cert.Spec.leaky ((∑ k : Fin 256, v1 (ix2 i k) * Cert.Spec.a1 a k) + (∑ k : Fin 256, v1 (ix2 j k) * Cert.Spec.a2 a k)) := by
  unfold refLogit
  simp only [select_apply, cmpf_apply, mulf_apply, addf_apply, id, bcast_S_S8192x8192_apply, constant_S__apply,
    bcast_S8192x1_S8192x8192_apply, bcast_S1x8192_S8192x8192_apply]
  rw [transpose_col_apply, attnTerm1_apply, attnTerm2_apply]
  rfl

/-- The masked score at (i, j): the logit where the adjacency word is positive, the mask word elsewhere. -/
theorem refScore_apply (adj : IVec S8192x8192 32) (v10 : FVec Ideal S8192x8192 .f32) (i j : Fin 8192) :
    refScore (F := Ideal) adj v10 (ix2 i j)
      = Scalar.select (IntOp.cmpi .sgt (adj (ix2 i j)) 0#32) (v10 (ix2 i j)) Cert.Spec.maskW := by
  unfold refScore
  simp only [select_apply, cmpi_apply, bcast_S_S8192x8192_apply, bcast_S_S8192x8192_i32_apply, constant_S__apply, constantI_apply]

/-- The exponential at (i, j): of the score less its row's maximum (the second maximum, against the bottom, changes
    nothing). -/
theorem refExp_apply (v13 : FVec Ideal S8192x8192 .f32) (i j : Fin 8192) :
    refExp (F := Ideal) v13 (ix2 i j)
      = Ideal.exp (v13 (ix2 i j) - (Finset.univ : Finset (Fin 8192)).fold max ⊥ (fun j' => v13 (ix2 i j'))) := by
  unfold refExp
  simp only [hostExp_apply, subf_apply]
  rw [bcast_S8192x1_S8192x8192_apply, bcast_S8192_S8192x1_apply, maximumf_apply, bcast_S_S8192_apply,
    reduceMax_S8192x8192_apply, constant_S__apply, max_negInf]
  exact congrArg (fun b => Ideal.exp (v13 (ix2 i j) - Finset.fold max b (fun j' => v13 (ix2 i j')) Finset.univ)) negInf_eq_bot

/-- The attention weight at (i, j): the exponential over its row's sum. -/
theorem refAttn_apply (v20 : FVec Ideal S8192x8192 .f32) (i j : Fin 8192) :
    refAttn (F := Ideal) v20 (ix2 i j) = Ideal.div (v20 (ix2 i j)) (∑ j' : Fin 8192, v20 (ix2 i j')) := by
  unfold refAttn
  simp only [hostDivf_apply, bcast_S8192x1_S8192x8192_apply, bcast_S8192_S8192x1_apply, reduceAdd_S8192x8192_apply,
    constant_S__apply, Ideal.ofBits_zero_f32, zero_add]

/-- The normalised aggregate at (i, k): the aggregate over max(its row's Euclidean norm, the floor word). -/
theorem refNormed_apply (v25 : FVec Ideal S8192x256 .f32) (i : Fin 8192) (k : Fin 256) :
    refNormed (F := Ideal) v25 (ix2 i k)
      = Ideal.div (v25 (ix2 i k)) (max (Ideal.sqrt (∑ k' : Fin 256, v25 (ix2 i k') * v25 (ix2 i k'))) Cert.Spec.epsW) := by
  unfold refNormed
  simp only [hostDivf_apply, maximumf_apply, hostSqrt_apply, mulf_apply, bcast_S8192x1_S8192x256_apply,
    bcast_S8192_S8192x1_apply, bcast_S_S8192x1_apply, reduceAdd_S8192x256_apply, constant_S__apply,
    Ideal.ofBits_zero_f32, zero_add]

/-! ## The composed stages as the specification's functions -/

section Composed
variable (x : FVec Ideal S8192x512 .f32) (adj : IVec S8192x8192 32) (W : FVec Ideal S512x256 .f32)
  (a : FVec Ideal S512x1 .f32)

/-- The logits of h: leaky_relu of the two attention terms' sum. -/
theorem logit_eq (i j : Fin 8192) :
    refLogit (F := Ideal) (refH x W) a (ix2 i j) = Cert.Spec.leaky (Cert.Spec.t1 x W a i + Cert.Spec.t2 x W a j) := by
  rw [refLogit_apply]
  simp only [refH_apply]
  rfl

/-- Their masked scores. -/
theorem score_eq (i j : Fin 8192) :
    refScore (F := Ideal) adj (refLogit (refH x W) a) (ix2 i j) = Cert.Spec.score x adj W a i j := by
  rw [refScore_apply, logit_eq]
  rfl

/-- The exponentials of the scores less their row maximum. -/
theorem pexp_eq (i j : Fin 8192) :
    refExp (F := Ideal) (refScore adj (refLogit (refH x W) a)) (ix2 i j) = Cert.Spec.pexp x adj W a i j := by
  rw [refExp_apply]
  simp only [score_eq]
  rfl

/-- The attention weights. -/
theorem attn_eq (i j : Fin 8192) :
    refAttn (F := Ideal) (refExp (refScore adj (refLogit (refH x W) a))) (ix2 i j)
      = Ideal.div (Cert.Spec.pexp x adj W a i j) (Cert.Spec.rowSum x adj W a i) := by
  rw [refAttn_apply]
  simp only [pexp_eq]
  rfl

/-- The aggregate: the attention weights against h. -/
theorem agg_eq (i : Fin 8192) (k : Fin 256) :
    Host.dotGeneral dot_S8192x8192_S8192x256_S8192x256_1_0_0_1_n_n none
        (refAttn (F := Ideal) (refExp (refScore adj (refLogit (refH x W) a)))) (refH x W) (ix2 i k)
      = Cert.Spec.agg x adj W a i k := by
  rw [dot_8192x8192_8192x256_apply]
  simp only [attn_eq, refH_apply]
  rfl

end Composed

/-- THE REFERENCE'S VALUE at the ideal instance. -/
theorem refTerm_eq_out (x : FVec Ideal S8192x512 .f32) (adj : IVec S8192x8192 32) (W : FVec Ideal S512x256 .f32)
    (a : FVec Ideal S512x1 .f32) (bias : FVec Ideal S256 .f32) (rw : FVec Ideal S512x256 .f32) (rb : FVec Ideal S256 .f32) :
    refTerm (F := Ideal) x adj W a bias rw rb = Cert.Spec.out x adj W a bias rw rb := by
  funext j
  obtain ⟨i, k, rfl⟩ : ∃ (i : Fin 8192) (k : Fin 256), j = ix2 i k := ⟨j 0, j 1, eq_ix2 j⟩
  unfold refTerm
  simp only [addf_apply, bcast_S1x256_S8192x256_apply, bcast_S256_S1x256_apply, refNormed_apply, agg_eq,
    dot_8192x512_512x256_apply]
  rfl

end Cert.ReferenceIdeal.Hand

end
-- ==== Proof.lean ====
/- The proof of `Cert.Claim`: a graph-attention layer as two Pallas calls against its plain jnp reference.
   Both programs compute, for x (8192 × 512), adjacency words adj, weights W, an attention vector a (512 × 1), a bias,
   and a residual projection (Wres, bres):
     h = leaky_relu(x · W),  s(i, j) = leaky_relu(h_i · a[0:256] + h_j · a[256:512]) masked to f32(-9e15) where adj ≤ 0,
     the row softmax of s, its aggregate g = softmax(s) · h, and  g / max(‖g‖₂, 1e-12) + bias + (x · Wres + bres).
   The kernel computes the aggregate in the running form over 8 blocks of 1024 key columns (a running row maximum,
   a running sum and a running weighted sum, rescaled by exp(m - m') at each block) and divides once at the end; the
   reference takes the row maximum, exponentiates, normalises and multiplies. Over the extended reals the two agree
   when the scores and h are real — exp(a - m) · exp(m - m') = exp(a - m'), and (Σ p_j h_j) / L = Σ (p_j / L) h_j for
   a real L ≥ 1 — which the precondition (every float input finite) gives. Every float literal is the same word on
   both sides; the only one read is -inf, the bottom of the order.
   The frames: each call's body obligation against the launch's segment kit (Proof/KI, and Proof/K for the
   word-level program, the same text); the reference's run is its list of host operations evaluated in order. -/
import proofs.«402513_j38903813767774_3_alg».proof.Defs
import proofs.«402513_j38903813767774_3_alg».proof.Proof.AsmKernel
import proofs.«402513_j38903813767774_3_alg».proof.Proof.K.Run
import proofs.«402513_j38903813767774_3_alg».proof.Proof.Ref.Run
import proofs.«402513_j38903813767774_3_alg».proof.Proof.Ref.Value
import proofs.«402513_j38903813767774_3_alg».proof.Proof.Gen.Kernel
import proofs.«402513_j38903813767774_3_alg».proof.Proof.Gen.KernelIdeal
import proofs.«402513_j38903813767774_3_alg».proof.Proof.Gen.ReferenceIdeal
import proofs.«402513_j38903813767774_3_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_p : Cert.frame_Kernel := fun m g _ => Cert.Kernel.Hand.frame m g

/-- The reference runs and leaves its arguments unchanged: its run, the result dropped. -/
theorem frame_ri : Cert.frame_ReferenceIdeal := fun m g _ =>
  (θ_run Cert.ReferenceIdeal.defs _ _).mono (fun _ h c => (h c).2) (Cert.ReferenceIdeal.Hand.run (F := Ideal) m g)

/-- From memories agreeing on the arguments both idealized programs end at the specification's result of those
    arguments: the kernel by its value, the reference by its term read element by element. -/
theorem algebraic : Cert.algebraic_KernelIdeal_ReferenceIdeal := by
  intro m g m' g' hpre hagree
  refine ⟨Asm.specOut m, Asm.kernel_run m g hpre, ?_⟩
  refine (θ_run Cert.ReferenceIdeal.defs _ _).mono (fun _ h c => ⟨(h c).1.trans ?_, (h c).2⟩)
    (Cert.ReferenceIdeal.Hand.run (F := Ideal) m' g')
  obtain ⟨e0, e1, e2, e3, e4, e5, e6⟩ := hagree c
  rw [e0, e1, e2, e3, e4, e5, e6]
  exact Cert.ReferenceIdeal.Hand.refTerm_eq_out _ _ _ _ _ _ _

theorem claim : Cert.Claim :=
  ⟨Cert.Kernel.Gen.facts, Cert.KernelIdeal.Gen.facts, Cert.ReferenceIdeal.Gen.facts, Cert.Pre_finite_inputs.Gen.facts,
    frame_p, Asm.frame_pi, frame_ri, trivial, algebraic⟩

end Cert.Proof

end
